-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x128 .f32) (main_arg1 : FVec F S8192x128 .f32) (main_arg2 : FVec F S8192x8192 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S8192x128 : Shape := ⟨2, ![8192, 128]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8x8192 : Shape := ⟨2, ![8, 8192]⟩
abbrev S8x8x128 : Shape := ⟨3, ![8, 8, 128]⟩
abbrev S1024x128 : Shape := ⟨2, ![1024, 128]⟩
abbrev S8x1024 : Shape := ⟨2, ![8, 1024]⟩
abbrev S1024x1024 : Shape := ⟨2, ![1024, 1024]⟩
abbrev S1x8x128 : Shape := ⟨3, ![1, 8, 128]⟩
abbrev S1x1 : Shape := ⟨2, ![1, 1]⟩
abbrev S1024x1 : Shape := ⟨2, ![1024, 1]⟩
abbrev S1x1024 : Shape := ⟨2, ![1, 1024]⟩
abbrev S1024 : Shape := ⟨1, ![1024]⟩
abbrev S1 : Shape := ⟨1, ![1]⟩
abbrev S8x1x1 : Shape := ⟨3, ![8, 1, 1]⟩
abbrev S8 : Shape := ⟨1, ![8]⟩

abbrev nBuf : Space → Nat
  | .hbm => 33
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x8192, .f32⟩
  | .hbm, ⟨3, _⟩ => ⟨S8192x128, .f32⟩
  | .hbm, ⟨4, _⟩ => ⟨S8192x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x128, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x128, .f32⟩
  | .hbm, ⟨14, _⟩ => ⟨S1x8192, .f32⟩
  | .hbm, ⟨15, _⟩ => ⟨S8x8192, .f32⟩
  | .hbm, ⟨16, _⟩ => ⟨S8192x128, .bf16⟩
  | .hbm, ⟨17, _⟩ => ⟨S8x8x128, .f32⟩
  | .hbm, ⟨18, _⟩ => ⟨S8x8x128, .f32⟩
  | .hbm, ⟨19, _⟩ => ⟨S8x1x1, .f32⟩
  | .hbm, ⟨20, _⟩ => ⟨S8, .f32⟩
  | .hbm, ⟨21, _⟩ => ⟨S_, .f32⟩
  | .hbm, ⟨22, _⟩ => ⟨S_, .f32⟩
  | .hbm, ⟨23, _⟩ => ⟨S8x1x1, .f32⟩
  | .hbm, ⟨24, _⟩ => ⟨S8, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | .local _ .vmem, ⟨6, _⟩ => ⟨S8x1024, .f32⟩
  | .local _ .vmem, ⟨7, _⟩ => ⟨S8x1024, .f32⟩
  | .local _ .vmem, ⟨8, _⟩ => ⟨S1024x1024, .f32⟩
  | .local _ .vmem, ⟨9, _⟩ => ⟨S1024x1024, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S1x1, .f32⟩
  | .local _ .vmem, ⟨15, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_25 : BitVec 32 := 0#32
  let v46 : BitVec 1 := Scalar.cmpi .ne v45 c0_i32_25
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S8192x128_S_d0_1 : S8192x128.ReducesTo [0, 1] S_
  h_S_ : 0 < S_.numel
  reducesTo_S8192x128_S8192_d1 : S8192x128.ReducesTo [1] S8192
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S8192_S1x8192_1 : S8192.BroadcastsInDim S1x8192 (![1] : Fin 1 → Fin S1x8192.rank)
  bcast_S1x8192_S8x8192_0_1 : S1x8192.BroadcastsInDim S8x8192 (![0, 1] : Fin 2 → Fin S8x8192.rank)
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x128_S1024x1_0_0 : ∀ a, (![0, 0] : Fin 2 → Nat) a + S1024x1.size a ≤ S1024x128.size a
  h_S1024x1 : 0 < S1024x1.numel
  shapeCasts_S1024x1_S1024x1 : S1024x1.ShapeCasts S1024x1
  inb_S8x1024_S1x1024_0_0 : ∀ a, (![0, 0] : Fin 2 → Nat) a + S1x1024.size a ≤ S8x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  natLt_1_32 : 1 < 32
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  slices_S8x8x128_S8x1x1_0_0_0 : S8x8x128.Slices ![0, 0, 0] S8x1x1
  shapeCasts_S8x1x1_S8 : S8x1x1.ShapeCasts S8
  reducesTo_S8_S_d0 : S8.ReducesTo [0] S_
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S8x8192.size a
  hwx0_3 : ∀ i : grid0.Coords, EltTy.bits .f32 = 32 ∨ (Rect.block (s := S8x8192) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S8x8x128.size a
  hwx0_5 : ∀ i : grid0.Coords, EltTy.bits .f32 = 32 ∨ (Rect.block (s := S8x8x128) S1x8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S8x8x128.size a
  hwx0_6 : ∀ i : grid0.Coords, EltTy.bits .f32 = 32 ∨ (Rect.block (s := S8x8x128) S1x8x128.size (cc0_transform_6 i) (hinb0_6 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v10) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_0) S1x8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11_1) S1x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S_ : Shape := ⟨0, ![]⟩
abbrev S8192 : Shape := ⟨1, ![8192]⟩
abbrev S128x8192 : Shape := ⟨2, ![128, 8192]⟩
abbrev S8192x1 : Shape := ⟨2, ![8192, 1]⟩
abbrev S1x8192 : Shape := ⟨2, ![1, 8192]⟩

abbrev nBuf : Space → Nat
  | .hbm => 42
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x8192, .f32⟩
  | .hbm, ⟨3, _⟩ => ⟨S8192x128, .f32⟩
  | .hbm, ⟨4, _⟩ => ⟨S8192x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192, .f32⟩
  | .hbm, ⟨13, _⟩ => ⟨S128x8192, .f32⟩
  | .hbm, ⟨14, _⟩ => ⟨S8192x8192, .f32⟩
  | .hbm, ⟨15, _⟩ => ⟨S8192x1, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .i1⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  reducesTo_S8192x128_S_d0_1 : S8192x128.ReducesTo [0, 1] S_
  h_S_ : 0 < S_.numel
  reducesTo_S8192x128_S8192_d1 : S8192x128.ReducesTo [1] S8192
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Setup.lean ====
/-
  The edge kernel runs on an 8 × 8 grid, point t = 8·i + j: it streams tile (i, j) of the adjacency, adds the tile's two
  sums into two one-word accumulators kept between points, clears them where j = 0 and writes them out where j = 7.
  This module fixes what every later module of the frame is stated over: the contents of the buffers when the region
  is entered (the launch memory after the host operations before the call), each window's block at a point read off
  those contents, the two branch conditions (j = 0, j = 7) in closed form over the 64 points, where the two output
  windows are idle (everywhere but j = 7) and written back (only at j = 7), and that an input window's staging buffer
  holds the window's block at every point, freshly fetched or not (rows i of the difference and of the row norms are
  fetched once per row of tiles and found again at the seven later points).
-/
import proofs.«111500_j68917045231788_1_alg».proof.Proof.Gen.Kernel.Launch
import proofs.«111500_j68917045231788_1_alg».proof.Proof.Gen.Kernel.Skeleton
import proofs.«111500_j68917045231788_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents around the region -/

/-- Core `c`'s buffers at launch, as a valuation. -/
abbrev V0 (c : Dev nD) : Valuation τ sig (Elt F) := fun b => m (c, b)
/-- The same after the fourteen host operations before the call: the difference d = s − t, its row norms laid out as a
    column block and as a lane block, and d rounded to bf16. -/
abbrev V1 (c : Dev nD) : Valuation τ sig (Elt F) := StableHlo.after hostOps0 (V0 m c)
/-- Read at a TensorCore reference: what the region finds in each array. -/
abbrev V (c : Dev nD) (b : Ref sig .tc) : Buf (Elt F) ((c : Thread nD τ).loc b) := V1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branch conditions -/

/-- `j = 0`: the accumulators are cleared (the kernel's scalar chain on the second grid coordinate). -/
abbrev atFirst (i : grid0.Coords) : Prop := (Scalar.cmpi .ne (Scalar.extui (Scalar.cmpi .eq (BitVec.ofNat 32 (i 1).val) 0#32)) 0#32) = 1#1
theorem atFirst_iff : ∀ t : Fin cfg0.N, atFirst (grid0.coords t) ↔ t.val % 8 = 0 :=
  (by decide +kernel : ∀ t : Fin grid0.N, atFirst (grid0.coords t) ↔ t.val % 8 = 0)

/-- `j = 7`: the accumulators are written to the two output blocks of row `i`. -/
abbrev atLast (i : grid0.Coords) : Prop := k0_cond2 i = 1#1
theorem atLast_iff : ∀ t : Fin cfg0.N, atLast (grid0.coords t) ↔ t.val % 8 = 7 :=
  (by decide +kernel : ∀ t : Fin grid0.N, atLast (grid0.coords t) ↔ t.val % 8 = 7)

/-! ## Where the output windows are idle -/

theorem idle5_of : ∀ t : Fin cfg0.N, ¬atLast (grid0.coords t) → cfg0.idle 5 (grid0.coords t) = true := by decide +kernel
theorem idle6_of : ∀ t : Fin cfg0.N, ¬atLast (grid0.coords t) → cfg0.idle 6 (grid0.coords t) = true := by decide +kernel
theorem noFlush5_of : ∀ t : Fin cfg0.N, ¬atLast (grid0.coords t) → (cfg0.win 5).flush t = false := by decide +kernel
theorem noFlush6_of : ∀ t : Fin cfg0.N, ¬atLast (grid0.coords t) → (cfg0.win 6).flush t = false := by decide +kernel
theorem live5_of : ∀ t : Fin cfg0.N, atLast (grid0.coords t) → cfg0.idle 5 (grid0.coords t) = false := by decide +kernel
theorem live6_of : ∀ t : Fin cfg0.N, atLast (grid0.coords t) → cfg0.idle 6 (grid0.coords t) = false := by decide +kernel

/-! ## The staging and scratch memrefs at a point -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x8x128 .f32 := win0_6.stage (cfg0.slots t 6)
abbrev hs6 (t : Fin cfg0.N) : (ms6 t).IsWhole := hstage0_6 ((cfg0.slots t 6).cast nbuf0_6)
/-- The two accumulators: one-word scratch buffers of the kernel's own, kept between points. -/
abbrev accN : Memref sig .tc .vmem S1x1 .f32 := Memref.whole cc0_scratch0
abbrev accA : Memref sig .tc .vmem S1x1 .f32 := Memref.whole cc0_scratch1
/-- Views through which the buffers' contents are stated. -/
abbrev vAccN : View sig .tc .vmem S1x1 .f32 := accN.view
abbrev vAccA : View sig .tc .vmem S1x1 .f32 := accA.view
abbrev vOut5 : View sig .tc .vmem S1x8x128 .f32 := (Memref.whole cc0_stg5_0 : Memref sig .tc .vmem S1x8x128 .f32).view
abbrev vOut6 : View sig .tc .vmem S1x8x128 .f32 := (Memref.whole cc0_stg6_0 : Memref sig .tc .vmem S1x8x128 .f32).view

/-- The scoped buffers no window stages are the two accumulators, each owned whole at some contents. -/
theorem scopedRest_acc (c : Dev nD) :
    (Pipeline.scopedRest (Ix := Unit) (Name := ℕ) (U := UR sig nD τ) (Lvl := ℕ) (Val := Elt F) spec0 c : sProp 𝕄)
      = iprop((∃ d, owns (c : Thread nD τ) accN fullShare d) ∗ (∃ d, owns (c : Thread nD τ) accA fullShare d)) := by
  rw [scopedRest0_eq]; simp only [accN, accA, owns_whole]; try rfl

/-! ## An input window's buffer holds its block at every point -/

section Inputs
variable {c : Dev nD} (dat : Dat τ (Elt F) Unit ℕ (UR sig nD τ) ℕ cfg0 c)

theorem before0_of (hA : dat.A 0 = V m c (Pipeline.arrRef spec0 0)) (hafter : ∀ t, dat.after 0 t = iblk m c 0 t) (t : Fin cfg0.N) (d) :
    dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hA : dat.A 1 = V m c (Pipeline.arrRef spec0 1)) (hafter : ∀ t, dat.after 1 t = iblk m c 1 t) (t : Fin cfg0.N) (d) :
    dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hA : dat.A 2 = V m c (Pipeline.arrRef spec0 2)) (hafter : ∀ t, dat.after 2 t = iblk m c 2 t) (t : Fin cfg0.N) (d) :
    dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of (hA : dat.A 3 = V m c (Pipeline.arrRef spec0 3)) (hafter : ∀ t, dat.after 3 t = iblk m c 3 t) (t : Fin cfg0.N) (d) :
    dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of (hA : dat.A 4 = V m c (Pipeline.arrRef spec0 4)) (hafter : ∀ t, dat.after 4 t = iblk m c 4 t) (t : Fin cfg0.N) (d) :
    dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
end Inputs

end Cert.Kernel.Fr

end
-- ==== Proof.K.RunFirst.lean ====
/-
  The kernel body at a point with j = 0: both accumulators are cleared, then the tile's two sums are added into them;
  nothing is written out. On whole staging buffers holding the five input blocks, the two output buffers at any contents
  (handed back untouched) and the two accumulators at anything, the body runs and leaves the inputs as they were and each
  accumulator rewritten by its stores (the clearing, then the sum); the stored pieces are found by the symbolic run.
-/
import proofs.«111500_j68917045231788_1_alg».proof.Proof.K.Setup

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def runFirst (c : Dev nD) (i : grid0.Coords) (a2 : Memref sig .tc .vmem S1024x128 .bf16) (h2 : a2.IsWhole) (a3 : Memref sig .tc .vmem S1024x128 .bf16) (h3 : a3.IsWhole) (a4 : Memref sig .tc .vmem S1024x128 .f32) (h4 : a4.IsWhole) (a5 : Memref sig .tc .vmem S8x1024 .f32) (h5 : a5.IsWhole) (a6 : Memref sig .tc .vmem S1024x1024 .f32) (h6 : a6.IsWhole) (a7 : Memref sig .tc .vmem S1x8x128 .f32) (h7 : a7.IsWhole) (a8 : Memref sig .tc .vmem S1x8x128 .f32) (h8 : a8.IsWhole) (a9 : Memref sig .tc .vmem S1x1 .f32) (h9 : a9.IsWhole) (a10 : Memref sig .tc .vmem S1x1 .f32) (h10 : a10.IsWhole) (hf : atFirst i) (hl : ¬atLast i)
    (x0 : Vec F S1024x128 .bf16) (x1 : Vec F S1024x128 .bf16) (x2 : Vec F S1024x128 .f32) (x3 : Vec F S8x1024 .f32) (x4 : Vec F S1024x1024 .f32) :
    Σ' (LN : List (View.Piece (Elt F) S1x1 .f32)), { LA : List (View.Piece (Elt F) S1x1 .f32) //
      ∀ (y5 y6 : Vec F S1x8x128 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
            ∗ owns (c : Thread nD τ) a7 fullShare y5 ∗ owns (c : Thread nD τ) a8 fullShare y6
            ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
                ∗ owns (c : Thread nD τ) a7 fullShare y5 ∗ owns (c : Thread nD τ) a8 fullShare y6
                ∗ (∃ f, a9.view.loc (c : Thread nD τ) ↦[a9.view.set]{fullShare} a9.view.writes (Elt F) f LN)
                ∗ (∃ f, a10.view.loc (c : Thread nD τ) ↦[a10.view.set]{fullShare} a10.view.writes (Elt F) f LA)) -∗ K ⟨⟩))
          ⊢ wp frame (wpE (defs₀ (F := F)) Variants.none c none) E (cc0__edge_kernel i a2 h2 a3 h3 a4 h4 a5 h5 a6 h6 a7 h7 a8 h8 a9 h9 a10 h10) K } := by
  refine ⟨?_, ?_, fun y5 y6 E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dN, %fN, -, HN⟩, ⟨%dA, %fA, -, HA⟩, Hk⟩
    obtain rfl := h2.eq_unread hf0; obtain rfl := h3.eq_unread hf1; obtain rfl := h4.eq_unread hf2
    obtain rfl := h5.eq_unread hf3; obtain rfl := h6.eq_unread hf4
    obtain rfl := h7.eq_unread hf5; obtain rfl := h8.eq_unread hf6
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [HN]
    · iexists _; iexact HN
    iexists _; iexact HA

end Cert.Kernel.Fr

end
-- ==== Proof.K.RunMid.lean ====
/-
  The kernel body at a point with 0 < j < 7: nothing is cleared and nothing is written out. On whole staging buffers
  holding the five input blocks, the two output buffers at any contents (handed back untouched) and the two accumulators
  at what the point before left, the body runs and leaves the inputs as they were and each accumulator rewritten by one
  store; the stored pieces are found by the symbolic run.
-/
import proofs.«111500_j68917045231788_1_alg».proof.Proof.K.RunFirst

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def runMid (c : Dev nD) (i : grid0.Coords) (a2 : Memref sig .tc .vmem S1024x128 .bf16) (h2 : a2.IsWhole) (a3 : Memref sig .tc .vmem S1024x128 .bf16) (h3 : a3.IsWhole) (a4 : Memref sig .tc .vmem S1024x128 .f32) (h4 : a4.IsWhole) (a5 : Memref sig .tc .vmem S8x1024 .f32) (h5 : a5.IsWhole) (a6 : Memref sig .tc .vmem S1024x1024 .f32) (h6 : a6.IsWhole) (a7 : Memref sig .tc .vmem S1x8x128 .f32) (h7 : a7.IsWhole) (a8 : Memref sig .tc .vmem S1x8x128 .f32) (h8 : a8.IsWhole) (a9 : Memref sig .tc .vmem S1x1 .f32) (h9 : a9.IsWhole) (a10 : Memref sig .tc .vmem S1x1 .f32) (h10 : a10.IsWhole) (hf : ¬atFirst i) (hl : ¬atLast i)
    (x0 : Vec F S1024x128 .bf16) (x1 : Vec F S1024x128 .bf16) (x2 : Vec F S1024x128 .f32) (x3 : Vec F S8x1024 .f32) (x4 : Vec F S1024x1024 .f32) (s0 s1 : Vec F S1x1 .f32) :
    Σ' (LN : List (View.Piece (Elt F) S1x1 .f32)), { LA : List (View.Piece (Elt F) S1x1 .f32) //
      ∀ (y5 y6 : Vec F S1x8x128 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
            ∗ owns (c : Thread nD τ) a7 fullShare y5 ∗ owns (c : Thread nD τ) a8 fullShare y6
            ∗ owns (c : Thread nD τ) a9 fullShare s0 ∗ owns (c : Thread nD τ) a10 fullShare s1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
                ∗ owns (c : Thread nD τ) a7 fullShare y5 ∗ owns (c : Thread nD τ) a8 fullShare y6
                ∗ (∃ f, a9.view.loc (c : Thread nD τ) ↦[a9.view.set]{fullShare} a9.view.writes (Elt F) f LN)
                ∗ (∃ f, a10.view.loc (c : Thread nD τ) ↦[a10.view.set]{fullShare} a10.view.writes (Elt F) f LA)) -∗ K ⟨⟩))
          ⊢ wp frame (wpE (defs₀ (F := F)) Variants.none c none) E (cc0__edge_kernel i a2 h2 a3 h3 a4 h4 a5 h5 a6 h6 a7 h7 a8 h8 a9 h9 a10 h10) K } := by
  refine ⟨?_, ?_, fun y5 y6 E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fN, %hfN, HN⟩, ⟨%fA, %hfA, HA⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5; obtain rfl := h8.eq_unread hf6
    obtain rfl := h9.eq_unread hfN; obtain rfl := h10.eq_unread hfA
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [HN]
    · iexists _; iexact HN
    iexists _; iexact HA

end Cert.Kernel.Fr

end
-- ==== Proof.K.RunLast.lean ====
/-
  The kernel body at a point with j = 7: the tile's two sums are added into the accumulators, and each accumulator's word
  is then spread over its output block of row i. On whole staging buffers holding the five input blocks, the two output
  buffers at anything and the two accumulators at what the point before left, the body runs and leaves the inputs as they
  were, each accumulator rewritten by one store and each output buffer written whole; the stored pieces are found by the
  symbolic run.
-/
import proofs.«111500_j68917045231788_1_alg».proof.Proof.K.RunMid

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def runLast (c : Dev nD) (i : grid0.Coords) (a2 : Memref sig .tc .vmem S1024x128 .bf16) (h2 : a2.IsWhole) (a3 : Memref sig .tc .vmem S1024x128 .bf16) (h3 : a3.IsWhole) (a4 : Memref sig .tc .vmem S1024x128 .f32) (h4 : a4.IsWhole) (a5 : Memref sig .tc .vmem S8x1024 .f32) (h5 : a5.IsWhole) (a6 : Memref sig .tc .vmem S1024x1024 .f32) (h6 : a6.IsWhole) (a7 : Memref sig .tc .vmem S1x8x128 .f32) (h7 : a7.IsWhole) (a8 : Memref sig .tc .vmem S1x8x128 .f32) (h8 : a8.IsWhole) (a9 : Memref sig .tc .vmem S1x1 .f32) (h9 : a9.IsWhole) (a10 : Memref sig .tc .vmem S1x1 .f32) (h10 : a10.IsWhole) (hf : ¬atFirst i) (hl : atLast i)
    (x0 : Vec F S1024x128 .bf16) (x1 : Vec F S1024x128 .bf16) (x2 : Vec F S1024x128 .f32) (x3 : Vec F S8x1024 .f32) (x4 : Vec F S1024x1024 .f32) (s0 s1 : Vec F S1x1 .f32) :
    Σ' (L5 : List (View.Piece (Elt F) S1x8x128 .f32)) (L6 : List (View.Piece (Elt F) S1x8x128 .f32)) (LN : List (View.Piece (Elt F) S1x1 .f32)),
      { LA : List (View.Piece (Elt F) S1x1 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
            ∗ (∃ d, owns (c : Thread nD τ) a7 fullShare d) ∗ (∃ d, owns (c : Thread nD τ) a8 fullShare d)
            ∗ owns (c : Thread nD τ) a9 fullShare s0 ∗ owns (c : Thread nD τ) a10 fullShare s1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
                ∗ (∃ f, a7.view.loc (c : Thread nD τ) ↦[a7.view.set]{fullShare} a7.view.writes (Elt F) f L5)
                ∗ (∃ f, a8.view.loc (c : Thread nD τ) ↦[a8.view.set]{fullShare} a8.view.writes (Elt F) f L6)
                ∗ (∃ f, a9.view.loc (c : Thread nD τ) ↦[a9.view.set]{fullShare} a9.view.writes (Elt F) f LN)
                ∗ (∃ f, a10.view.loc (c : Thread nD τ) ↦[a10.view.set]{fullShare} a10.view.writes (Elt F) f LA)) -∗ K ⟨⟩))
          ⊢ wp frame (wpE (defs₀ (F := F)) Variants.none c none) E (cc0__edge_kernel i a2 h2 a3 h3 a4 h4 a5 h5 a6 h6 a7 h7 a8 h8 a9 h9 a10 h10) K } := by
  refine ⟨?_, ?_, ?_, ?_, fun E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fN, %hfN, HN⟩, ⟨%fA, %hfA, HA⟩, Hk⟩
    obtain rfl := h2.eq_unread hf0; obtain rfl := h3.eq_unread hf1; obtain rfl := h4.eq_unread hf2
    obtain rfl := h5.eq_unread hf3; obtain rfl := h6.eq_unread hf4
    obtain rfl := h9.eq_unread hfN; obtain rfl := h10.eq_unread hfA
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; iexact H5
    isplitl [H6]
    · iexists _; iexact H6
    isplitl [HN]
    · iexists _; iexact HN
    iexists _; iexact HA

end Cert.Kernel.Fr

end
-- ==== Proof.K.Outs.lean ====
/-
  What the kernel leaves, point by point. At point t = 8·i + j each accumulator holds, after the body, the pieces that
  point's case stored, read back: at j = 0 they start afresh (the clearing, then the tile's sum), at later points they are
  rewritten over what the point before left; at j = 7 the two output buffers hold the accumulators' words spread over
  the block. These contents are defined by recursion on the point (`contentsAt`) from the symbolic runs of the three
  cases; the invariant between points names the accumulators' contents from the second point on; the pipeline's proof
  data put each input window at its block, the outputs and the invariant at these contents, the difference array
  (read through two windows) at half shares; and the body obligation holds at every point by cases on j.
-/
import proofs.«111500_j68917045231788_1_alg».proof.Proof.K.RunLast

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a point of the grid -/

/-- The run of a point with j = 0, on that point's staging buffers and input blocks. -/
abbrev firstAt (c : Dev nD) (t : Fin cfg0.N) (hf : t.val % 8 = 0) (hl : ¬t.val % 8 = 7) :=
  runFirst (F := F) c (grid0.coords t) (ms0 t) (hs0 t) (ms1 t) (hs1 t) (ms2 t) (hs2 t) (ms3 t) (hs3 t) (ms4 t) (hs4 t) (ms5 t) (hs5 t) (ms6 t) (hs6 t) accN (Memref.isWhole_whole _) accA (Memref.isWhole_whole _)
    ((atFirst_iff t).mpr hf) (fun h => hl ((atLast_iff t).mp h)) (iblk m c 0 t) (iblk m c 1 t) (iblk m c 2 t) (iblk m c 3 t) (iblk m c 4 t)
/-- The run of a point with 0 < j < 7, the accumulators at `s0`, `s1`. -/
abbrev midAt (c : Dev nD) (t : Fin cfg0.N) (hf : ¬t.val % 8 = 0) (hl : ¬t.val % 8 = 7) (s0 s1 : Vec F S1x1 .f32) :=
  runMid (F := F) c (grid0.coords t) (ms0 t) (hs0 t) (ms1 t) (hs1 t) (ms2 t) (hs2 t) (ms3 t) (hs3 t) (ms4 t) (hs4 t) (ms5 t) (hs5 t) (ms6 t) (hs6 t) accN (Memref.isWhole_whole _) accA (Memref.isWhole_whole _)
    (fun h => hf ((atFirst_iff t).mp h)) (fun h => hl ((atLast_iff t).mp h)) (iblk m c 0 t) (iblk m c 1 t) (iblk m c 2 t) (iblk m c 3 t) (iblk m c 4 t) s0 s1
/-- The run of a point with j = 7, the accumulators at `s0`, `s1`. -/
abbrev lastAt (c : Dev nD) (t : Fin cfg0.N) (hf : ¬t.val % 8 = 0) (hl : t.val % 8 = 7) (s0 s1 : Vec F S1x1 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) accN (Memref.isWhole_whole _) accA (Memref.isWhole_whole _)
    (fun h => hf ((atFirst_iff t).mp h)) ((atLast_iff t).mpr hl) (iblk m c 0 t) (iblk m c 1 t) (iblk m c 2 t) (iblk m c 3 t) (iblk m c 4 t) s0 s1

/-- The stored pieces cover the one-word accumulators and, at j = 7, the output blocks. -/
theorem coverN_first (c : Dev nD) (t : Fin cfg0.N) (hf : t.val % 8 = 0) (hl : ¬t.val % 8 = 7) (y : S1x1.Idx) :
    ∃ pc ∈ (firstAt m c t hf hl).1, y ∈ pc.1.set := View.cover_of_tiledL _ S1x1.size (by sl_kernel_rfl) y
theorem coverA_first (c : Dev nD) (t : Fin cfg0.N) (hf : t.val % 8 = 0) (hl : ¬t.val % 8 = 7) (y : S1x1.Idx) :
    ∃ pc ∈ (firstAt m c t hf hl).2.1, y ∈ pc.1.set := View.cover_of_tiledL _ S1x1.size (by sl_kernel_rfl) y
theorem coverN_mid (c : Dev nD) (t : Fin cfg0.N) (hf : ¬t.val % 8 = 0) (hl : ¬t.val % 8 = 7) (s0 s1 : Vec F S1x1 .f32) (y : S1x1.Idx) :
    ∃ pc ∈ (midAt m c t hf hl s0 s1).1, y ∈ pc.1.set := View.cover_of_tiledL _ S1x1.size (by sl_kernel_rfl) y
theorem coverA_mid (c : Dev nD) (t : Fin cfg0.N) (hf : ¬t.val % 8 = 0) (hl : ¬t.val % 8 = 7) (s0 s1 : Vec F S1x1 .f32) (y : S1x1.Idx) :
    ∃ pc ∈ (midAt m c t hf hl s0 s1).2.1, y ∈ pc.1.set := View.cover_of_tiledL _ S1x1.size (by sl_kernel_rfl) y
theorem cover5_last (c : Dev nD) (t : Fin cfg0.N) (hf : ¬t.val % 8 = 0) (hl : t.val % 8 = 7) (s0 s1 : Vec F S1x1 .f32) (y : S1x8x128.Idx) :
    ∃ pc ∈ (lastAt m c t hf hl s0 s1).1, y ∈ pc.1.set := View.cover_of_tiledL _ S1x8x128.size (by sl_kernel_rfl) y
theorem cover6_last (c : Dev nD) (t : Fin cfg0.N) (hf : ¬t.val % 8 = 0) (hl : t.val % 8 = 7) (s0 s1 : Vec F S1x1 .f32) (y : S1x8x128.Idx) :
    ∃ pc ∈ (lastAt m c t hf hl s0 s1).2.1, y ∈ pc.1.set := View.cover_of_tiledL _ S1x8x128.size (by sl_kernel_rfl) y
theorem coverN_last (c : Dev nD) (t : Fin cfg0.N) (hf : ¬t.val % 8 = 0) (hl : t.val % 8 = 7) (s0 s1 : Vec F S1x1 .f32) (y : S1x1.Idx) :
    ∃ pc ∈ (lastAt m c t hf hl s0 s1).2.2.1, y ∈ pc.1.set := View.cover_of_tiledL _ S1x1.size (by sl_kernel_rfl) y
theorem coverA_last (c : Dev nD) (t : Fin cfg0.N) (hf : ¬t.val % 8 = 0) (hl : t.val % 8 = 7) (s0 s1 : Vec F S1x1 .f32) (y : S1x1.Idx) :
    ∃ pc ∈ (lastAt m c t hf hl s0 s1).2.2.2.1, y ∈ pc.1.set := View.cover_of_tiledL _ S1x1.size (by sl_kernel_rfl) y

/-- What each case leaves: its pieces read back (over contents that do not matter, the pieces covering). -/
def accN_first (c : Dev nD) (t : Fin cfg0.N) (hf : t.val % 8 = 0) (hl : ¬t.val % 8 = 7) : Vec F S1x1 .f32 :=
  vAccN.read (Elt F) (vAccN.writes (Elt F) vAccN.junk (firstAt m c t hf hl).1)
def accA_first (c : Dev nD) (t : Fin cfg0.N) (hf : t.val % 8 = 0) (hl : ¬t.val % 8 = 7) : Vec F S1x1 .f32 :=
  vAccA.read (Elt F) (vAccA.writes (Elt F) vAccA.junk (firstAt m c t hf hl).2.1)
def accN_mid (c : Dev nD) (t : Fin cfg0.N) (hf : ¬t.val % 8 = 0) (hl : ¬t.val % 8 = 7) (s0 s1 : Vec F S1x1 .f32) : Vec F S1x1 .f32 :=
  vAccN.read (Elt F) (vAccN.writes (Elt F) vAccN.junk (midAt m c t hf hl s0 s1).1)
def accA_mid (c : Dev nD) (t : Fin cfg0.N) (hf : ¬t.val % 8 = 0) (hl : ¬t.val % 8 = 7) (s0 s1 : Vec F S1x1 .f32) : Vec F S1x1 .f32 :=
  vAccA.read (Elt F) (vAccA.writes (Elt F) vAccA.junk (midAt m c t hf hl s0 s1).2.1)
def out5_last (c : Dev nD) (t : Fin cfg0.N) (hf : ¬t.val % 8 = 0) (hl : t.val % 8 = 7) (s0 s1 : Vec F S1x1 .f32) : Vec F S1x8x128 .f32 :=
  vOut5.read (Elt F) (vOut5.writes (Elt F) vOut5.junk (lastAt m c t hf hl s0 s1).1)
def out6_last (c : Dev nD) (t : Fin cfg0.N) (hf : ¬t.val % 8 = 0) (hl : t.val % 8 = 7) (s0 s1 : Vec F S1x1 .f32) : Vec F S1x8x128 .f32 :=
  vOut6.read (Elt F) (vOut6.writes (Elt F) vOut6.junk (lastAt m c t hf hl s0 s1).2.1)
def accN_last (c : Dev nD) (t : Fin cfg0.N) (hf : ¬t.val % 8 = 0) (hl : t.val % 8 = 7) (s0 s1 : Vec F S1x1 .f32) : Vec F S1x1 .f32 :=
  vAccN.read (Elt F) (vAccN.writes (Elt F) vAccN.junk (lastAt m c t hf hl s0 s1).2.2.1)
def accA_last (c : Dev nD) (t : Fin cfg0.N) (hf : ¬t.val % 8 = 0) (hl : t.val % 8 = 7) (s0 s1 : Vec F S1x1 .f32) : Vec F S1x1 .f32 :=
  vAccA.read (Elt F) (vAccA.writes (Elt F) vAccA.junk (lastAt m c t hf hl s0 s1).2.2.2.1)

/-- Contents of an output buffer at a point that stores nothing into it: never consulted (the window is idle there and is
    not written back). -/
def idle5 : Vec F S1x8x128 .f32 := vOut5.read (Elt F) vOut5.junk
def idle6 : Vec F S1x8x128 .f32 := vOut6.read (Elt F) vOut6.junk

/-! ## The contents after each point -/

/-- After the body at position `n`: the two output buffers, then the two accumulators. -/
def contentsAt (c : Dev nD) : (n : ℕ) → n < cfg0.N → Vec F S1x8x128 .f32 × Vec F S1x8x128 .f32 × Vec F S1x1 .f32 × Vec F S1x1 .f32
  | 0, hn => (idle5, idle6, accN_first m c ⟨0, hn⟩ (Nat.zero_mod _) (fun h => absurd (show 0 % 8 = 7 from h) (by decide)),
      accA_first m c ⟨0, hn⟩ (Nat.zero_mod _) (fun h => absurd (show 0 % 8 = 7 from h) (by decide)))
  | n + 1, hn =>
    if hf : (n + 1) % 8 = 0 then
      (idle5, idle6, accN_first m c ⟨n + 1, hn⟩ hf (fun h => by have h' : (n + 1) % 8 = 7 := h; omega),
       accA_first m c ⟨n + 1, hn⟩ hf (fun h => by have h' : (n + 1) % 8 = 7 := h; omega))
    else if hl : (n + 1) % 8 = 7 then
      (out5_last m c ⟨n + 1, hn⟩ hf hl (contentsAt c n (Nat.lt_of_succ_lt hn)).2.2.1 (contentsAt c n (Nat.lt_of_succ_lt hn)).2.2.2,
       out6_last m c ⟨n + 1, hn⟩ hf hl (contentsAt c n (Nat.lt_of_succ_lt hn)).2.2.1 (contentsAt c n (Nat.lt_of_succ_lt hn)).2.2.2,
       accN_last m c ⟨n + 1, hn⟩ hf hl (contentsAt c n (Nat.lt_of_succ_lt hn)).2.2.1 (contentsAt c n (Nat.lt_of_succ_lt hn)).2.2.2,
       accA_last m c ⟨n + 1, hn⟩ hf hl (contentsAt c n (Nat.lt_of_succ_lt hn)).2.2.1 (contentsAt c n (Nat.lt_of_succ_lt hn)).2.2.2)
    else
      (idle5, idle6,
       accN_mid m c ⟨n + 1, hn⟩ hf hl (contentsAt c n (Nat.lt_of_succ_lt hn)).2.2.1 (contentsAt c n (Nat.lt_of_succ_lt hn)).2.2.2,
       accA_mid m c ⟨n + 1, hn⟩ hf hl (contentsAt c n (Nat.lt_of_succ_lt hn)).2.2.1 (contentsAt c n (Nat.lt_of_succ_lt hn)).2.2.2)

/-- What the point before `t` left. -/
abbrev prevAt (c : Dev nD) (t : Fin cfg0.N) := contentsAt m c (t.val - 1) (Nat.lt_of_le_of_lt (Nat.sub_le _ _) t.isLt)

theorem contentsAt_first (c : Dev nD) (t : Fin cfg0.N) (hf : t.val % 8 = 0) (hl : ¬t.val % 8 = 7) :
    contentsAt m c t.val t.isLt = (idle5, idle6, accN_first m c t hf hl, accA_first m c t hf hl) := by
  obtain ⟨n, hn⟩ := t
  cases n with
  | zero => rfl
  | succ n => exact (dif_pos hf).trans rfl
theorem contentsAt_mid (c : Dev nD) (t : Fin cfg0.N) (hf : ¬t.val % 8 = 0) (hl : ¬t.val % 8 = 7) :
    contentsAt m c t.val t.isLt = (idle5, idle6, accN_mid m c t hf hl (prevAt m c t).2.2.1 (prevAt m c t).2.2.2,
      accA_mid m c t hf hl (prevAt m c t).2.2.1 (prevAt m c t).2.2.2) := by
  obtain ⟨n, hn⟩ := t
  cases n with
  | zero => exact absurd (Nat.zero_mod _) hf
  | succ n => exact (dif_neg hf).trans ((dif_neg hl).trans rfl)
theorem contentsAt_last (c : Dev nD) (t : Fin cfg0.N) (hf : ¬t.val % 8 = 0) (hl : t.val % 8 = 7) :
    contentsAt m c t.val t.isLt = (out5_last m c t hf hl (prevAt m c t).2.2.1 (prevAt m c t).2.2.2, out6_last m c t hf hl (prevAt m c t).2.2.1 (prevAt m c t).2.2.2,
      accN_last m c t hf hl (prevAt m c t).2.2.1 (prevAt m c t).2.2.2, accA_last m c t hf hl (prevAt m c t).2.2.1 (prevAt m c t).2.2.2) := by
  obtain ⟨n, hn⟩ := t
  cases n with
  | zero => exact absurd (Nat.zero_mod _) hf
  | succ n => exact (dif_neg hf).trans ((dif_pos hl).trans rfl)

/-! ## The invariant between points -/

/-- Before the first point the accumulators hold anything; afterwards what the point before left. -/
def accInv (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) accN fullShare (contentsAt m c n hn).2.2.1 ∗ owns (c : Thread nD τ) accA fullShare (contentsAt m c n hn).2.2.2)

theorem accInv_zero (c : Dev nD) (n : ℕ) (h : n ≤ cfg0.N) (hz : n = 0) :
    accInv m c n h = Pipeline.scopedRest (Ix := Unit) (Name := ℕ) (U := UR sig nD τ) (Lvl := ℕ) (Val := Elt F) spec0 c := by subst hz; rfl
theorem accInv_succ (c : Dev nD) (n : ℕ) (hn : n < cfg0.N) :
    accInv m c (n + 1) hn = iprop(owns (c : Thread nD τ) accN fullShare (contentsAt m c n hn).2.2.1 ∗ owns (c : Thread nD τ) accA fullShare (contentsAt m c n hn).2.2.2) := rfl
theorem accInv_pos (c : Dev nD) (n : ℕ) (h : n ≤ cfg0.N) (hz : n ≠ 0) :
    accInv m c n h = iprop(owns (c : Thread nD τ) accN fullShare (contentsAt m c (n - 1) (by omega)).2.2.1 ∗ owns (c : Thread nD τ) accA fullShare (contentsAt m c (n - 1) (by omega)).2.2.2) := by
  cases n with
  | zero => exact absurd rfl hz
  | succ n => rfl

/-! ## The pipeline's proof data -/

/-- The arrays as the region finds them; after the body each input's buffer at its block, the outputs' at `contentsAt`;
    the invariant `accInv`; nothing owed; the difference array, which two windows read, held by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (contentsAt m c t.val t.isLt).1
    | ⟨6, _⟩ => (contentsAt m c t.val t.isLt).2.1
  Φ t := accInv m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by dsimp only [dats]
theorem inv_castSucc (c : Dev nD) (t : Fin cfg0.N) : (dats m 0 c).Φ t.castSucc = accInv m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (contentsAt m c t.val t.isLt).1 := by dsimp only [dats]
theorem after6 (c : Dev nD) (t : Fin cfg0.N) : (dats m 0 c).after 6 t = (contentsAt m c t.val t.isLt).2.1 := by dsimp only [dats]

theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d

/-- An input window is never idle: its buffer is left at `after`, which is its block. -/
theorem leaves0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after3]
theorem leaves4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after4]

/-! ## The body obligation, at a generic point -/

/-- What the body is called with at point `t`: the invariant, what the core owes (nothing), and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 4800000 in
/-- The body at any point. The inputs' buffers hold their blocks; j decides the case; at j < 7 the output windows are idle and
    not written back, so their buffers pass through untouched, at j = 7 they are stored whole; the invariant hands over the
    accumulators (at anything before the first point, else at what the point before left) and takes them back at this
    point's contents, the stored pieces covering them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, leaves0, leaves1, leaves2, leaves3, leaves4]
  rw [show (dats m 0 c).owesAt () t.succ = (dats m 0 c).owesAt () t.castSucc from rfl]
  rw [show (dats m 0 c).Φ t.succ = accInv m c (t.val + 1) t.isLt from rfl, accInv_succ]
  have hN : t.val < 64 := lt_of_lt_of_eq t.isLt (show cfg0.N = 64 from N_0)
  by_cases hf : t.val % 8 = 0
  · have hl : ¬t.val % 8 = 7 := by omega
    rw [Dat.leavesExact_idle (dats m 0 c) 5 t (idle5_of t (fun h => hl ((atLast_iff t).mp h))) (noFlush5_of t (fun h => hl ((atLast_iff t).mp h)))]
    rw [Dat.leavesExact_idle (dats m 0 c) 6 t (idle6_of t (fun h => hl ((atLast_iff t).mp h))) (noFlush6_of t (fun h => hl ((atLast_iff t).mp h)))]
    rw [contentsAt_first m c t hf hl]
    unfold accN_first accA_first; (try dsimp only)
    by_cases hz : t.val = 0
    · rw [inv_castSucc m c t, accInv_zero m c _ _ hz, scopedRest_acc]
      iintro ⟨⟨HN, HA⟩, Ho, ⟨%d0, H0⟩, ⟨%d1, H1⟩, ⟨%d2, H2⟩, ⟨%d3, H3⟩, ⟨%d4, H4⟩, ⟨%d5, H5⟩, ⟨%d6, H6⟩⟩
      iapply ((firstAt m c t hf hl).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HN]; · iexact HN
      isplitl [HA]; · iexact HA
      iintro ⟨H0, H1, H2, H3, H4, H5, H6, ⟨%eN, HN⟩, ⟨%eA, HA⟩⟩
      isplitl [HN HA]
      · isplitl [HN]
        · unfold owns; iexists _; isplitr
          swap; · iexact HN
          ipureintro; exact View.read_writes_of_cover _ _ _ _ _ (coverN_first m c t hf hl)
        · unfold owns; iexists _; isplitr
          swap; · iexact HA
          ipureintro; exact View.read_writes_of_cover _ _ _ _ _ (coverA_first m c t hf hl)
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [inv_castSucc m c t, accInv_pos m c _ _ hz]
      iintro ⟨⟨HN, HA⟩, Ho, ⟨%d0, H0⟩, ⟨%d1, H1⟩, ⟨%d2, H2⟩, ⟨%d3, H3⟩, ⟨%d4, H4⟩, ⟨%d5, H5⟩, ⟨%d6, H6⟩⟩
      iapply ((firstAt m c t hf hl).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HN]; · iexists _; iexact HN
      isplitl [HA]; · iexists _; iexact HA
      iintro ⟨H0, H1, H2, H3, H4, H5, H6, ⟨%eN, HN⟩, ⟨%eA, HA⟩⟩
      isplitl [HN HA]
      · isplitl [HN]
        · unfold owns; iexists _; isplitr
          swap; · iexact HN
          ipureintro; exact View.read_writes_of_cover _ _ _ _ _ (coverN_first m c t hf hl)
        · unfold owns; iexists _; isplitr
          swap; · iexact HA
          ipureintro; exact View.read_writes_of_cover _ _ _ _ _ (coverA_first m c t hf hl)
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · have hz : t.val ≠ 0 := fun h => hf (by rw [h])
    by_cases hl : t.val % 8 = 7
    · rw [show (dats m 0 c).leavesExact 5 t = owns (c : Thread nD τ) (ms5 t) fullShare ((dats m 0 c).after 5 t) from by
        unfold Dat.leavesExact; rw [live5_of t ((atLast_iff t).mpr hl)], after5]
      rw [show (dats m 0 c).leavesExact 6 t = owns (c : Thread nD τ) (ms6 t) fullShare ((dats m 0 c).after 6 t) from by
        unfold Dat.leavesExact; rw [live6_of t ((atLast_iff t).mpr hl)], after6]
      rw [contentsAt_last m c t hf hl]
      unfold out5_last out6_last accN_last accA_last; (try dsimp only)
      rw [inv_castSucc m c t, accInv_pos m c _ _ hz]
      iintro ⟨⟨HN, HA⟩, Ho, ⟨%d0, H0⟩, ⟨%d1, H1⟩, ⟨%d2, H2⟩, ⟨%d3, H3⟩, ⟨%d4, H4⟩, ⟨%d5, H5⟩, ⟨%d6, H6⟩⟩
      iapply ((lastAt m c t hf hl _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HN]; · iexact HN
      isplitl [HA]; · iexact HA
      iintro ⟨H0, H1, H2, H3, H4, ⟨%e5, H5⟩, ⟨%e6, H6⟩, ⟨%eN, HN⟩, ⟨%eA, HA⟩⟩
      isplitl [HN HA]
      · isplitl [HN]
        · unfold owns; iexists _; isplitr
          swap; · iexact HN
          ipureintro; exact View.read_writes_of_cover _ _ _ _ _ (coverN_last m c t hf hl _ _)
        · unfold owns; iexists _; isplitr
          swap; · iexact HA
          ipureintro; exact View.read_writes_of_cover _ _ _ _ _ (coverA_last m c t hf hl _ _)
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover5_last m c t hf hl _ _)
      unfold owns; iexists _; isplitr
      swap; · iexact H6
      ipureintro; exact View.read_writes_of_cover _ _ _ _ _ (cover6_last m c t hf hl _ _)
    · rw [Dat.leavesExact_idle (dats m 0 c) 5 t (idle5_of t (fun h => hl ((atLast_iff t).mp h))) (noFlush5_of t (fun h => hl ((atLast_iff t).mp h)))]
      rw [Dat.leavesExact_idle (dats m 0 c) 6 t (idle6_of t (fun h => hl ((atLast_iff t).mp h))) (noFlush6_of t (fun h => hl ((atLast_iff t).mp h)))]
      rw [contentsAt_mid m c t hf hl]
      unfold accN_mid accA_mid; (try dsimp only)
      rw [inv_castSucc m c t, accInv_pos m c _ _ hz]
      iintro ⟨⟨HN, HA⟩, Ho, ⟨%d0, H0⟩, ⟨%d1, H1⟩, ⟨%d2, H2⟩, ⟨%d3, H3⟩, ⟨%d4, H4⟩, ⟨%d5, H5⟩, ⟨%d6, H6⟩⟩
      iapply ((midAt m c t hf hl _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HN]; · iexact HN
      isplitl [HA]; · iexact HA
      iintro ⟨H0, H1, H2, H3, H4, H5, H6, ⟨%eN, HN⟩, ⟨%eA, HA⟩⟩
      isplitl [HN HA]
      · isplitl [HN]
        · unfold owns; iexists _; isplitr
          swap; · iexact HN
          ipureintro; exact View.read_writes_of_cover _ _ _ _ _ (coverN_mid m c t hf hl _ _)
        · unfold owns; iexists _; isplitr
          swap; · iexact HA
          ipureintro; exact View.read_writes_of_cover _ _ _ _ _ (coverA_mid m c t hf hl _ _)
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region — the accumulators at anything — is the invariant before the first point. -/
theorem inv_in (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = accInv m c 0 (Nat.zero_le _) from rfl, accInv_zero m c 0 _ rfl]
  try exact Idealize.SL.BI.Entails.refl _

/-- After the last point the invariant gives the accumulators back, their contents forgotten. -/
theorem inv_out (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = accInv m c (Fin.last cfg0.N).val (Nat.le_of_lt_succ (Fin.last cfg0.N).isLt) from rfl,
    accInv_pos m c _ _ (by rw [Fin.val_last]; have : cfg0.N = 64 := N_0; omega), scopedRest_acc]
  iintro ⟨HN, HA⟩
  isplitl [HN]
  · iexists _; iexact HN
  iexists _; iexact HA

end Cert.Kernel.Fr

end
-- ==== Proof.K.Launch.lean ====
/-
  The whole program on one core: fourteen host operations, the kernel region, fourteen host operations that read the
  region's two output arrays. Between two of these three stretches the core holds every unscoped buffer whole at a
  valuation: the launch contents, then those after the first host stretch, then the same with the two output arrays at
  what the write-backs made them, then those after the last host stretch. The region's two first windows read ONE array
  (the rounded difference): its whole points-to is cut into the two halves of the full share on entry, one per window;
  an input window's array is never written back, so both halves come back at the contents they went in with and are
  joined again on exit. No host operation writes an argument and the region changes only its two output arrays, so
  each argument ends as launched.
-/
import proofs.«111500_j68917045231788_1_alg».proof.Proof.K.Outs
import Idealize.ShloMosaic.Lib.Pipeline.Regions
import Idealize.ShloMosaic.Lib.Pipeline.Frame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents after the region and after the last host stretch -/

/-- Core `c`'s unscoped buffers when the region is left: as entered, but the two output arrays at what the write-backs made them. -/
abbrev V2 (c : Dev nD) : Valuation τ sig (Elt F) := Function.update (Function.update (V1 m c) (Proc.devRef .tc main_v11_0) ((dats m 0 c).arrAt 5 cfg0.N)) (Proc.devRef .tc main_v11_1) ((dats m 0 c).arrAt 6 cfg0.N)
/-- and after the fourteen host operations that follow. -/
abbrev V3 (c : Dev nD) : Valuation τ sig (Elt F) := StableHlo.after hostOps1 (V2 m c)

/-- The region leaves the first output array at its last write-back, -/
theorem V2_out0 (c : Dev nD) : V2 m c (Proc.devRef .tc main_v11_0) = (dats m 0 c).arrAt 5 cfg0.N := by
  show Function.update (Function.update (V1 m c) (Proc.devRef .tc main_v11_0) ((dats m 0 c).arrAt 5 cfg0.N)) (Proc.devRef .tc main_v11_1) ((dats m 0 c).arrAt 6 cfg0.N) (Proc.devRef .tc main_v11_0) = _
  rw [Function.update_of_ne (StableHlo.devRef_ne_of_ne (by decide)), Function.update_self]
/-- the second likewise, -/
theorem V2_out1 (c : Dev nD) : V2 m c (Proc.devRef .tc main_v11_1) = (dats m 0 c).arrAt 6 cfg0.N := by
  show Function.update (Function.update (V1 m c) (Proc.devRef .tc main_v11_0) ((dats m 0 c).arrAt 5 cfg0.N)) (Proc.devRef .tc main_v11_1) ((dats m 0 c).arrAt 6 cfg0.N) (Proc.devRef .tc main_v11_1) = _
  rw [Function.update_self]
/-- and every other buffer as it found it. -/
theorem V2_of (c : Dev nD) (r : Ref sig .tc) (h0 : r ≠ main_v11_0) (h1 : r ≠ main_v11_1) : V2 m c (Proc.devRef .tc r) = V1 m c (Proc.devRef .tc r) := by
  show Function.update (Function.update (V1 m c) (Proc.devRef .tc main_v11_0) ((dats m 0 c).arrAt 5 cfg0.N)) (Proc.devRef .tc main_v11_1) ((dats m 0 c).arrAt 6 cfg0.N) (Proc.devRef .tc r) = _
  rw [Function.update_of_ne (StableHlo.devRef_ne_of_ne h1), Function.update_of_ne (StableHlo.devRef_ne_of_ne h0)]

/-! ## What the host stretches write -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- The results of the first stretch, in order; -/
abbrev written0 : List (Ref sig .tc) := [main_v0, main_v1, main_cst, main_v2, main_cst_0, main_v3, main_v4, main_cst_1, main_v5, main_v6, main_v7, main_v8, main_v9, main_v10]
/-- of the last. -/
abbrev written1 : List (Ref sig .tc) := [main_v12, main_v13, main_cst_2, main_v14, main_v15, main_v16, main_cst_3, main_v17, main_cst_4, main_v18, main_v19, main_v20, main_cst_5, main_v21]
theorem hostOps0_writes : (hostOps0 : List (HloOp τ sig (Elt F))).Forall fun op => op.writes ⊆ (written0.map (Proc.devRef (τ := τ) .tc)).toFinset := by
  simp only [List.Forall, StableHlo.nullary_writes, StableHlo.unary_writes, StableHlo.binary_writes, StableHlo.reshape_writes, Finset.singleton_subset_iff, List.mem_toFinset]
  repeat' constructor
  all_goals exact List.mem_map_of_mem (by decide)
theorem hostOps1_writes : (hostOps1 : List (HloOp τ sig (Elt F))).Forall fun op => op.writes ⊆ (written1.map (Proc.devRef (τ := τ) .tc)).toFinset := by
  simp only [List.Forall, StableHlo.nullary_writes, StableHlo.unary_writes, StableHlo.binary_writes, StableHlo.reshape_writes, Finset.singleton_subset_iff, List.mem_toFinset]
  repeat' constructor
  all_goals exact List.mem_map_of_mem (by decide)

/-- A buffer no stretch writes and the region does not change ends as launched. -/
theorem V3_of (c : Dev nD) (r : Ref sig .tc) (h0 : r ∉ written0) (h1 : r ∉ written1) (ha : r ≠ main_v11_0) (hb : r ≠ main_v11_1) :
    V3 m c (Proc.devRef .tc r) = m ((c.tc : Thread nD τ).loc r) :=
  (StableHlo.after_of_writes_sub hostOps1 _ hostOps1_writes h1).trans <| (V2_of m c r ha hb).trans <|
    (StableHlo.after_of_writes_sub hostOps0 _ hostOps0_writes h0).trans rfl

/-! ## The windows' arrays, one by one -/

/-- The six buffers behind the seven windows. -/
theorem arrImage : (Finset.univ.image (Pipeline.arrRef spec0) : Finset (Ref sig .tc)) = [main_v10, main_v7, main_v9, main_arg2, main_v11_0, main_v11_1].toFinset := by decide

/-- The pipeline's arrays as a chain: the rounded difference twice, at the two halves of the full share. -/
theorem arrays_chain (c : Dev nD) (G : (w : Fin cfg0.W) → Buf (Elt F) ((cfg0.win w).arr.view.loc (c.tc : Thread nD τ))) :
    ((dats m 0 c).arrays G : sProp 𝕄) = iprop(
      (((c.tc : Thread nD τ).loc main_v10) ↦{fullShare.left} G 0) ∗ (((c.tc : Thread nD τ).loc main_v10) ↦{fullShare.right} G 1)
      ∗ (((c.tc : Thread nD τ).loc main_v7) ↦{fullShare} G 2) ∗ (((c.tc : Thread nD τ).loc main_v9) ↦{fullShare} G 3)
      ∗ (((c.tc : Thread nD τ).loc main_arg2) ↦{fullShare} G 4) ∗ (((c.tc : Thread nD τ).loc main_v11_0) ↦{fullShare} G 5)
      ∗ (((c.tc : Thread nD τ).loc main_v11_1) ↦{fullShare} G 6)) := by
  unfold Dat.arrays
  rw [bigSep_W0]
  rw [(arr_whole0 0).set_eq_univ, (arr_whole0 2).set_eq_univ, (arr_whole0 3).set_eq_univ, (arr_whole0 4).set_eq_univ, (arr_whole0 5).set_eq_univ, (arr_whole0 6).set_eq_univ]
  rfl

/-- The distinct buffers behind them, each whole. -/
theorem arrBufs_chain (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄) = iprop(
      (((c.tc : Thread nD τ).loc main_v10) ↦{fullShare} W main_v10)
      ∗ (((c.tc : Thread nD τ).loc main_v7) ↦{fullShare} W main_v7) ∗ (((c.tc : Thread nD τ).loc main_v9) ↦{fullShare} W main_v9)
      ∗ (((c.tc : Thread nD τ).loc main_arg2) ↦{fullShare} W main_arg2) ∗ (((c.tc : Thread nD τ).loc main_v11_0) ↦{fullShare} W main_v11_0)
      ∗ (((c.tc : Thread nD τ).loc main_v11_1) ↦{fullShare} W main_v11_1)) := by
  unfold Pipeline.arrBufs
  rw [bigSep_eq_bigSepL_of_eq [main_v10, main_v7, main_v9, main_arg2, main_v11_0, main_v11_1] arrImage (by decide)]
  rfl

/-- ENTRY: the buffers at what the first host stretch left are the pipeline's arrays at their entry contents, the
    rounded difference cut into the two halves of its share. -/
theorem arrays_in (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs_chain, arrays_chain]
  simp only [show ∀ w, (dats m 0 c).arrAt w 0 = V m c (Pipeline.arrRef spec0 w) from fun w => A_eq m c w]
  iintro ⟨H10, H7, H9, Ha, Ho0, Ho1⟩
  ihave H := (pointsTo_share (PosShare.mem_left_op_right fullShare)).1 $$ H10
  icases H with ⟨Hl, Hr⟩
  isplitl [Hl]; · iexact Hl
  isplitl [Hr]; · iexact Hr
  isplitl [H7]; · iexact H7
  isplitl [H9]; · iexact H9
  isplitl [Ha]; · iexact Ha
  isplitl [Ho0]; · iexact Ho0
  iexact Ho1

/-- EXIT: an input's array is never written back, so the two halves of the rounded difference hold what they held and
    join; the two outputs stand at their last write-backs, which is what the valuation after the region says of them. -/
theorem arrays_out (c : Dev nD) :
    (dats m 0 c).arrays ((dats m 0 c).arrAt · cfg0.N)
      ⊢ (Pipeline.arrBufs (Ix := Unit) (Name := ℕ) (U := UR sig nD τ) (Lvl := ℕ) spec0 c (fun b => V2 m c (Proc.devRef .tc b)) : sProp 𝕄) := by
  rw [arrBufs_chain, arrays_chain]
  rw [V2_out0, V2_out1, V2_of m c main_v10 (by decide) (by decide), V2_of m c main_v7 (by decide) (by decide),
    V2_of m c main_v9 (by decide) (by decide), V2_of m c main_arg2 (by decide) (by decide)]
  rw [(dats m 0 c).arrAt_in 0 rfl, (dats m 0 c).arrAt_in 1 rfl, (dats m 0 c).arrAt_in 2 rfl, (dats m 0 c).arrAt_in 3 rfl, (dats m 0 c).arrAt_in 4 rfl]
  simp only [A_eq]
  iintro ⟨Hl, Hr, H7, H9, Ha, Ho0, Ho1⟩
  isplitl [Hl Hr]
  · iapply (pointsTo_share (PosShare.mem_left_op_right fullShare)).2
    isplitl [Hl]; · iexact Hl
    iexact Hr
  isplitl [H7]; · iexact H7
  isplitl [H9]; · iexact H9
  isplitl [Ha]; · iexact Ha
  isplitl [Ho0]; · iexact Ho0
  iexact Ho1

/-- No buffer of the rest is an output array: the rest is the same at both valuations. -/
theorem rest_eq (c : Dev nD) :
    (Pipeline.unscopedRest (Ix := Unit) (Name := ℕ) (U := UR sig nD τ) (Lvl := ℕ) spec0 c (V m c) : sProp 𝕄)
      = Pipeline.unscopedRest spec0 c (fun b => V2 m c (Proc.devRef .tc b)) := by
  unfold Pipeline.unscopedRest
  refine bigSep_congr fun b hb => ?_
  have hb' := (Finset.mem_sdiff.mp hb).2
  dsimp only
  rw [V2_of m c b (fun h => hb' (h ▸ Finset.mem_image_of_mem (Pipeline.arrRef spec0) (Finset.mem_univ (5 : Fin 7))))
    (fun h => hb' (h ▸ Finset.mem_image_of_mem (Pipeline.arrRef spec0) (Finset.mem_univ (6 : Fin 7))))]

/-! ## The launch: the program as three segments -/

abbrev 𝒱₀ : Variants := Variants.none
/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)

/-- The first host stretch, over every unscoped buffer, from the launch contents. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
/-- The last, from what the region left. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) R

set_option backward.isDefEq.respectTransparency.types false in
/-- THE REGION. Entered from every unscoped buffer at what the first host stretch left: the buffers behind the windows
    go to the pipeline (the shared one by halves), every other buffer bypasses it whole; nothing but the two accumulators
    enters the invariant. Left with the same buffers, the two output arrays at their last write-backs. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m c) ∗ R c)
  X c := iprop(emp)
  Y c := iprop(emp)
  Z c := Pipeline.unscopedRest spec0 c (V m c)
  hentry c := by
    rw [show StableHlo.held (c : Thread nD τ) (Pipeline.ucRefs τ sig) (V1 m c) = unscopedBufs c (V m c) from (Pipeline.unscopedBufs_held c (V1 m c)).symm,
      Pipeline.unscopedBufs_split₀ cfgs 0 winFacts₀0.arr_unscoped c (V m c)]
    iintro ⟨⟨⟨Ha, Hz⟩, HO⟩, -, -⟩
    imodintro
    isplitl [Ha]; · iapply (arrays_in m c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    iintro ⟨-, -, Hr⟩
    iapply (inv_in m c); iexact Hr
  hout c := by
    rw [Pipeline.ownSems0_none]
    iintro H
    isplitr; · iempintro
    isplitr; · iempintro
    iapply (inv_out m c); iexact H
  hexit c := by
    rw [show StableHlo.held (c : Thread nD τ) (Pipeline.ucRefs τ sig) (V2 m c) = unscopedBufs c (fun b => V2 m c (Proc.devRef .tc b)) from (Pipeline.unscopedBufs_held c (V2 m c)).symm,
      Pipeline.unscopedBufs_split₀ cfgs 0 winFacts₀0.arr_unscoped c (fun b => V2 m c (Proc.devRef .tc b)), ← rest_eq]
    iintro ⟨Ha, HO, -, Hz⟩
    imodintro
    isplitr [HO]
    · isplitl [Ha]; · iapply (arrays_out m c); iexact Ha
      iexact Hz
    · unfold Pipeline.Dat.owesAt Pipeline.owesWithin
      icases HO with ⟨%W, -, HO⟩; iexists W; iexact HO

set_option backward.isDefEq.respectTransparency.types false in
/-- From any memory with zero counters every weakly fair execution of the program terminates, and every final state
    holds the result at what the last host stretch computes from the region's outputs, and each argument as launched. -/
theorem run_main : θ_run defs (onTc (τ := τ) (main (F := F))) ⟨m, fun _ => 0, ρ⟩ (fun r => ∀ c : Dev nD,
      r.2.mem ((c.tc : Thread nD τ).loc main_v21) = V3 m c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (dats m) () cellOf_inj emb₁ defs₀ 𝒱₀ L lv m ρ main
    [.host (seg0 m), .region (reg0 m), .host (seg1 m)]
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V3 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => s.mem ((c.tc : Thread nD τ).loc main_v21) = V3 m c (Proc.devRef .tc main_v21)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      unfold StableHlo.held
      iintro ⟨Hh, HSI⟩
      ihave Hr := (pointsTo_read_all (Pipeline.ucRefs τ sig) (fun b => ((c : Thread nD τ).1, b)) (V3 m c) s') $$ [Hh HSI]
      · isplitl [Hh] <;> iassumption
      icases Hr with ⟨%h, HSI⟩
      imodintro
      isplitr
      · ipureintro
        have hmem : ∀ r : Ref sig .tc, r.isScoped = false → Proc.devRef (τ := τ) .tc r ∈ Pipeline.ucRefs τ sig := fun r hr =>
          Finset.mem_filter.mpr ⟨StableHlo.devRef_mem_tcRefs r, by simpa using hr⟩
        exact ⟨h _ (hmem main_v21 rfl),
          (h _ (hmem main_arg0 rfl)).trans (V3_of m c main_arg0 (by decide) (by decide) (by decide) (by decide)),
          (h _ (hmem main_arg1 rfl)).trans (V3_of m c main_arg1 (by decide) (by decide) (by decide) (by decide)),
          (h _ (hmem main_arg2 rfl)).trans (V3_of m c main_arg2 (by decide) (by decide) (by decide) (by decide))⟩
      · iexact HSI)
    (hQ := fun _ h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Fr

end
-- ==== Proof.KI.Setup.lean ====
/-
  The edge kernel runs on an 8 × 8 grid, point t = 8·i + j: it streams tile (i, j) of the adjacency, adds the tile's two
  sums into two one-word accumulators kept between points, clears them where j = 0 and writes them out where j = 7.
  This module fixes what every later module of the frame is stated over: the contents of the buffers when the region
  is entered (the launch memory after the host operations before the call), each window's block at a point read off
  those contents, the two branch conditions (j = 0, j = 7) in closed form over the 64 points, where the two output
  windows are idle (everywhere but j = 7) and written back (only at j = 7), and that an input window's staging buffer
  holds the window's block at every point, freshly fetched or not (rows i of the difference and of the row norms are
  fetched once per row of tiles and found again at the seven later points).
-/
import proofs.«111500_j68917045231788_1_alg».proof.Proof.Gen.KernelIdeal.Launch
import proofs.«111500_j68917045231788_1_alg».proof.Proof.Gen.KernelIdeal.Skeleton
import proofs.«111500_j68917045231788_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents around the region -/

/-- Core `c`'s buffers at launch, as a valuation. -/
abbrev V0 (c : Dev nD) : Valuation τ sig (Elt F) := fun b => m (c, b)
/-- The same after the fourteen host operations before the call: the difference d = s − t, its row norms laid out as a
    column block and as a lane block, and d rounded to bf16. -/
abbrev V1 (c : Dev nD) : Valuation τ sig (Elt F) := StableHlo.after hostOps0 (V0 m c)
/-- Read at a TensorCore reference: what the region finds in each array. -/
abbrev V (c : Dev nD) (b : Ref sig .tc) : Buf (Elt F) ((c : Thread nD τ).loc b) := V1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branch conditions -/

/-- `j = 0`: the accumulators are cleared (the kernel's scalar chain on the second grid coordinate). -/
abbrev atFirst (i : grid0.Coords) : Prop := (Scalar.cmpi .ne (Scalar.extui (Scalar.cmpi .eq (BitVec.ofNat 32 (i 1).val) 0#32)) 0#32) = 1#1
theorem atFirst_iff : ∀ t : Fin cfg0.N, atFirst (grid0.coords t) ↔ t.val % 8 = 0 :=
  (by decide +kernel : ∀ t : Fin grid0.N, atFirst (grid0.coords t) ↔ t.val % 8 = 0)

/-- `j = 7`: the accumulators are written to the two output blocks of row `i`. -/
abbrev atLast (i : grid0.Coords) : Prop := k0_cond2 i = 1#1
theorem atLast_iff : ∀ t : Fin cfg0.N, atLast (grid0.coords t) ↔ t.val % 8 = 7 :=
  (by decide +kernel : ∀ t : Fin grid0.N, atLast (grid0.coords t) ↔ t.val % 8 = 7)

/-! ## Where the output windows are idle -/

theorem idle5_of : ∀ t : Fin cfg0.N, ¬atLast (grid0.coords t) → cfg0.idle 5 (grid0.coords t) = true := by decide +kernel
theorem idle6_of : ∀ t : Fin cfg0.N, ¬atLast (grid0.coords t) → cfg0.idle 6 (grid0.coords t) = true := by decide +kernel
theorem noFlush5_of : ∀ t : Fin cfg0.N, ¬atLast (grid0.coords t) → (cfg0.win 5).flush t = false := by decide +kernel
theorem noFlush6_of : ∀ t : Fin cfg0.N, ¬atLast (grid0.coords t) → (cfg0.win 6).flush t = false := by decide +kernel
theorem live5_of : ∀ t : Fin cfg0.N, atLast (grid0.coords t) → cfg0.idle 5 (grid0.coords t) = false := by decide +kernel
theorem live6_of : ∀ t : Fin cfg0.N, atLast (grid0.coords t) → cfg0.idle 6 (grid0.coords t) = false := by decide +kernel

/-! ## The staging and scratch memrefs at a point -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x8x128 .f32 := win0_6.stage (cfg0.slots t 6)
abbrev hs6 (t : Fin cfg0.N) : (ms6 t).IsWhole := hstage0_6 ((cfg0.slots t 6).cast nbuf0_6)
/-- The two accumulators: one-word scratch buffers of the kernel's own, kept between points. -/
abbrev accN : Memref sig .tc .vmem S1x1 .f32 := Memref.whole cc0_scratch0
abbrev accA : Memref sig .tc .vmem S1x1 .f32 := Memref.whole cc0_scratch1
/-- Views through which the buffers' contents are stated. -/
abbrev vAccN : View sig .tc .vmem S1x1 .f32 := accN.view
abbrev vAccA : View sig .tc .vmem S1x1 .f32 := accA.view
abbrev vOut5 : View sig .tc .vmem S1x8x128 .f32 := (Memref.whole cc0_stg5_0 : Memref sig .tc .vmem S1x8x128 .f32).view
abbrev vOut6 : View sig .tc .vmem S1x8x128 .f32 := (Memref.whole cc0_stg6_0 : Memref sig .tc .vmem S1x8x128 .f32).view

/-- The scoped buffers no window stages are the two accumulators, each owned whole at some contents. -/
theorem scopedRest_acc (c : Dev nD) :
    (Pipeline.scopedRest (Ix := Unit) (Name := ℕ) (U := UR sig nD τ) (Lvl := ℕ) (Val := Elt F) spec0 c : sProp 𝕄)
      = iprop((∃ d, owns (c : Thread nD τ) accN fullShare d) ∗ (∃ d, owns (c : Thread nD τ) accA fullShare d)) := by
  rw [scopedRest0_eq]; simp only [accN, accA, owns_whole]; try rfl

/-! ## An input window's buffer holds its block at every point -/

section Inputs
variable {c : Dev nD} (dat : Dat τ (Elt F) Unit ℕ (UR sig nD τ) ℕ cfg0 c)

theorem before0_of (hA : dat.A 0 = V m c (Pipeline.arrRef spec0 0)) (hafter : ∀ t, dat.after 0 t = iblk m c 0 t) (t : Fin cfg0.N) (d) :
    dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hA : dat.A 1 = V m c (Pipeline.arrRef spec0 1)) (hafter : ∀ t, dat.after 1 t = iblk m c 1 t) (t : Fin cfg0.N) (d) :
    dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hA : dat.A 2 = V m c (Pipeline.arrRef spec0 2)) (hafter : ∀ t, dat.after 2 t = iblk m c 2 t) (t : Fin cfg0.N) (d) :
    dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of (hA : dat.A 3 = V m c (Pipeline.arrRef spec0 3)) (hafter : ∀ t, dat.after 3 t = iblk m c 3 t) (t : Fin cfg0.N) (d) :
    dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of (hA : dat.A 4 = V m c (Pipeline.arrRef spec0 4)) (hafter : ∀ t, dat.after 4 t = iblk m c 4 t) (t : Fin cfg0.N) (d) :
    dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
end Inputs

end Cert.KernelIdeal.Fr

end
-- ==== Proof.KI.RunFirst.lean ====
/-
  The kernel body at a point with j = 0: both accumulators are cleared, then the tile's two sums are added into them;
  nothing is written out. On whole staging buffers holding the five input blocks, the two output buffers at any contents
  (handed back untouched) and the two accumulators at anything, the body runs and leaves the inputs as they were and each
  accumulator rewritten by its stores (the clearing, then the sum); the stored pieces are found by the symbolic run.
-/
import proofs.«111500_j68917045231788_1_alg».proof.Proof.KI.Setup

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def runFirst (c : Dev nD) (i : grid0.Coords) (a2 : Memref sig .tc .vmem S1024x128 .bf16) (h2 : a2.IsWhole) (a3 : Memref sig .tc .vmem S1024x128 .bf16) (h3 : a3.IsWhole) (a4 : Memref sig .tc .vmem S1024x128 .f32) (h4 : a4.IsWhole) (a5 : Memref sig .tc .vmem S8x1024 .f32) (h5 : a5.IsWhole) (a6 : Memref sig .tc .vmem S1024x1024 .f32) (h6 : a6.IsWhole) (a7 : Memref sig .tc .vmem S1x8x128 .f32) (h7 : a7.IsWhole) (a8 : Memref sig .tc .vmem S1x8x128 .f32) (h8 : a8.IsWhole) (a9 : Memref sig .tc .vmem S1x1 .f32) (h9 : a9.IsWhole) (a10 : Memref sig .tc .vmem S1x1 .f32) (h10 : a10.IsWhole) (hf : atFirst i) (hl : ¬atLast i)
    (x0 : Vec F S1024x128 .bf16) (x1 : Vec F S1024x128 .bf16) (x2 : Vec F S1024x128 .f32) (x3 : Vec F S8x1024 .f32) (x4 : Vec F S1024x1024 .f32) :
    Σ' (LN : List (View.Piece (Elt F) S1x1 .f32)), { LA : List (View.Piece (Elt F) S1x1 .f32) //
      ∀ (y5 y6 : Vec F S1x8x128 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
            ∗ owns (c : Thread nD τ) a7 fullShare y5 ∗ owns (c : Thread nD τ) a8 fullShare y6
            ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
                ∗ owns (c : Thread nD τ) a7 fullShare y5 ∗ owns (c : Thread nD τ) a8 fullShare y6
                ∗ (∃ f, a9.view.loc (c : Thread nD τ) ↦[a9.view.set]{fullShare} a9.view.writes (Elt F) f LN)
                ∗ (∃ f, a10.view.loc (c : Thread nD τ) ↦[a10.view.set]{fullShare} a10.view.writes (Elt F) f LA)) -∗ K ⟨⟩))
          ⊢ wp frame (wpE (defs₀ (F := F)) Variants.none c none) E (cc0__edge_kernel i a2 h2 a3 h3 a4 h4 a5 h5 a6 h6 a7 h7 a8 h8 a9 h9 a10 h10) K } := by
  refine ⟨?_, ?_, fun y5 y6 E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dN, %fN, -, HN⟩, ⟨%dA, %fA, -, HA⟩, Hk⟩
    obtain rfl := h2.eq_unread hf0; obtain rfl := h3.eq_unread hf1; obtain rfl := h4.eq_unread hf2
    obtain rfl := h5.eq_unread hf3; obtain rfl := h6.eq_unread hf4
    obtain rfl := h7.eq_unread hf5; obtain rfl := h8.eq_unread hf6
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [HN]
    · iexists _; iexact HN
    iexists _; iexact HA

end Cert.KernelIdeal.Fr

end
-- ==== Proof.KI.RunMid.lean ====
/-
  The kernel body at a point with 0 < j < 7: nothing is cleared and nothing is written out. On whole staging buffers
  holding the five input blocks, the two output buffers at any contents (handed back untouched) and the two accumulators
  at what the point before left, the body runs and leaves the inputs as they were and each accumulator rewritten by one
  store; the stored pieces are found by the symbolic run.
-/
import proofs.«111500_j68917045231788_1_alg».proof.Proof.KI.RunFirst

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def runMid (c : Dev nD) (i : grid0.Coords) (a2 : Memref sig .tc .vmem S1024x128 .bf16) (h2 : a2.IsWhole) (a3 : Memref sig .tc .vmem S1024x128 .bf16) (h3 : a3.IsWhole) (a4 : Memref sig .tc .vmem S1024x128 .f32) (h4 : a4.IsWhole) (a5 : Memref sig .tc .vmem S8x1024 .f32) (h5 : a5.IsWhole) (a6 : Memref sig .tc .vmem S1024x1024 .f32) (h6 : a6.IsWhole) (a7 : Memref sig .tc .vmem S1x8x128 .f32) (h7 : a7.IsWhole) (a8 : Memref sig .tc .vmem S1x8x128 .f32) (h8 : a8.IsWhole) (a9 : Memref sig .tc .vmem S1x1 .f32) (h9 : a9.IsWhole) (a10 : Memref sig .tc .vmem S1x1 .f32) (h10 : a10.IsWhole) (hf : ¬atFirst i) (hl : ¬atLast i)
    (x0 : Vec F S1024x128 .bf16) (x1 : Vec F S1024x128 .bf16) (x2 : Vec F S1024x128 .f32) (x3 : Vec F S8x1024 .f32) (x4 : Vec F S1024x1024 .f32) (s0 s1 : Vec F S1x1 .f32) :
    Σ' (LN : List (View.Piece (Elt F) S1x1 .f32)), { LA : List (View.Piece (Elt F) S1x1 .f32) //
      ∀ (y5 y6 : Vec F S1x8x128 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
            ∗ owns (c : Thread nD τ) a7 fullShare y5 ∗ owns (c : Thread nD τ) a8 fullShare y6
            ∗ owns (c : Thread nD τ) a9 fullShare s0 ∗ owns (c : Thread nD τ) a10 fullShare s1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
                ∗ owns (c : Thread nD τ) a7 fullShare y5 ∗ owns (c : Thread nD τ) a8 fullShare y6
                ∗ (∃ f, a9.view.loc (c : Thread nD τ) ↦[a9.view.set]{fullShare} a9.view.writes (Elt F) f LN)
                ∗ (∃ f, a10.view.loc (c : Thread nD τ) ↦[a10.view.set]{fullShare} a10.view.writes (Elt F) f LA)) -∗ K ⟨⟩))
          ⊢ wp frame (wpE (defs₀ (F := F)) Variants.none c none) E (cc0__edge_kernel i a2 h2 a3 h3 a4 h4 a5 h5 a6 h6 a7 h7 a8 h8 a9 h9 a10 h10) K } := by
  refine ⟨?_, ?_, fun y5 y6 E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fN, %hfN, HN⟩, ⟨%fA, %hfA, HA⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5; obtain rfl := h8.eq_unread hf6
    obtain rfl := h9.eq_unread hfN; obtain rfl := h10.eq_unread hfA
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [HN]
    · iexists _; iexact HN
    iexists _; iexact HA

end Cert.KernelIdeal.Fr

end
-- ==== Proof.KI.RunLast.lean ====
/-
  The kernel body at a point with j = 7: the tile's two sums are added into the accumulators, and each accumulator's word
  is then spread over its output block of row i. On whole staging buffers holding the five input blocks, the two output
  buffers at anything and the two accumulators at what the point before left, the body runs and leaves the inputs as they
  were, each accumulator rewritten by one store and each output buffer written whole; the stored pieces are found by the
  symbolic run.
-/
import proofs.«111500_j68917045231788_1_alg».proof.Proof.KI.RunMid

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def runLast (c : Dev nD) (i : grid0.Coords) (a2 : Memref sig .tc .vmem S1024x128 .bf16) (h2 : a2.IsWhole) (a3 : Memref sig .tc .vmem S1024x128 .bf16) (h3 : a3.IsWhole) (a4 : Memref sig .tc .vmem S1024x128 .f32) (h4 : a4.IsWhole) (a5 : Memref sig .tc .vmem S8x1024 .f32) (h5 : a5.IsWhole) (a6 : Memref sig .tc .vmem S1024x1024 .f32) (h6 : a6.IsWhole) (a7 : Memref sig .tc .vmem S1x8x128 .f32) (h7 : a7.IsWhole) (a8 : Memref sig .tc .vmem S1x8x128 .f32) (h8 : a8.IsWhole) (a9 : Memref sig .tc .vmem S1x1 .f32) (h9 : a9.IsWhole) (a10 : Memref sig .tc .vmem S1x1 .f32) (h10 : a10.IsWhole) (hf : ¬atFirst i) (hl : atLast i)
    (x0 : Vec F S1024x128 .bf16) (x1 : Vec F S1024x128 .bf16) (x2 : Vec F S1024x128 .f32) (x3 : Vec F S8x1024 .f32) (x4 : Vec F S1024x1024 .f32) (s0 s1 : Vec F S1x1 .f32) :
    Σ' (L5 : List (View.Piece (Elt F) S1x8x128 .f32)) (L6 : List (View.Piece (Elt F) S1x8x128 .f32)) (LN : List (View.Piece (Elt F) S1x1 .f32)),
      { LA : List (View.Piece (Elt F) S1x1 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
            ∗ (∃ d, owns (c : Thread nD τ) a7 fullShare d) ∗ (∃ d, owns (c : Thread nD τ) a8 fullShare d)
            ∗ owns (c : Thread nD τ) a9 fullShare s0 ∗ owns (c : Thread nD τ) a10 fullShare s1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
                ∗ (∃ f, a7.view.loc (c : Thread nD τ) ↦[a7.view.set]{fullShare} a7.view.writes (Elt F) f L5)
                ∗ (∃ f, a8.view.loc (c : Thread nD τ) ↦[a8.view.set]{fullShare} a8.view.writes (Elt F) f L6)
                ∗ (∃ f, a9.view.loc (c : Thread nD τ) ↦[a9.view.set]{fullShare} a9.view.writes (Elt F) f LN)
                ∗ (∃ f, a10.view.loc (c : Thread nD τ) ↦[a10.view.set]{fullShare} a10.view.writes (Elt F) f LA)) -∗ K ⟨⟩))
          ⊢ wp frame (wpE (defs₀ (F := F)) Variants.none c none) E (cc0__edge_kernel i a2 h2 a3 h3 a4 h4 a5 h5 a6 h6 a7 h7 a8 h8 a9 h9 a10 h10) K } := by
  refine ⟨?_, ?_, ?_, ?_, fun E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fN, %hfN, HN⟩, ⟨%fA, %hfA, HA⟩, Hk⟩
    obtain rfl := h2.eq_unread hf0; obtain rfl := h3.eq_unread hf1; obtain rfl := h4.eq_unread hf2
    obtain rfl := h5.eq_unread hf3; obtain rfl := h6.eq_unread hf4
    obtain rfl := h9.eq_unread hfN; obtain rfl := h10.eq_unread hfA
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; iexact H5
    isplitl [H6]
    · iexists _; iexact H6
    isplitl [HN]
    · iexists _; iexact HN
    iexists _; iexact HA

end Cert.KernelIdeal.Fr

end
-- ==== Proof.KI.Outs.lean ====
/-
  What the kernel leaves, point by point. At point t = 8·i + j each accumulator holds, after the body, the pieces that
  point's case stored, read back: at j = 0 they start afresh (the clearing, then the tile's sum), at later points they are
  rewritten over what the point before left; at j = 7 the two output buffers hold the accumulators' words spread over
  the block. These contents are defined by recursion on the point (`contentsAt`) from the symbolic runs of the three
  cases; the invariant between points names the accumulators' contents from the second point on; the pipeline's proof
  data put each input window at its block, the outputs and the invariant at these contents, the difference array
  (read through two windows) at half shares; and the body obligation holds at every point by cases on j.
-/
import proofs.«111500_j68917045231788_1_alg».proof.Proof.KI.RunLast

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a point of the grid -/

/-- The run of a point with j = 0, on that point's staging buffers and input blocks. -/
abbrev firstAt (c : Dev nD) (t : Fin cfg0.N) (hf : t.val % 8 = 0) (hl : ¬t.val % 8 = 7) :=
  runFirst (F := F) c (grid0.coords t) (ms0 t) (hs0 t) (ms1 t) (hs1 t) (ms2 t) (hs2 t) (ms3 t) (hs3 t) (ms4 t) (hs4 t) (ms5 t) (hs5 t) (ms6 t) (hs6 t) accN (Memref.isWhole_whole _) accA (Memref.isWhole_whole _)
    ((atFirst_iff t).mpr hf) (fun h => hl ((atLast_iff t).mp h)) (iblk m c 0 t) (iblk m c 1 t) (iblk m c 2 t) (iblk m c 3 t) (iblk m c 4 t)
/-- The run of a point with 0 < j < 7, the accumulators at `s0`, `s1`. -/
abbrev midAt (c : Dev nD) (t : Fin cfg0.N) (hf : ¬t.val % 8 = 0) (hl : ¬t.val % 8 = 7) (s0 s1 : Vec F S1x1 .f32) :=
  runMid (F := F) c (grid0.coords t) (ms0 t) (hs0 t) (ms1 t) (hs1 t) (ms2 t) (hs2 t) (ms3 t) (hs3 t) (ms4 t) (hs4 t) (ms5 t) (hs5 t) (ms6 t) (hs6 t) accN (Memref.isWhole_whole _) accA (Memref.isWhole_whole _)
    (fun h => hf ((atFirst_iff t).mp h)) (fun h => hl ((atLast_iff t).mp h)) (iblk m c 0 t) (iblk m c 1 t) (iblk m c 2 t) (iblk m c 3 t) (iblk m c 4 t) s0 s1
/-- The run of a point with j = 7, the accumulators at `s0`, `s1`. -/
abbrev lastAt (c : Dev nD) (t : Fin cfg0.N) (hf : ¬t.val % 8 = 0) (hl : t.val % 8 = 7) (s0 s1 : Vec F S1x1 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) accN (Memref.isWhole_whole _) accA (Memref.isWhole_whole _)
    (fun h => hf ((atFirst_iff t).mp h)) ((atLast_iff t).mpr hl) (iblk m c 0 t) (iblk m c 1 t) (iblk m c 2 t) (iblk m c 3 t) (iblk m c 4 t) s0 s1

/-- The stored pieces cover the one-word accumulators and, at j = 7, the output blocks. -/
theorem coverN_first (c : Dev nD) (t : Fin cfg0.N) (hf : t.val % 8 = 0) (hl : ¬t.val % 8 = 7) (y : S1x1.Idx) :
    ∃ pc ∈ (firstAt m c t hf hl).1, y ∈ pc.1.set := View.cover_of_tiledL _ S1x1.size (by sl_kernel_rfl) y
theorem coverA_first (c : Dev nD) (t : Fin cfg0.N) (hf : t.val % 8 = 0) (hl : ¬t.val % 8 = 7) (y : S1x1.Idx) :
    ∃ pc ∈ (firstAt m c t hf hl).2.1, y ∈ pc.1.set := View.cover_of_tiledL _ S1x1.size (by sl_kernel_rfl) y
theorem coverN_mid (c : Dev nD) (t : Fin cfg0.N) (hf : ¬t.val % 8 = 0) (hl : ¬t.val % 8 = 7) (s0 s1 : Vec F S1x1 .f32) (y : S1x1.Idx) :
    ∃ pc ∈ (midAt m c t hf hl s0 s1).1, y ∈ pc.1.set := View.cover_of_tiledL _ S1x1.size (by sl_kernel_rfl) y
theorem coverA_mid (c : Dev nD) (t : Fin cfg0.N) (hf : ¬t.val % 8 = 0) (hl : ¬t.val % 8 = 7) (s0 s1 : Vec F S1x1 .f32) (y : S1x1.Idx) :
    ∃ pc ∈ (midAt m c t hf hl s0 s1).2.1, y ∈ pc.1.set := View.cover_of_tiledL _ S1x1.size (by sl_kernel_rfl) y
theorem cover5_last (c : Dev nD) (t : Fin cfg0.N) (hf : ¬t.val % 8 = 0) (hl : t.val % 8 = 7) (s0 s1 : Vec F S1x1 .f32) (y : S1x8x128.Idx) :
    ∃ pc ∈ (lastAt m c t hf hl s0 s1).1, y ∈ pc.1.set := View.cover_of_tiledL _ S1x8x128.size (by sl_kernel_rfl) y
theorem cover6_last (c : Dev nD) (t : Fin cfg0.N) (hf : ¬t.val % 8 = 0) (hl : t.val % 8 = 7) (s0 s1 : Vec F S1x1 .f32) (y : S1x8x128.Idx) :
    ∃ pc ∈ (lastAt m c t hf hl s0 s1).2.1, y ∈ pc.1.set := View.cover_of_tiledL _ S1x8x128.size (by sl_kernel_rfl) y
theorem coverN_last (c : Dev nD) (t : Fin cfg0.N) (hf : ¬t.val % 8 = 0) (hl : t.val % 8 = 7) (s0 s1 : Vec F S1x1 .f32) (y : S1x1.Idx) :
    ∃ pc ∈ (lastAt m c t hf hl s0 s1).2.2.1, y ∈ pc.1.set := View.cover_of_tiledL _ S1x1.size (by sl_kernel_rfl) y
theorem coverA_last (c : Dev nD) (t : Fin cfg0.N) (hf : ¬t.val % 8 = 0) (hl : t.val % 8 = 7) (s0 s1 : Vec F S1x1 .f32) (y : S1x1.Idx) :
    ∃ pc ∈ (lastAt m c t hf hl s0 s1).2.2.2.1, y ∈ pc.1.set := View.cover_of_tiledL _ S1x1.size (by sl_kernel_rfl) y

/-- What each case leaves: its pieces read back (over contents that do not matter, the pieces covering). -/
def accN_first (c : Dev nD) (t : Fin cfg0.N) (hf : t.val % 8 = 0) (hl : ¬t.val % 8 = 7) : Vec F S1x1 .f32 :=
  vAccN.read (Elt F) (vAccN.writes (Elt F) vAccN.junk (firstAt m c t hf hl).1)
def accA_first (c : Dev nD) (t : Fin cfg0.N) (hf : t.val % 8 = 0) (hl : ¬t.val % 8 = 7) : Vec F S1x1 .f32 :=
  vAccA.read (Elt F) (vAccA.writes (Elt F) vAccA.junk (firstAt m c t hf hl).2.1)
def accN_mid (c : Dev nD) (t : Fin cfg0.N) (hf : ¬t.val % 8 = 0) (hl : ¬t.val % 8 = 7) (s0 s1 : Vec F S1x1 .f32) : Vec F S1x1 .f32 :=
  vAccN.read (Elt F) (vAccN.writes (Elt F) vAccN.junk (midAt m c t hf hl s0 s1).1)
def accA_mid (c : Dev nD) (t : Fin cfg0.N) (hf : ¬t.val % 8 = 0) (hl : ¬t.val % 8 = 7) (s0 s1 : Vec F S1x1 .f32) : Vec F S1x1 .f32 :=
  vAccA.read (Elt F) (vAccA.writes (Elt F) vAccA.junk (midAt m c t hf hl s0 s1).2.1)
def out5_last (c : Dev nD) (t : Fin cfg0.N) (hf : ¬t.val % 8 = 0) (hl : t.val % 8 = 7) (s0 s1 : Vec F S1x1 .f32) : Vec F S1x8x128 .f32 :=
  vOut5.read (Elt F) (vOut5.writes (Elt F) vOut5.junk (lastAt m c t hf hl s0 s1).1)
def out6_last (c : Dev nD) (t : Fin cfg0.N) (hf : ¬t.val % 8 = 0) (hl : t.val % 8 = 7) (s0 s1 : Vec F S1x1 .f32) : Vec F S1x8x128 .f32 :=
  vOut6.read (Elt F) (vOut6.writes (Elt F) vOut6.junk (lastAt m c t hf hl s0 s1).2.1)
def accN_last (c : Dev nD) (t : Fin cfg0.N) (hf : ¬t.val % 8 = 0) (hl : t.val % 8 = 7) (s0 s1 : Vec F S1x1 .f32) : Vec F S1x1 .f32 :=
  vAccN.read (Elt F) (vAccN.writes (Elt F) vAccN.junk (lastAt m c t hf hl s0 s1).2.2.1)
def accA_last (c : Dev nD) (t : Fin cfg0.N) (hf : ¬t.val % 8 = 0) (hl : t.val % 8 = 7) (s0 s1 : Vec F S1x1 .f32) : Vec F S1x1 .f32 :=
  vAccA.read (Elt F) (vAccA.writes (Elt F) vAccA.junk (lastAt m c t hf hl s0 s1).2.2.2.1)

/-- Contents of an output buffer at a point that stores nothing into it: never consulted (the window is idle there and is
    not written back). -/
def idle5 : Vec F S1x8x128 .f32 := vOut5.read (Elt F) vOut5.junk
def idle6 : Vec F S1x8x128 .f32 := vOut6.read (Elt F) vOut6.junk

/-! ## The contents after each point -/

/-- After the body at position `n`: the two output buffers, then the two accumulators. -/
def contentsAt (c : Dev nD) : (n : ℕ) → n < cfg0.N → Vec F S1x8x128 .f32 × Vec F S1x8x128 .f32 × Vec F S1x1 .f32 × Vec F S1x1 .f32
  | 0, hn => (idle5, idle6, accN_first m c ⟨0, hn⟩ (Nat.zero_mod _) (fun h => absurd (show 0 % 8 = 7 from h) (by decide)),
      accA_first m c ⟨0, hn⟩ (Nat.zero_mod _) (fun h => absurd (show 0 % 8 = 7 from h) (by decide)))
  | n + 1, hn =>
    if hf : (n + 1) % 8 = 0 then
      (idle5, idle6, accN_first m c ⟨n + 1, hn⟩ hf (fun h => by have h' : (n + 1) % 8 = 7 := h; omega),
       accA_first m c ⟨n + 1, hn⟩ hf (fun h => by have h' : (n + 1) % 8 = 7 := h; omega))
    else if hl : (n + 1) % 8 = 7 then
      (out5_last m c ⟨n + 1, hn⟩ hf hl (contentsAt c n (Nat.lt_of_succ_lt hn)).2.2.1 (contentsAt c n (Nat.lt_of_succ_lt hn)).2.2.2,
       out6_last m c ⟨n + 1, hn⟩ hf hl (contentsAt c n (Nat.lt_of_succ_lt hn)).2.2.1 (contentsAt c n (Nat.lt_of_succ_lt hn)).2.2.2,
       accN_last m c ⟨n + 1, hn⟩ hf hl (contentsAt c n (Nat.lt_of_succ_lt hn)).2.2.1 (contentsAt c n (Nat.lt_of_succ_lt hn)).2.2.2,
       accA_last m c ⟨n + 1, hn⟩ hf hl (contentsAt c n (Nat.lt_of_succ_lt hn)).2.2.1 (contentsAt c n (Nat.lt_of_succ_lt hn)).2.2.2)
    else
      (idle5, idle6,
       accN_mid m c ⟨n + 1, hn⟩ hf hl (contentsAt c n (Nat.lt_of_succ_lt hn)).2.2.1 (contentsAt c n (Nat.lt_of_succ_lt hn)).2.2.2,
       accA_mid m c ⟨n + 1, hn⟩ hf hl (contentsAt c n (Nat.lt_of_succ_lt hn)).2.2.1 (contentsAt c n (Nat.lt_of_succ_lt hn)).2.2.2)

/-- What the point before `t` left. -/
abbrev prevAt (c : Dev nD) (t : Fin cfg0.N) := contentsAt m c (t.val - 1) (Nat.lt_of_le_of_lt (Nat.sub_le _ _) t.isLt)

theorem contentsAt_first (c : Dev nD) (t : Fin cfg0.N) (hf : t.val % 8 = 0) (hl : ¬t.val % 8 = 7) :
    contentsAt m c t.val t.isLt = (idle5, idle6, accN_first m c t hf hl, accA_first m c t hf hl) := by
  obtain ⟨n, hn⟩ := t
  cases n with
  | zero => rfl
  | succ n => exact (dif_pos hf).trans rfl
theorem contentsAt_mid (c : Dev nD) (t : Fin cfg0.N) (hf : ¬t.val % 8 = 0) (hl : ¬t.val % 8 = 7) :
    contentsAt m c t.val t.isLt = (idle5, idle6, accN_mid m c t hf hl (prevAt m c t).2.2.1 (prevAt m c t).2.2.2,
      accA_mid m c t hf hl (prevAt m c t).2.2.1 (prevAt m c t).2.2.2) := by
  obtain ⟨n, hn⟩ := t
  cases n with
  | zero => exact absurd (Nat.zero_mod _) hf
  | succ n => exact (dif_neg hf).trans ((dif_neg hl).trans rfl)
theorem contentsAt_last (c : Dev nD) (t : Fin cfg0.N) (hf : ¬t.val % 8 = 0) (hl : t.val % 8 = 7) :
    contentsAt m c t.val t.isLt = (out5_last m c t hf hl (prevAt m c t).2.2.1 (prevAt m c t).2.2.2, out6_last m c t hf hl (prevAt m c t).2.2.1 (prevAt m c t).2.2.2,
      accN_last m c t hf hl (prevAt m c t).2.2.1 (prevAt m c t).2.2.2, accA_last m c t hf hl (prevAt m c t).2.2.1 (prevAt m c t).2.2.2) := by
  obtain ⟨n, hn⟩ := t
  cases n with
  | zero => exact absurd (Nat.zero_mod _) hf
  | succ n => exact (dif_neg hf).trans ((dif_pos hl).trans rfl)

/-! ## The invariant between points -/

/-- Before the first point the accumulators hold anything; afterwards what the point before left. -/
def accInv (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) accN fullShare (contentsAt m c n hn).2.2.1 ∗ owns (c : Thread nD τ) accA fullShare (contentsAt m c n hn).2.2.2)

theorem accInv_zero (c : Dev nD) (n : ℕ) (h : n ≤ cfg0.N) (hz : n = 0) :
    accInv m c n h = Pipeline.scopedRest (Ix := Unit) (Name := ℕ) (U := UR sig nD τ) (Lvl := ℕ) (Val := Elt F) spec0 c := by subst hz; rfl
theorem accInv_succ (c : Dev nD) (n : ℕ) (hn : n < cfg0.N) :
    accInv m c (n + 1) hn = iprop(owns (c : Thread nD τ) accN fullShare (contentsAt m c n hn).2.2.1 ∗ owns (c : Thread nD τ) accA fullShare (contentsAt m c n hn).2.2.2) := rfl
theorem accInv_pos (c : Dev nD) (n : ℕ) (h : n ≤ cfg0.N) (hz : n ≠ 0) :
    accInv m c n h = iprop(owns (c : Thread nD τ) accN fullShare (contentsAt m c (n - 1) (by omega)).2.2.1 ∗ owns (c : Thread nD τ) accA fullShare (contentsAt m c (n - 1) (by omega)).2.2.2) := by
  cases n with
  | zero => exact absurd rfl hz
  | succ n => rfl

/-! ## The pipeline's proof data -/

/-- The arrays as the region finds them; after the body each input's buffer at its block, the outputs' at `contentsAt`;
    the invariant `accInv`; nothing owed; the difference array, which two windows read, held by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (contentsAt m c t.val t.isLt).1
    | ⟨6, _⟩ => (contentsAt m c t.val t.isLt).2.1
  Φ t := accInv m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by dsimp only [dats]
theorem inv_castSucc (c : Dev nD) (t : Fin cfg0.N) : (dats m 0 c).Φ t.castSucc = accInv m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (contentsAt m c t.val t.isLt).1 := by dsimp only [dats]
theorem after6 (c : Dev nD) (t : Fin cfg0.N) : (dats m 0 c).after 6 t = (contentsAt m c t.val t.isLt).2.1 := by dsimp only [dats]

theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d

/-- An input window is never idle: its buffer is left at `after`, which is its block. -/
theorem leaves0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after3]
theorem leaves4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after4]

/-! ## The body obligation, at a generic point -/

/-- What the body is called with at point `t`: the invariant, what the core owes (nothing), and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 4800000 in
/-- The body at any point. The inputs' buffers hold their blocks; j decides the case; at j < 7 the output windows are idle and
    not written back, so their buffers pass through untouched, at j = 7 they are stored whole; the invariant hands over the
    accumulators (at anything before the first point, else at what the point before left) and takes them back at this
    point's contents, the stored pieces covering them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, leaves0, leaves1, leaves2, leaves3, leaves4]
  rw [show (dats m 0 c).owesAt () t.succ = (dats m 0 c).owesAt () t.castSucc from rfl]
  rw [show (dats m 0 c).Φ t.succ = accInv m c (t.val + 1) t.isLt from rfl, accInv_succ]
  have hN : t.val < 64 := lt_of_lt_of_eq t.isLt (show cfg0.N = 64 from N_0)
  by_cases hf : t.val % 8 = 0
  · have hl : ¬t.val % 8 = 7 := by omega
    rw [Dat.leavesExact_idle (dats m 0 c) 5 t (idle5_of t (fun h => hl ((atLast_iff t).mp h))) (noFlush5_of t (fun h => hl ((atLast_iff t).mp h)))]
    rw [Dat.leavesExact_idle (dats m 0 c) 6 t (idle6_of t (fun h => hl ((atLast_iff t).mp h))) (noFlush6_of t (fun h => hl ((atLast_iff t).mp h)))]
    rw [contentsAt_first m c t hf hl]
    unfold accN_first accA_first; (try dsimp only)
    by_cases hz : t.val = 0
    · rw [inv_castSucc m c t, accInv_zero m c _ _ hz, scopedRest_acc]
      iintro ⟨⟨HN, HA⟩, Ho, ⟨%d0, H0⟩, ⟨%d1, H1⟩, ⟨%d2, H2⟩, ⟨%d3, H3⟩, ⟨%d4, H4⟩, ⟨%d5, H5⟩, ⟨%d6, H6⟩⟩
      iapply ((firstAt m c t hf hl).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HN]; · iexact HN
      isplitl [HA]; · iexact HA
      iintro ⟨H0, H1, H2, H3, H4, H5, H6, ⟨%eN, HN⟩, ⟨%eA, HA⟩⟩
      isplitl [HN HA]
      · isplitl [HN]
        · unfold owns; iexists _; isplitr
          swap; · iexact HN
          ipureintro; exact View.read_writes_of_cover _ _ _ _ _ (coverN_first m c t hf hl)
        · unfold owns; iexists _; isplitr
          swap; · iexact HA
          ipureintro; exact View.read_writes_of_cover _ _ _ _ _ (coverA_first m c t hf hl)
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [inv_castSucc m c t, accInv_pos m c _ _ hz]
      iintro ⟨⟨HN, HA⟩, Ho, ⟨%d0, H0⟩, ⟨%d1, H1⟩, ⟨%d2, H2⟩, ⟨%d3, H3⟩, ⟨%d4, H4⟩, ⟨%d5, H5⟩, ⟨%d6, H6⟩⟩
      iapply ((firstAt m c t hf hl).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HN]; · iexists _; iexact HN
      isplitl [HA]; · iexists _; iexact HA
      iintro ⟨H0, H1, H2, H3, H4, H5, H6, ⟨%eN, HN⟩, ⟨%eA, HA⟩⟩
      isplitl [HN HA]
      · isplitl [HN]
        · unfold owns; iexists _; isplitr
          swap; · iexact HN
          ipureintro; exact View.read_writes_of_cover _ _ _ _ _ (coverN_first m c t hf hl)
        · unfold owns; iexists _; isplitr
          swap; · iexact HA
          ipureintro; exact View.read_writes_of_cover _ _ _ _ _ (coverA_first m c t hf hl)
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · have hz : t.val ≠ 0 := fun h => hf (by rw [h])
    by_cases hl : t.val % 8 = 7
    · rw [show (dats m 0 c).leavesExact 5 t = owns (c : Thread nD τ) (ms5 t) fullShare ((dats m 0 c).after 5 t) from by
        unfold Dat.leavesExact; rw [live5_of t ((atLast_iff t).mpr hl)], after5]
      rw [show (dats m 0 c).leavesExact 6 t = owns (c : Thread nD τ) (ms6 t) fullShare ((dats m 0 c).after 6 t) from by
        unfold Dat.leavesExact; rw [live6_of t ((atLast_iff t).mpr hl)], after6]
      rw [contentsAt_last m c t hf hl]
      unfold out5_last out6_last accN_last accA_last; (try dsimp only)
      rw [inv_castSucc m c t, accInv_pos m c _ _ hz]
      iintro ⟨⟨HN, HA⟩, Ho, ⟨%d0, H0⟩, ⟨%d1, H1⟩, ⟨%d2, H2⟩, ⟨%d3, H3⟩, ⟨%d4, H4⟩, ⟨%d5, H5⟩, ⟨%d6, H6⟩⟩
      iapply ((lastAt m c t hf hl _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HN]; · iexact HN
      isplitl [HA]; · iexact HA
      iintro ⟨H0, H1, H2, H3, H4, ⟨%e5, H5⟩, ⟨%e6, H6⟩, ⟨%eN, HN⟩, ⟨%eA, HA⟩⟩
      isplitl [HN HA]
      · isplitl [HN]
        · unfold owns; iexists _; isplitr
          swap; · iexact HN
          ipureintro; exact View.read_writes_of_cover _ _ _ _ _ (coverN_last m c t hf hl _ _)
        · unfold owns; iexists _; isplitr
          swap; · iexact HA
          ipureintro; exact View.read_writes_of_cover _ _ _ _ _ (coverA_last m c t hf hl _ _)
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover5_last m c t hf hl _ _)
      unfold owns; iexists _; isplitr
      swap; · iexact H6
      ipureintro; exact View.read_writes_of_cover _ _ _ _ _ (cover6_last m c t hf hl _ _)
    · rw [Dat.leavesExact_idle (dats m 0 c) 5 t (idle5_of t (fun h => hl ((atLast_iff t).mp h))) (noFlush5_of t (fun h => hl ((atLast_iff t).mp h)))]
      rw [Dat.leavesExact_idle (dats m 0 c) 6 t (idle6_of t (fun h => hl ((atLast_iff t).mp h))) (noFlush6_of t (fun h => hl ((atLast_iff t).mp h)))]
      rw [contentsAt_mid m c t hf hl]
      unfold accN_mid accA_mid; (try dsimp only)
      rw [inv_castSucc m c t, accInv_pos m c _ _ hz]
      iintro ⟨⟨HN, HA⟩, Ho, ⟨%d0, H0⟩, ⟨%d1, H1⟩, ⟨%d2, H2⟩, ⟨%d3, H3⟩, ⟨%d4, H4⟩, ⟨%d5, H5⟩, ⟨%d6, H6⟩⟩
      iapply ((midAt m c t hf hl _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HN]; · iexact HN
      isplitl [HA]; · iexact HA
      iintro ⟨H0, H1, H2, H3, H4, H5, H6, ⟨%eN, HN⟩, ⟨%eA, HA⟩⟩
      isplitl [HN HA]
      · isplitl [HN]
        · unfold owns; iexists _; isplitr
          swap; · iexact HN
          ipureintro; exact View.read_writes_of_cover _ _ _ _ _ (coverN_mid m c t hf hl _ _)
        · unfold owns; iexists _; isplitr
          swap; · iexact HA
          ipureintro; exact View.read_writes_of_cover _ _ _ _ _ (coverA_mid m c t hf hl _ _)
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region — the accumulators at anything — is the invariant before the first point. -/
theorem inv_in (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = accInv m c 0 (Nat.zero_le _) from rfl, accInv_zero m c 0 _ rfl]
  try exact Idealize.SL.BI.Entails.refl _

/-- After the last point the invariant gives the accumulators back, their contents forgotten. -/
theorem inv_out (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = accInv m c (Fin.last cfg0.N).val (Nat.le_of_lt_succ (Fin.last cfg0.N).isLt) from rfl,
    accInv_pos m c _ _ (by rw [Fin.val_last]; have : cfg0.N = 64 := N_0; omega), scopedRest_acc]
  iintro ⟨HN, HA⟩
  isplitl [HN]
  · iexists _; iexact HN
  iexists _; iexact HA

end Cert.KernelIdeal.Fr

end
-- ==== Proof.KI.Launch.lean ====
/-
  The whole program on one core: fourteen host operations, the kernel region, fourteen host operations that read the
  region's two output arrays. Between two of these three stretches the core holds every unscoped buffer whole at a
  valuation: the launch contents, then those after the first host stretch, then the same with the two output arrays at
  what the write-backs made them, then those after the last host stretch. The region's two first windows read ONE array
  (the rounded difference): its whole points-to is cut into the two halves of the full share on entry, one per window;
  an input window's array is never written back, so both halves come back at the contents they went in with and are
  joined again on exit. No host operation writes an argument and the region changes only its two output arrays, so
  each argument ends as launched.
-/
import proofs.«111500_j68917045231788_1_alg».proof.Proof.KI.Outs
import Idealize.ShloMosaic.Lib.Pipeline.Regions
import Idealize.ShloMosaic.Lib.Pipeline.Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents after the region and after the last host stretch -/

/-- Core `c`'s unscoped buffers when the region is left: as entered, but the two output arrays at what the write-backs made them. -/
abbrev V2 (c : Dev nD) : Valuation τ sig (Elt F) := Function.update (Function.update (V1 m c) (Proc.devRef .tc main_v11_0) ((dats m 0 c).arrAt 5 cfg0.N)) (Proc.devRef .tc main_v11_1) ((dats m 0 c).arrAt 6 cfg0.N)
/-- and after the fourteen host operations that follow. -/
abbrev V3 (c : Dev nD) : Valuation τ sig (Elt F) := StableHlo.after hostOps1 (V2 m c)

/-- The region leaves the first output array at its last write-back, -/
theorem V2_out0 (c : Dev nD) : V2 m c (Proc.devRef .tc main_v11_0) = (dats m 0 c).arrAt 5 cfg0.N := by
  show Function.update (Function.update (V1 m c) (Proc.devRef .tc main_v11_0) ((dats m 0 c).arrAt 5 cfg0.N)) (Proc.devRef .tc main_v11_1) ((dats m 0 c).arrAt 6 cfg0.N) (Proc.devRef .tc main_v11_0) = _
  rw [Function.update_of_ne (StableHlo.devRef_ne_of_ne (by decide)), Function.update_self]
/-- the second likewise, -/
theorem V2_out1 (c : Dev nD) : V2 m c (Proc.devRef .tc main_v11_1) = (dats m 0 c).arrAt 6 cfg0.N := by
  show Function.update (Function.update (V1 m c) (Proc.devRef .tc main_v11_0) ((dats m 0 c).arrAt 5 cfg0.N)) (Proc.devRef .tc main_v11_1) ((dats m 0 c).arrAt 6 cfg0.N) (Proc.devRef .tc main_v11_1) = _
  rw [Function.update_self]
/-- and every other buffer as it found it. -/
theorem V2_of (c : Dev nD) (r : Ref sig .tc) (h0 : r ≠ main_v11_0) (h1 : r ≠ main_v11_1) : V2 m c (Proc.devRef .tc r) = V1 m c (Proc.devRef .tc r) := by
  show Function.update (Function.update (V1 m c) (Proc.devRef .tc main_v11_0) ((dats m 0 c).arrAt 5 cfg0.N)) (Proc.devRef .tc main_v11_1) ((dats m 0 c).arrAt 6 cfg0.N) (Proc.devRef .tc r) = _
  rw [Function.update_of_ne (StableHlo.devRef_ne_of_ne h1), Function.update_of_ne (StableHlo.devRef_ne_of_ne h0)]

/-! ## What the host stretches write -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- The results of the first stretch, in order; -/
abbrev written0 : List (Ref sig .tc) := [main_v0, main_v1, main_cst, main_v2, main_cst_0, main_v3, main_v4, main_cst_1, main_v5, main_v6, main_v7, main_v8, main_v9, main_v10]
/-- of the last. -/
abbrev written1 : List (Ref sig .tc) := [main_v12, main_v13, main_cst_2, main_v14, main_v15, main_v16, main_cst_3, main_v17, main_cst_4, main_v18, main_v19, main_v20, main_cst_5, main_v21]
theorem hostOps0_writes : (hostOps0 : List (HloOp τ sig (Elt F))).Forall fun op => op.writes ⊆ (written0.map (Proc.devRef (τ := τ) .tc)).toFinset := by
  simp only [List.Forall, StableHlo.nullary_writes, StableHlo.unary_writes, StableHlo.binary_writes, StableHlo.reshape_writes, Finset.singleton_subset_iff, List.mem_toFinset]
  repeat' constructor
  all_goals exact List.mem_map_of_mem (by decide)
theorem hostOps1_writes : (hostOps1 : List (HloOp τ sig (Elt F))).Forall fun op => op.writes ⊆ (written1.map (Proc.devRef (τ := τ) .tc)).toFinset := by
  simp only [List.Forall, StableHlo.nullary_writes, StableHlo.unary_writes, StableHlo.binary_writes, StableHlo.reshape_writes, Finset.singleton_subset_iff, List.mem_toFinset]
  repeat' constructor
  all_goals exact List.mem_map_of_mem (by decide)

/-- A buffer no stretch writes and the region does not change ends as launched. -/
theorem V3_of (c : Dev nD) (r : Ref sig .tc) (h0 : r ∉ written0) (h1 : r ∉ written1) (ha : r ≠ main_v11_0) (hb : r ≠ main_v11_1) :
    V3 m c (Proc.devRef .tc r) = m ((c.tc : Thread nD τ).loc r) :=
  (StableHlo.after_of_writes_sub hostOps1 _ hostOps1_writes h1).trans <| (V2_of m c r ha hb).trans <|
    (StableHlo.after_of_writes_sub hostOps0 _ hostOps0_writes h0).trans rfl

/-! ## The windows' arrays, one by one -/

/-- The six buffers behind the seven windows. -/
theorem arrImage : (Finset.univ.image (Pipeline.arrRef spec0) : Finset (Ref sig .tc)) = [main_v10, main_v7, main_v9, main_arg2, main_v11_0, main_v11_1].toFinset := by decide

/-- The pipeline's arrays as a chain: the rounded difference twice, at the two halves of the full share. -/
theorem arrays_chain (c : Dev nD) (G : (w : Fin cfg0.W) → Buf (Elt F) ((cfg0.win w).arr.view.loc (c.tc : Thread nD τ))) :
    ((dats m 0 c).arrays G : sProp 𝕄) = iprop(
      (((c.tc : Thread nD τ).loc main_v10) ↦{fullShare.left} G 0) ∗ (((c.tc : Thread nD τ).loc main_v10) ↦{fullShare.right} G 1)
      ∗ (((c.tc : Thread nD τ).loc main_v7) ↦{fullShare} G 2) ∗ (((c.tc : Thread nD τ).loc main_v9) ↦{fullShare} G 3)
      ∗ (((c.tc : Thread nD τ).loc main_arg2) ↦{fullShare} G 4) ∗ (((c.tc : Thread nD τ).loc main_v11_0) ↦{fullShare} G 5)
      ∗ (((c.tc : Thread nD τ).loc main_v11_1) ↦{fullShare} G 6)) := by
  unfold Dat.arrays
  rw [bigSep_W0]
  rw [(arr_whole0 0).set_eq_univ, (arr_whole0 2).set_eq_univ, (arr_whole0 3).set_eq_univ, (arr_whole0 4).set_eq_univ, (arr_whole0 5).set_eq_univ, (arr_whole0 6).set_eq_univ]
  rfl

/-- The distinct buffers behind them, each whole. -/
theorem arrBufs_chain (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄) = iprop(
      (((c.tc : Thread nD τ).loc main_v10) ↦{fullShare} W main_v10)
      ∗ (((c.tc : Thread nD τ).loc main_v7) ↦{fullShare} W main_v7) ∗ (((c.tc : Thread nD τ).loc main_v9) ↦{fullShare} W main_v9)
      ∗ (((c.tc : Thread nD τ).loc main_arg2) ↦{fullShare} W main_arg2) ∗ (((c.tc : Thread nD τ).loc main_v11_0) ↦{fullShare} W main_v11_0)
      ∗ (((c.tc : Thread nD τ).loc main_v11_1) ↦{fullShare} W main_v11_1)) := by
  unfold Pipeline.arrBufs
  rw [bigSep_eq_bigSepL_of_eq [main_v10, main_v7, main_v9, main_arg2, main_v11_0, main_v11_1] arrImage (by decide)]
  rfl

/-- ENTRY: the buffers at what the first host stretch left are the pipeline's arrays at their entry contents, the
    rounded difference cut into the two halves of its share. -/
theorem arrays_in (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs_chain, arrays_chain]
  simp only [show ∀ w, (dats m 0 c).arrAt w 0 = V m c (Pipeline.arrRef spec0 w) from fun w => A_eq m c w]
  iintro ⟨H10, H7, H9, Ha, Ho0, Ho1⟩
  ihave H := (pointsTo_share (PosShare.mem_left_op_right fullShare)).1 $$ H10
  icases H with ⟨Hl, Hr⟩
  isplitl [Hl]; · iexact Hl
  isplitl [Hr]; · iexact Hr
  isplitl [H7]; · iexact H7
  isplitl [H9]; · iexact H9
  isplitl [Ha]; · iexact Ha
  isplitl [Ho0]; · iexact Ho0
  iexact Ho1

/-- EXIT: an input's array is never written back, so the two halves of the rounded difference hold what they held and
    join; the two outputs stand at their last write-backs, which is what the valuation after the region says of them. -/
theorem arrays_out (c : Dev nD) :
    (dats m 0 c).arrays ((dats m 0 c).arrAt · cfg0.N)
      ⊢ (Pipeline.arrBufs (Ix := Unit) (Name := ℕ) (U := UR sig nD τ) (Lvl := ℕ) spec0 c (fun b => V2 m c (Proc.devRef .tc b)) : sProp 𝕄) := by
  rw [arrBufs_chain, arrays_chain]
  rw [V2_out0, V2_out1, V2_of m c main_v10 (by decide) (by decide), V2_of m c main_v7 (by decide) (by decide),
    V2_of m c main_v9 (by decide) (by decide), V2_of m c main_arg2 (by decide) (by decide)]
  rw [(dats m 0 c).arrAt_in 0 rfl, (dats m 0 c).arrAt_in 1 rfl, (dats m 0 c).arrAt_in 2 rfl, (dats m 0 c).arrAt_in 3 rfl, (dats m 0 c).arrAt_in 4 rfl]
  simp only [A_eq]
  iintro ⟨Hl, Hr, H7, H9, Ha, Ho0, Ho1⟩
  isplitl [Hl Hr]
  · iapply (pointsTo_share (PosShare.mem_left_op_right fullShare)).2
    isplitl [Hl]; · iexact Hl
    iexact Hr
  isplitl [H7]; · iexact H7
  isplitl [H9]; · iexact H9
  isplitl [Ha]; · iexact Ha
  isplitl [Ho0]; · iexact Ho0
  iexact Ho1

/-- No buffer of the rest is an output array: the rest is the same at both valuations. -/
theorem rest_eq (c : Dev nD) :
    (Pipeline.unscopedRest (Ix := Unit) (Name := ℕ) (U := UR sig nD τ) (Lvl := ℕ) spec0 c (V m c) : sProp 𝕄)
      = Pipeline.unscopedRest spec0 c (fun b => V2 m c (Proc.devRef .tc b)) := by
  unfold Pipeline.unscopedRest
  refine bigSep_congr fun b hb => ?_
  have hb' := (Finset.mem_sdiff.mp hb).2
  dsimp only
  rw [V2_of m c b (fun h => hb' (h ▸ Finset.mem_image_of_mem (Pipeline.arrRef spec0) (Finset.mem_univ (5 : Fin 7))))
    (fun h => hb' (h ▸ Finset.mem_image_of_mem (Pipeline.arrRef spec0) (Finset.mem_univ (6 : Fin 7))))]

/-! ## The launch: the program as three segments -/

abbrev 𝒱₀ : Variants := Variants.none
/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)

/-- The first host stretch, over every unscoped buffer, from the launch contents. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
/-- The last, from what the region left. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) R

set_option backward.isDefEq.respectTransparency.types false in
/-- THE REGION. Entered from every unscoped buffer at what the first host stretch left: the buffers behind the windows
    go to the pipeline (the shared one by halves), every other buffer bypasses it whole; nothing but the two accumulators
    enters the invariant. Left with the same buffers, the two output arrays at their last write-backs. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m c) ∗ R c)
  X c := iprop(emp)
  Y c := iprop(emp)
  Z c := Pipeline.unscopedRest spec0 c (V m c)
  hentry c := by
    rw [show StableHlo.held (c : Thread nD τ) (Pipeline.ucRefs τ sig) (V1 m c) = unscopedBufs c (V m c) from (Pipeline.unscopedBufs_held c (V1 m c)).symm,
      Pipeline.unscopedBufs_split₀ cfgs 0 winFacts₀0.arr_unscoped c (V m c)]
    iintro ⟨⟨⟨Ha, Hz⟩, HO⟩, -, -⟩
    imodintro
    isplitl [Ha]; · iapply (arrays_in m c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    iintro ⟨-, -, Hr⟩
    iapply (inv_in m c); iexact Hr
  hout c := by
    rw [Pipeline.ownSems0_none]
    iintro H
    isplitr; · iempintro
    isplitr; · iempintro
    iapply (inv_out m c); iexact H
  hexit c := by
    rw [show StableHlo.held (c : Thread nD τ) (Pipeline.ucRefs τ sig) (V2 m c) = unscopedBufs c (fun b => V2 m c (Proc.devRef .tc b)) from (Pipeline.unscopedBufs_held c (V2 m c)).symm,
      Pipeline.unscopedBufs_split₀ cfgs 0 winFacts₀0.arr_unscoped c (fun b => V2 m c (Proc.devRef .tc b)), ← rest_eq]
    iintro ⟨Ha, HO, -, Hz⟩
    imodintro
    isplitr [HO]
    · isplitl [Ha]; · iapply (arrays_out m c); iexact Ha
      iexact Hz
    · unfold Pipeline.Dat.owesAt Pipeline.owesWithin
      icases HO with ⟨%W, -, HO⟩; iexists W; iexact HO

set_option backward.isDefEq.respectTransparency.types false in
/-- From any memory with zero counters every weakly fair execution of the program terminates, and every final state
    holds the result at what the last host stretch computes from the region's outputs, and each argument as launched. -/
theorem run_main : θ_run defs (onTc (τ := τ) (main (F := F))) ⟨m, fun _ => 0, ρ⟩ (fun r => ∀ c : Dev nD,
      r.2.mem ((c.tc : Thread nD τ).loc main_v21) = V3 m c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (dats m) () cellOf_inj emb₁ defs₀ 𝒱₀ L lv m ρ main
    [.host (seg0 m), .region (reg0 m), .host (seg1 m)]
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V3 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => s.mem ((c.tc : Thread nD τ).loc main_v21) = V3 m c (Proc.devRef .tc main_v21)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      unfold StableHlo.held
      iintro ⟨Hh, HSI⟩
      ihave Hr := (pointsTo_read_all (Pipeline.ucRefs τ sig) (fun b => ((c : Thread nD τ).1, b)) (V3 m c) s') $$ [Hh HSI]
      · isplitl [Hh] <;> iassumption
      icases Hr with ⟨%h, HSI⟩
      imodintro
      isplitr
      · ipureintro
        have hmem : ∀ r : Ref sig .tc, r.isScoped = false → Proc.devRef (τ := τ) .tc r ∈ Pipeline.ucRefs τ sig := fun r hr =>
          Finset.mem_filter.mpr ⟨StableHlo.devRef_mem_tcRefs r, by simpa using hr⟩
        exact ⟨h _ (hmem main_v21 rfl),
          (h _ (hmem main_arg0 rfl)).trans (V3_of m c main_arg0 (by decide) (by decide) (by decide) (by decide)),
          (h _ (hmem main_arg1 rfl)).trans (V3_of m c main_arg1 (by decide) (by decide) (by decide) (by decide)),
          (h _ (hmem main_arg2 rfl)).trans (V3_of m c main_arg2 (by decide) (by decide) (by decide) (by decide))⟩
      · iexact HSI)
    (hQ := fun _ h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Fr

end
-- ==== Proof.KV.Pieces.lean ====
/-
  What the three cases leave, as the body's own arithmetic. With T the tile's edge sum and A the tile's adjacency sum (the
  body's two reductions of the point's blocks), a point with j = 0 leaves the accumulators at 0 + T and 0 + A, a later
  point at s + T and s' + A over what the point before left (s, s'), and a point with j = 7 moreover leaves each output
  block at its accumulator's word spread over the block. Each statement reads the pieces the symbolic run found: one store
  into a one-word buffer leaves its payload, and a load after a store in the same run reads that payload back.
-/
import proofs.«111500_j68917045231788_1_alg».proof.Proof.KI.Outs
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-- The column of squared row norms the body loads from the row-norm block (its first lane), -/
abbrev colOf (x2 : Vec F S1024x128 .f32) : Vec F S1024x1 .f32 := View.ld x2 (Rect.unit (s := S1024x128) ![0, 0] S1024x1.size inb_S1024x128_S1024x1_0_0)
/-- and the row of squared column norms it loads from the lane block (its first sublane). -/
abbrev rowOf (x3 : Vec F S8x1024 .f32) : Vec F S1x1024 .f32 := View.ld x3 (Rect.unit (s := S8x1024) ![0, 0] S1x1024.size inb_S8x1024_S1x1024_0_0)

/-- The tile's edge sum and its adjacency sum at point `t`. -/
def tileNum (c : Dev nD) (t : Fin cfg0.N) : FVec F S1x1 .f32 :=
  k0_pay7 (iblk m c 0 t) (iblk m c 1 t) (colOf (iblk m c 2 t)) (rowOf (iblk m c 3 t)) (iblk m c 4 t)
def tileAdj (c : Dev nD) (t : Fin cfg0.N) : FVec F S1x1 .f32 := k0_pay8 (iblk m c 4 t)

theorem accN_mid_eq (c : Dev nD) (t : Fin cfg0.N) (hf : ¬t.val % 8 = 0) (hl : ¬t.val % 8 = 7) (s0 s1 : Vec F S1x1 .f32) :
    accN_mid m c t hf hl s0 s1 = k0_pay1 (tileNum m c t) s0 := by
  unfold accN_mid tileNum
  rw [View.read_writes_eq_canon _ _ _ (coverN_mid m c t hf hl s0 s1)]
  unfold midAt runMid
  dsimp only
  sl_unfold_words
  rw [View.canon_unit_zero hz]
  simp only [View.readAt_eq_ld, Memref.IsWhole.read_unread, View.ld_unit_zero (S := S1024x128) hz, View.ld_unit_zero (S := S1024x1024) hz,
    View.ld_unit_zero (S := S1x1) hz, View.readCov_unit_zero (S := S1x1) _ hz, View.ld_unit_zero (S := S1x8x128) hz3]
  exact congrArg (k0_pay1 _) ((Memref.isWhole_whole cc0_scratch0).read_unread s0)

theorem accA_mid_eq (c : Dev nD) (t : Fin cfg0.N) (hf : ¬t.val % 8 = 0) (hl : ¬t.val % 8 = 7) (s0 s1 : Vec F S1x1 .f32) :
    accA_mid m c t hf hl s0 s1 = k0_pay2 (tileAdj m c t) s1 := by
  unfold accA_mid tileAdj
  rw [View.read_writes_eq_canon _ _ _ (coverA_mid m c t hf hl s0 s1)]
  unfold midAt runMid
  dsimp only
  sl_unfold_words
  rw [View.canon_unit_zero hz]
  simp only [View.readAt_eq_ld, Memref.IsWhole.read_unread, View.ld_unit_zero (S := S1024x128) hz, View.ld_unit_zero (S := S1024x1024) hz,
    View.ld_unit_zero (S := S1x1) hz, View.readCov_unit_zero (S := S1x1) _ hz, View.ld_unit_zero (S := S1x8x128) hz3]
  exact congrArg (k0_pay2 _) ((Memref.isWhole_whole cc0_scratch1).read_unread s1)

theorem accN_last_eq (c : Dev nD) (t : Fin cfg0.N) (hf : ¬t.val % 8 = 0) (hl : t.val % 8 = 7) (s0 s1 : Vec F S1x1 .f32) :
    accN_last m c t hf hl s0 s1 = k0_pay1 (tileNum m c t) s0 := by
  unfold accN_last tileNum
  rw [View.read_writes_eq_canon _ _ _ (coverN_last m c t hf hl s0 s1)]
  unfold lastAt runLast
  dsimp only
  sl_unfold_words
  rw [View.canon_unit_zero hz]
  simp only [View.readAt_eq_ld, Memref.IsWhole.read_unread, View.ld_unit_zero (S := S1024x128) hz, View.ld_unit_zero (S := S1024x1024) hz,
    View.ld_unit_zero (S := S1x1) hz, View.readCov_unit_zero (S := S1x1) _ hz, View.ld_unit_zero (S := S1x8x128) hz3]
  exact congrArg (k0_pay1 _) ((Memref.isWhole_whole cc0_scratch0).read_unread s0)

theorem accA_last_eq (c : Dev nD) (t : Fin cfg0.N) (hf : ¬t.val % 8 = 0) (hl : t.val % 8 = 7) (s0 s1 : Vec F S1x1 .f32) :
    accA_last m c t hf hl s0 s1 = k0_pay2 (tileAdj m c t) s1 := by
  unfold accA_last tileAdj
  rw [View.read_writes_eq_canon _ _ _ (coverA_last m c t hf hl s0 s1)]
  unfold lastAt runLast
  dsimp only
  sl_unfold_words
  rw [View.canon_unit_zero hz]
  simp only [View.readAt_eq_ld, Memref.IsWhole.read_unread, View.ld_unit_zero (S := S1024x128) hz, View.ld_unit_zero (S := S1024x1024) hz,
    View.ld_unit_zero (S := S1x1) hz, View.readCov_unit_zero (S := S1x1) _ hz, View.ld_unit_zero (S := S1x8x128) hz3]
  exact congrArg (k0_pay2 _) ((Memref.isWhole_whole cc0_scratch1).read_unread s1)

theorem accN_first_eq (c : Dev nD) (t : Fin cfg0.N) (hf : t.val % 8 = 0) (hl : ¬t.val % 8 = 7) :
    accN_first m c t hf hl = k0_pay1 (tileNum m c t) (k0_pay5 (F := F)) := by
  unfold accN_first tileNum
  rw [View.read_writes_eq_canon _ _ _ (coverN_first m c t hf hl)]
  unfold firstAt runFirst
  dsimp only
  sl_unfold_words
  rw [View.canon_cons_unit_zero hz]
  simp only [View.readAt_eq_ld, Memref.IsWhole.read_unread, View.ld_unit_zero (S := S1024x128) hz, View.ld_unit_zero (S := S1024x1024) hz,
    View.ld_unit_zero (S := S1x1) hz, View.readCov_unit_zero (S := S1x1) _ hz, View.ld_unit_zero (S := S1x8x128) hz3]

theorem accA_first_eq (c : Dev nD) (t : Fin cfg0.N) (hf : t.val % 8 = 0) (hl : ¬t.val % 8 = 7) :
    accA_first m c t hf hl = k0_pay2 (tileAdj m c t) (k0_pay6 (F := F)) := by
  unfold accA_first tileAdj
  rw [View.read_writes_eq_canon _ _ _ (coverA_first m c t hf hl)]
  unfold firstAt runFirst
  dsimp only
  sl_unfold_words
  rw [View.canon_cons_unit_zero hz]
  simp only [View.readAt_eq_ld, Memref.IsWhole.read_unread, View.ld_unit_zero (S := S1024x128) hz, View.ld_unit_zero (S := S1024x1024) hz,
    View.ld_unit_zero (S := S1x1) hz, View.readCov_unit_zero (S := S1x1) _ hz, View.ld_unit_zero (S := S1x8x128) hz3]

theorem out5_last_eq (c : Dev nD) (t : Fin cfg0.N) (hf : ¬t.val % 8 = 0) (hl : t.val % 8 = 7) (s0 s1 : Vec F S1x1 .f32) :
    out5_last m c t hf hl s0 s1 = k0_pay3 (k0_pay1 (tileNum m c t) s0) := by
  unfold out5_last tileNum
  rw [View.read_writes_eq_canon _ _ _ (cover5_last m c t hf hl s0 s1)]
  unfold lastAt runLast
  dsimp only
  sl_unfold_words
  rw [View.canon_unit_zero hz3]
  simp only [View.readAt_eq_ld, Memref.IsWhole.read_unread, View.ld_unit_zero (S := S1024x128) hz, View.ld_unit_zero (S := S1024x1024) hz,
    View.ld_unit_zero (S := S1x1) hz, View.readCov_unit_zero (S := S1x1) _ hz, View.ld_unit_zero (S := S1x8x128) hz3]
  exact congrArg (fun s => k0_pay3 (k0_pay1 _ s)) ((Memref.isWhole_whole cc0_scratch0).read_unread s0)

theorem out6_last_eq (c : Dev nD) (t : Fin cfg0.N) (hf : ¬t.val % 8 = 0) (hl : t.val % 8 = 7) (s0 s1 : Vec F S1x1 .f32) :
    out6_last m c t hf hl s0 s1 = k0_pay4 (k0_pay2 (tileAdj m c t) s1) := by
  unfold out6_last tileAdj
  rw [View.read_writes_eq_canon _ _ _ (cover6_last m c t hf hl s0 s1)]
  unfold lastAt runLast
  dsimp only
  sl_unfold_words
  rw [View.canon_unit_zero hz3]
  simp only [View.readAt_eq_ld, Memref.IsWhole.read_unread, View.ld_unit_zero (S := S1024x128) hz, View.ld_unit_zero (S := S1024x1024) hz,
    View.ld_unit_zero (S := S1x1) hz, View.readCov_unit_zero (S := S1x1) _ hz, View.ld_unit_zero (S := S1x8x128) hz3]
  exact congrArg (fun s => k0_pay4 (k0_pay2 _ s)) ((Memref.isWhole_whole cc0_scratch1).read_unread s1)

end Cert.KernelIdeal.Fr

end
-- ==== Proof.Spec.lean ====
/-
  The graph-distillation loss as one formula of its three arguments over the extended reals.

  With d = s − t (entry by entry), ‖d_r‖² the squared norm of row r and ⟨d_r, d_c⟩ the inner product of rows r and c,

      loss = 1 · ( (Σ_{r,k} d_rk²) / 2²⁰  +  (Σ_{r,c} [a_rc > 0] · ((‖d_r‖² + ‖d_c‖² − 2⟨d_r, d_c⟩) / 128)) / (Σ_{r,c} a_rc + ε) ),

  the sums running over the 8192 nodes (r, c) and the 128 features (k). The float constants stay the words the programs
  print (2, 128, 2²⁰, ε = 9.99999997·10⁻⁷, 1); the edge indicator is the comparison with the zero word read back as a float.
  Both programs are shown to end holding this number.
-/
import Idealize.ShloMosaic.PureOps.Ideal
import Idealize.ShloMosaic.Lib.ValueIdx

noncomputable section

namespace Cert.Spec

open Idealize.ShloMosaic Idealize.ShloMosaic.ValueIdx

/-- The node arrays' shape and the adjacency's. -/
abbrev SA : Shape := ⟨2, ![8192, 128]⟩
abbrev SB : Shape := ⟨2, ![8192, 8192]⟩

/-- The constants, as the words both programs print. -/
def w0 : EReal := Ideal.ofBits .f32 0x00000000#32
def w2 : EReal := Ideal.ofBits .f32 0x40000000#32
def w128 : EReal := Ideal.ofBits .f32 0x43000000#32
def wCount : EReal := Ideal.ofBits .f32 0x49800000#32
def wEps : EReal := Ideal.ofBits .f32 0x358637BD#32
def w1 : EReal := Ideal.ofBits .f32 0x3F800000#32

/-- The edge indicator of an adjacency entry: 1 where it is positive, else 0 (the one-bit comparison read as a float). -/
def maskOf (v : EReal) : EReal := FloatOps.uitofp (F := Ideal) .f32 (FloatOps.cmpf (F := Ideal) (φ := .f32) .ogt v w0)

section
variable (x0 x1 : SA.Idx → EReal) (x2 : SB.Idx → EReal)

/-- d = s − t at node r, feature k. -/
def diff (r : Fin 8192) (k : Fin 128) : EReal := x0 (ix2 r k) - x1 (ix2 r k)
/-- ‖d_r‖². -/
def sqn (r : Fin 8192) : EReal := ∑ k : Fin 128, diff x0 x1 r k * diff x0 x1 r k
/-- ⟨d_r, d_c⟩. -/
def gram (r c : Fin 8192) : EReal := ∑ k : Fin 128, diff x0 x1 r k * diff x0 x1 c k
/-- The mean squared difference of the two rows' differences: (‖d_r‖² + ‖d_c‖² − 2⟨d_r, d_c⟩) / 128. -/
def pair (r c : Fin 8192) : EReal := Ideal.div (sqn x0 x1 r + sqn x0 x1 c - w2 * gram x0 x1 r c) w128
/-- The edge term. -/
def edge (r c : Fin 8192) : EReal := maskOf (x2 (ix2 r c)) * pair x0 x1 r c
/-- Σ d². -/
def nodeSum : EReal := ∑ r : Fin 8192, ∑ k : Fin 128, diff x0 x1 r k * diff x0 x1 r k
/-- Σ over all ordered pairs of the edge term. -/
def numer : EReal := ∑ r : Fin 8192, ∑ c : Fin 8192, edge x0 x1 x2 r c
/-- Σ a. -/
def adjSum : EReal := ∑ r : Fin 8192, ∑ c : Fin 8192, x2 (ix2 r c)
/-- The loss. -/
def total : EReal := w1 * (Ideal.div (nodeSum x0 x1) wCount + Ideal.div (numer x0 x1 x2) (adjSum x2 + wEps))
end

end Cert.Spec

end
-- ==== Proof.LibKeepdims.lean ====
/-
  A column kept as a trailing unit axis, read at coordinates: the three layout steps of a row reduction with the reduced
  axis kept (`sum(axis=1, keepdims=True)`) followed by a broadcast back along the rows.

  • an `[a]` vector viewed as an `[a, 1]` column reads, at `(i, u)`, the vector at `i`;
  • an `[a, 1]` column broadcast to `[a, b]` reads, at `(p, c)`, the column at `(p, 0)`;
  • a sum of an `[a, b]` array along its second axis reads, at `i`, the sum over `n` of the array at `(i, n)`.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals, the sum of an `[a, b]` array along its second axis (started from the zero word) reads, at row
    `i`, the sum over `n` of the entries `(i, n)`. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (i : Fin a) :
    multiReduction (F := Ideal) .add [1] ⟨1, ![a]⟩ src 0x00000000#32 h hφ hacc (ix1 i) = ∑ n : Fin b, src (ix2 i n) :=
  (Ideal.multiReduction_add_single src 0x00000000#32 h hφ hacc (ix1 i)).trans
    (Finset.sum_congr rfl fun k _ => congrArg src (funext fun ax => Fin.ext (by
      match ax with
      | ⟨0, _⟩ => rfl
      | ⟨1, _⟩ => rfl)))

end Cert.Keepdims
-- ==== Proof.KV.Payload.lean ====
/-
  The kernel body's pure arithmetic, read at an index over the extended reals.

  One grid point handles a 1024 × 1024 tile of the adjacency. With d the difference array, the row block and the column
  block of d (1024 × 128 each), the column of the row block's squared norms ‖d_p‖², the row of the column block's squared
  norms ‖d_q‖² and the adjacency tile a, the body computes

      the tile's edge sum       Σ_{p,q} [a_pq > 0] · ((‖d_p‖² + ‖d_q‖² − 2 ⟨d_p, d_q⟩) · 2⁻⁷),
      the tile's adjacency sum  Σ_{p,q} a_pq,

  each as a lane sum (along q) followed by a sum down the resulting column (along p); it adds each to a one-by-one
  accumulator, clears the accumulators at the first tile of a row of tiles, and at the last spreads each accumulator's entry
  over a [1, 8, 128] output block. Every statement below reads one of these values at explicit coordinates.

  The non-pointwise steps are read by one small lemma each: the sum down an [a, 1] column; the product of the two blocks,
  which contracts the SECOND axis of both operands, so that entry (p, q) pairs row p of the left block with row q of the
  right block; and the edge indicator, where a one-bit comparison widened to 32 bits and converted as a signed integer is
  the bit converted as an unsigned one (both are 0 or 1).
-/
import proofs.«111500_j68917045231788_1_alg».proof.Proof.Gen.KernelIdeal.Skeleton
import proofs.«111500_j68917045231788_1_alg».proof.Proof.Spec
import proofs.«111500_j68917045231788_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- The sum of an `[a, 1]` column down its first axis (started from the zero word) reads, at its one entry, the sum over the
    rows `n` of the entries `(n, 0)`. -/
theorem colSum_apply {a : ℕ} (src : FVec Ideal ⟨2, ![a, 1]⟩ .f32) (h : (⟨2, ![a, 1]⟩ : Shape).Reduces [0] ⟨1, ![1]⟩)
    (hφ : FKind.Formats FTy.f32) (hacc : (0x00000000#32 : BitVec 32) = 0x00000000#32) (u : Fin 1) :
    multiReduction (F := Ideal) .add [0] ⟨1, ![1]⟩ src 0x00000000#32 h hφ hacc (ix1 u) = ∑ n : Fin a, src (ix2 n (0 : Fin 1)) :=
  (Ideal.multiReduction_add_single src 0x00000000#32 h hφ hacc (ix1 u)).trans
    (Finset.sum_congr rfl fun k _ => congrArg src (funext fun ax => Fin.ext (by
      match ax with
      | ⟨0, _⟩ => rfl
      | ⟨1, _⟩ =>
        have hu : u.val = 0 := by omega
        show u.val = 0
        exact hu)))

/-- A one-bit word widened to 32 bits and read signed is the bit read unsigned: both are 0 or 1. -/
theorem bit_signed_eq_unsigned (b : BitVec 1) :
    FloatOps.sitofp (F := Ideal) .f32 (b.setWidth 32) = FloatOps.uitofp (F := Ideal) .f32 b := by
  have h : ∀ c : BitVec 1, (c.setWidth 32).toInt = (c.toNat : ℤ) := by decide
  show ((((b.setWidth 32).toInt : ℤ) : ℝ) : EReal) = (((b.toNat : ℕ) : ℝ) : EReal)
  rw [h b]
  norm_cast

/-! ## The tile's Gram product: both operands contract their second axis -/

theorem lhs_gram_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_gram_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem rhs_gram_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_gram_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- The product into the zero accumulator reads, at `(p, q)`, the inner product over the 128 features of row `p` of the
    left block and row `q` of the right block. -/
theorem gram_apply (l r : FVec Ideal S1024x128 .bf16) (p q : Fin 1024) :
    matmul dot_S1024x128_S1024x128_S1024x1024_1_1_0_0_n_n none l r (constant (F := Ideal) S1024x1024 .f32 0x00000000#32) (ix2 p q)
      = ∑ k : Fin 128, l (ix2 p k) * r (ix2 q k) := by
  simp only [matmul]
  rw [Ideal.matmul_constant_zero_apply, ← Equiv.sum_comp (ValueIdx.contrEquiv1 dot_S1024x128_S1024x128_S1024x1024_1_1_0_0_n_n 128 rfl rfl).symm]
  refine Finset.sum_congr rfl fun k _ => ?_
  have hk := ValueIdx.contrEquiv1_symm_val dot_S1024x128_S1024x128_S1024x1024_1_1_0_0_n_n 128 rfl rfl k
  have el : dot_S1024x128_S1024x128_S1024x1024_1_1_0_0_n_n.lhsIdx (ix2 p q) ((ValueIdx.contrEquiv1 dot_S1024x128_S1024x128_S1024x1024_1_1_0_0_n_n 128 rfl rfl).symm k) = ix2 p k := funext fun a => Fin.ext (by
    match a with
    | ⟨0, _⟩ => exact lhs_gram_0 _ _
    | ⟨1, _⟩ => exact (lhs_gram_1 _ _).trans hk)
  have er : dot_S1024x128_S1024x128_S1024x1024_1_1_0_0_n_n.rhsIdx (ix2 p q) ((ValueIdx.contrEquiv1 dot_S1024x128_S1024x128_S1024x1024_1_1_0_0_n_n 128 rfl rfl).symm k) = ix2 q k := funext fun a => Fin.ext (by
    match a with
    | ⟨0, _⟩ => exact rhs_gram_0 _ _
    | ⟨1, _⟩ => exact (rhs_gram_1 _ _).trans hk)
  rw [el, er]

/-! ## The edge indicator: the comparison with the zero word, widened and converted -/

/-- The comparison with the zero word, widened to 32 bits and converted signed, reads at an entry the edge indicator of
    that entry. -/
theorem mask_apply (x : Vec Ideal S1024x1024 .f32) (p q : Fin 1024) :
    (sitofp .f32 (extui 32 (cmpf .ogt x (broadcast S1024x1024 (Scalar.ofBits (F := Ideal) .f32 0x00000000#32))) natLt_1_32)
        : FVec Ideal S1024x1024 .f32) (ix2 p q)
      = Cert.Spec.maskOf (x (ix2 p q)) := by
  rw [sitofp_apply, extui_apply, cmpf_apply, broadcast_apply]
  exact bit_signed_eq_unsigned _

/-- The tile's edge sum: over the rows `p` and the columns `q` of the tile, the edge indicator of the adjacency entry times
    the scaled squared distance (‖d_p‖² + ‖d_q‖² − 2⟨d_p, d_q⟩) · 2⁻⁷, the inner product taken over the 128 features. The
    lane sum, its view as a column, the sum down the column and its view as a one-by-one array are read one after the
    other; then the entry is read through the pointwise operations, the two broadcasts and the product. -/
theorem tileNum_apply (x0 x1 : Vec Ideal S1024x128 .bf16) (x2c : Vec Ideal S1024x1 .f32) (x3r : Vec Ideal S1x1024 .f32)
    (x4 : Vec Ideal S1024x1024 .f32) (u v : Fin 1) :
    k0_pay7 (F := Ideal) x0 x1 x2c x3r x4 (ix2 u v)
      = ∑ p : Fin 1024, ∑ q : Fin 1024, Cert.Spec.maskOf (x4 (ix2 p q))
          * ((x2c (ix2 p 0) + x3r (ix2 0 q) - Cert.Spec.w2 * ∑ k : Fin 128, x0 (ix2 p k) * x1 (ix2 q k))
              * Ideal.ofBits .f32 0x3C000000#32) := by
  unfold k0_pay7
  refine (Cert.Keepdims.shapeCast_a_a1_apply _ shapeCasts_S1_S1x1 u v).trans ?_
  refine (colSum_apply _ reduces_S1024x1_S1 (.inl rfl) rfl u).trans ?_
  refine Finset.sum_congr rfl fun p _ => ?_
  refine (Cert.Keepdims.shapeCast_a_a1_apply _ shapeCasts_S1024_S1024x1 p 0).trans ?_
  refine (Cert.Keepdims.rowSum_apply _ reduces_S1024x1024_S1024 (.inl rfl) rfl p).trans ?_
  refine Finset.sum_congr rfl fun q _ => ?_
  rw [mulf_apply, mask_apply, mulf_apply, subf_apply, addf_apply, mulf_apply, broadcast_apply, broadcast_apply,
    Cert.Keepdims.broadcastTo_a1_ab_apply, broadcastTo_1b_ab_apply, gram_apply]
  simp only [shapeCast_self]
  rfl

theorem tileAdj_apply (x4 : Vec Ideal S1024x1024 .f32) (u v : Fin 1) :
    k0_pay8 (F := Ideal) x4 (ix2 u v) = ∑ p : Fin 1024, ∑ q : Fin 1024, x4 (ix2 p q) := by
  unfold k0_pay8
  refine (Cert.Keepdims.shapeCast_a_a1_apply _ shapeCasts_S1_S1x1 u v).trans ?_
  refine (colSum_apply _ reduces_S1024x1_S1 (.inl rfl) rfl u).trans ?_
  refine Finset.sum_congr rfl fun p _ => ?_
  refine (Cert.Keepdims.shapeCast_a_a1_apply _ shapeCasts_S1024_S1024x1 p 0).trans ?_
  exact Cert.Keepdims.rowSum_apply _ reduces_S1024x1024_S1024 (.inl rfl) rfl p

/-! ## The accumulators: added to, cleared, spread over the output block -/

/-- The tile's edge sum added to the accumulator's contents. -/
theorem accNum_apply (T : FVec Ideal S1x1 .f32) (s : Vec Ideal S1x1 .f32) (u v : Fin 1) :
    k0_pay1 (F := Ideal) T s (ix2 u v) = s (ix2 u v) + T (ix2 u v) := by
  unfold k0_pay1
  rw [shapeCast_self]
  rfl

/-- The tile's adjacency sum added to the accumulator's contents. -/
theorem accAdj_apply (T : FVec Ideal S1x1 .f32) (s : Vec Ideal S1x1 .f32) (u v : Fin 1) :
    k0_pay2 (F := Ideal) T s (ix2 u v) = s (ix2 u v) + T (ix2 u v) := by
  unfold k0_pay2
  rw [shapeCast_self]
  rfl

/-- The zero word spread over the one-by-one accumulator is the extended real 0. -/
theorem clearNum_apply (u v : Fin 1) : k0_pay5 (F := Ideal) (ix2 u v) = 0 := by
  unfold k0_pay5
  rw [shapeCast_self, broadcast_apply]
  exact Ideal.ofBits_zero_f32

theorem clearAdj_apply (u v : Fin 1) : k0_pay6 (F := Ideal) (ix2 u v) = 0 := by
  unfold k0_pay6
  rw [shapeCast_self, broadcast_apply]
  exact Ideal.ofBits_zero_f32

/-- The accumulator's one entry spread over the [1, 8, 128] output block reads that entry everywhere. -/
theorem spreadNum_apply (s : Vec Ideal S1x1 .f32) (a : Fin 1) (b : Fin 8) (l : Fin 128) :
    k0_pay3 (F := Ideal) s (ix3 a b l) = s (ix2 0 0) := by
  unfold k0_pay3
  rw [broadcast_apply]
  unfold extractAt
  exact congrArg s (funext fun ax => Fin.ext (by
    match ax with
    | ⟨0, _⟩ => rfl
    | ⟨1, _⟩ => rfl))

theorem spreadAdj_apply (s : Vec Ideal S1x1 .f32) (a : Fin 1) (b : Fin 8) (l : Fin 128) :
    k0_pay4 (F := Ideal) s (ix3 a b l) = s (ix2 0 0) := by
  unfold k0_pay4
  rw [broadcast_apply]
  unfold extractAt
  exact congrArg s (funext fun ax => Fin.ext (by
    match ax with
    | ⟨0, _⟩ => rfl
    | ⟨1, _⟩ => rfl))

end Cert.KernelIdeal.Pay

end
-- ==== Proof.KV.Accum.lean ====
/-
  The accumulators in closed form, over the extended reals. Write T(n) for the edge sum of the tile of point n and A(n)
  for its adjacency sum (one word each). After the body at point n = 8·i + j the first accumulator holds
  T(8i) + T(8i+1) + … + T(8i+j) and the second the same sum of A: it starts from 0 + T(8i) at j = 0 and each later point
  adds its tile's sum to what the point before left. At j = 7 each output block holds its accumulator's word at every
  entry, that is the row total Σ_{j<8} T(8i+j).
-/
import proofs.«111500_j68917045231788_1_alg».proof.Proof.KV.Pieces
import Idealize.ShloMosaic.Lib.ValueIdx
import Idealize.ShloMosaic.PureOps.Ideal
import Idealize.ShloMosaic.PureOps.Ideal.Laws
import proofs.«111500_j68917045231788_1_alg».proof.Proof.KV.Payload

set_option maxRecDepth 16384

noncomputable section

namespace Cert.KernelIdeal.Val

open Cert.KernelIdeal Cert.KernelIdeal.Gen Cert.KernelIdeal.Fr Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The tile sums of point `n` (0 past the grid), as extended reals. -/
def TN (c : Dev nD) (n : ℕ) : EReal := if h : n < cfg0.N then tileNum (F := Ideal) m c ⟨n, h⟩ (ix2 0 0) else 0
def TA (c : Dev nD) (n : ℕ) : EReal := if h : n < cfg0.N then tileAdj (F := Ideal) m c ⟨n, h⟩ (ix2 0 0) else 0

/-- One step: after a point with j > 0 each accumulator is what the point before left plus the point's tile sum. -/
theorem accN_step (c : Dev nD) (k : ℕ) (hn : k + 1 < cfg0.N) (hf : ¬(k + 1) % 8 = 0) :
    (contentsAt (F := Ideal) m c (k + 1) hn).2.2.1
      = k0_pay1 (tileNum (F := Ideal) m c ⟨k + 1, hn⟩) (contentsAt (F := Ideal) m c k (Nat.lt_of_succ_lt hn)).2.2.1 := by
  by_cases hl : (k + 1) % 8 = 7
  · rw [show contentsAt (F := Ideal) m c (k + 1) hn = _ from contentsAt_last (F := Ideal) m c ⟨k + 1, hn⟩ hf hl]
    exact accN_last_eq (F := Ideal) m c ⟨k + 1, hn⟩ hf hl (prevAt (F := Ideal) m c ⟨k + 1, hn⟩).2.2.1 (prevAt (F := Ideal) m c ⟨k + 1, hn⟩).2.2.2
  · rw [show contentsAt (F := Ideal) m c (k + 1) hn = _ from contentsAt_mid (F := Ideal) m c ⟨k + 1, hn⟩ hf hl]
    exact accN_mid_eq (F := Ideal) m c ⟨k + 1, hn⟩ hf hl (prevAt (F := Ideal) m c ⟨k + 1, hn⟩).2.2.1 (prevAt (F := Ideal) m c ⟨k + 1, hn⟩).2.2.2
theorem accA_step (c : Dev nD) (k : ℕ) (hn : k + 1 < cfg0.N) (hf : ¬(k + 1) % 8 = 0) :
    (contentsAt (F := Ideal) m c (k + 1) hn).2.2.2
      = k0_pay2 (tileAdj (F := Ideal) m c ⟨k + 1, hn⟩) (contentsAt (F := Ideal) m c k (Nat.lt_of_succ_lt hn)).2.2.2 := by
  by_cases hl : (k + 1) % 8 = 7
  · rw [show contentsAt (F := Ideal) m c (k + 1) hn = _ from contentsAt_last (F := Ideal) m c ⟨k + 1, hn⟩ hf hl]
    exact accA_last_eq (F := Ideal) m c ⟨k + 1, hn⟩ hf hl (prevAt (F := Ideal) m c ⟨k + 1, hn⟩).2.2.1 (prevAt (F := Ideal) m c ⟨k + 1, hn⟩).2.2.2
  · rw [show contentsAt (F := Ideal) m c (k + 1) hn = _ from contentsAt_mid (F := Ideal) m c ⟨k + 1, hn⟩ hf hl]
    exact accA_mid_eq (F := Ideal) m c ⟨k + 1, hn⟩ hf hl (prevAt (F := Ideal) m c ⟨k + 1, hn⟩).2.2.1 (prevAt (F := Ideal) m c ⟨k + 1, hn⟩).2.2.2

theorem accN_at (c : Dev nD) : ∀ (n : ℕ) (hn : n < cfg0.N),
    (contentsAt (F := Ideal) m c n hn).2.2.1 (ix2 0 0) = ∑ j ∈ Finset.range (n % 8 + 1), TN m c (8 * (n / 8) + j) := by
  intro n
  induction n with
  | zero =>
    intro hn
    have hf0 : (⟨0, hn⟩ : Fin cfg0.N).val % 8 = 0 := Nat.zero_mod _
    have hl0 : ¬(⟨0, hn⟩ : Fin cfg0.N).val % 8 = 7 := fun h => absurd (show 0 % 8 = 7 from h) (by decide)
    rw [show contentsAt (F := Ideal) m c 0 hn = _ from contentsAt_first (F := Ideal) m c ⟨0, hn⟩ hf0 hl0]
    show accN_first (F := Ideal) m c ⟨0, hn⟩ hf0 hl0 (ix2 0 0) = _
    rw [accN_first_eq, Cert.KernelIdeal.Pay.accNum_apply, Cert.KernelIdeal.Pay.clearNum_apply, zero_add]
    simp only [Nat.zero_mod, Nat.zero_div, Nat.mul_zero, Nat.zero_add, Finset.sum_range_one]
    unfold TN; rw [dif_pos hn]
  | succ k ih =>
    intro hn
    have hN : k + 1 < 64 := lt_of_lt_of_eq hn N_0
    by_cases hf : (k + 1) % 8 = 0
    · have hl : ¬(k + 1) % 8 = 7 := by omega
      rw [show contentsAt (F := Ideal) m c (k + 1) hn = _ from contentsAt_first (F := Ideal) m c ⟨k + 1, hn⟩ hf hl]
      show accN_first (F := Ideal) m c ⟨k + 1, hn⟩ hf hl (ix2 0 0) = _
      rw [accN_first_eq, Cert.KernelIdeal.Pay.accNum_apply, Cert.KernelIdeal.Pay.clearNum_apply, zero_add, hf, Finset.sum_range_one]
      have e : 8 * ((k + 1) / 8) + 0 = k + 1 := by omega
      rw [e]; unfold TN; rw [dif_pos hn]
    · rw [accN_step m c k hn hf, Cert.KernelIdeal.Pay.accNum_apply, ih (Nat.lt_of_succ_lt hn)]
      have h1 : (k + 1) / 8 = k / 8 := by omega
      have h2 : (k + 1) % 8 = k % 8 + 1 := by omega
      rw [h1, h2, Finset.sum_range_succ _ (k % 8 + 1)]
      congr 1
      have e : 8 * (k / 8) + (k % 8 + 1) = k + 1 := by omega
      rw [e]; unfold TN; rw [dif_pos hn]

theorem accA_at (c : Dev nD) : ∀ (n : ℕ) (hn : n < cfg0.N),
    (contentsAt (F := Ideal) m c n hn).2.2.2 (ix2 0 0) = ∑ j ∈ Finset.range (n % 8 + 1), TA m c (8 * (n / 8) + j) := by
  intro n
  induction n with
  | zero =>
    intro hn
    have hf0 : (⟨0, hn⟩ : Fin cfg0.N).val % 8 = 0 := Nat.zero_mod _
    have hl0 : ¬(⟨0, hn⟩ : Fin cfg0.N).val % 8 = 7 := fun h => absurd (show 0 % 8 = 7 from h) (by decide)
    rw [show contentsAt (F := Ideal) m c 0 hn = _ from contentsAt_first (F := Ideal) m c ⟨0, hn⟩ hf0 hl0]
    show accA_first (F := Ideal) m c ⟨0, hn⟩ hf0 hl0 (ix2 0 0) = _
    rw [accA_first_eq, Cert.KernelIdeal.Pay.accAdj_apply, Cert.KernelIdeal.Pay.clearAdj_apply, zero_add]
    simp only [Nat.zero_mod, Nat.zero_div, Nat.mul_zero, Nat.zero_add, Finset.sum_range_one]
    unfold TA; rw [dif_pos hn]
  | succ k ih =>
    intro hn
    have hN : k + 1 < 64 := lt_of_lt_of_eq hn N_0
    by_cases hf : (k + 1) % 8 = 0
    · have hl : ¬(k + 1) % 8 = 7 := by omega
      rw [show contentsAt (F := Ideal) m c (k + 1) hn = _ from contentsAt_first (F := Ideal) m c ⟨k + 1, hn⟩ hf hl]
      show accA_first (F := Ideal) m c ⟨k + 1, hn⟩ hf hl (ix2 0 0) = _
      rw [accA_first_eq, Cert.KernelIdeal.Pay.accAdj_apply, Cert.KernelIdeal.Pay.clearAdj_apply, zero_add, hf, Finset.sum_range_one]
      have e : 8 * ((k + 1) / 8) + 0 = k + 1 := by omega
      rw [e]; unfold TA; rw [dif_pos hn]
    · rw [accA_step m c k hn hf, Cert.KernelIdeal.Pay.accAdj_apply, ih (Nat.lt_of_succ_lt hn)]
      have h1 : (k + 1) / 8 = k / 8 := by omega
      have h2 : (k + 1) % 8 = k % 8 + 1 := by omega
      rw [h1, h2, Finset.sum_range_succ _ (k % 8 + 1)]
      congr 1
      have e : 8 * (k / 8) + (k % 8 + 1) = k + 1 := by omega
      rw [e]; unfold TA; rw [dif_pos hn]

/-- At j = 7 each output block holds its accumulator's word at every entry: the row total. -/
theorem out5_at (c : Dev nD) (t : Fin cfg0.N) (hl : t.val % 8 = 7) (a : Fin 1) (b : Fin 8) (l : Fin 128) :
    (contentsAt (F := Ideal) m c t.val t.isLt).1 (ix3 a b l) = ∑ j ∈ Finset.range 8, TN m c (8 * (t.val / 8) + j) := by
  have hf : ¬t.val % 8 = 0 := by omega
  have h := accN_at m c t.val t.isLt
  rw [hl] at h
  rw [← h, contentsAt_last (F := Ideal) m c t hf hl]
  dsimp only
  rw [out5_last_eq, accN_last_eq, Cert.KernelIdeal.Pay.spreadNum_apply]
theorem out6_at (c : Dev nD) (t : Fin cfg0.N) (hl : t.val % 8 = 7) (a : Fin 1) (b : Fin 8) (l : Fin 128) :
    (contentsAt (F := Ideal) m c t.val t.isLt).2.1 (ix3 a b l) = ∑ j ∈ Finset.range 8, TA m c (8 * (t.val / 8) + j) := by
  have hf : ¬t.val % 8 = 0 := by omega
  have h := accA_at m c t.val t.isLt
  rw [hl] at h
  rw [← h, contentsAt_last (F := Ideal) m c t hf hl]
  dsimp only
  rw [out6_last_eq, accA_last_eq, Cert.KernelIdeal.Pay.spreadAdj_apply]

end Cert.KernelIdeal.Val

end
-- ==== Proof.KV.Arrays.lean ====
/-
  The two result arrays after the run, entry by entry. Each is an 8 × 8 × 128 array tiled by eight blocks of shape
  1 × 8 × 128; block i is written back only at the last point of row i of the grid, n = 8·i + 7, where its buffer holds the
  row total Σ_{j<8} T(8i+j) (resp. of A) at every entry. So the array that holds, at (i, b, l), the row total of row i is
  what every write-back writes, read through that block; the eight blocks cover the array; hence the array after the run
  is that array.
-/
import proofs.«111500_j68917045231788_1_alg».proof.Proof.KV.Accum
import Idealize.ShloMosaic.Lib.ValueIdx
import Idealize.ShloMosaic.PureOps.Ideal
import Idealize.ShloMosaic.Lib.Pipeline.Value

set_option maxRecDepth 16384

noncomputable section

namespace Cert.KernelIdeal.Val

open Cert.KernelIdeal Cert.KernelIdeal.Gen Cert.KernelIdeal.Fr Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## The array of the edge sums -/

/-- The row totals of the edge sums, as contents of the result array: entry (i, b, l) holds Σ_{j<8} T(8i+j). -/
def rowsN (c : Dev nD) : S8x8x128.Idx → EReal :=
  fun y => ∑ j ∈ Finset.range 8, TN m c (8 * (y 0).val + j)

/-- The block index at point n = 8·i + j is (i, 0, 0): the first coordinate is n / 8, the other two are 0. -/
theorem blockIndex5 : ∀ t : Fin cfg0.N, win0_5.index t (0 : Fin 3) = t.val / 8 ∧ win0_5.index t (1 : Fin 3) = 0 ∧ win0_5.index t (2 : Fin 3) = 0 :=
  (by decide +kernel : ∀ t : Fin grid0.N, _)

/-- What a point with j = 7 writes back is block n / 8 of the row totals: the buffer holds Σ_{j<8} over row n / 8 at every
    entry, and an entry (a, b, l) of the block sits in the array at first coordinate (n / 8)·1 + a with a < 1. -/
theorem flushed5_eq (c : Dev nD) (t : Fin cfg0.N) (hf : (cfg0.win 5).flush t = true) :
    (dats (F := Ideal) m 0 c).flushed 5 t
      = ((cfg0.win 5).blk t).view.read (Elt Ideal) (rowsN m c : Buf (Elt Ideal) ((cfg0.win 5).arr.view.loc (c.tc : Thread nD τ))) := by
  have hl : t.val % 8 = 7 := (flush0_5 t).mp hf
  show (cfg0.win 5).cut (grid0.coords t) ((dats (F := Ideal) m 0 c).after 5 t) = _
  rw [after5]
  funext y
  have hy : (cfg0.win 5).xinj (grid0.coords t) y = ix3 (n0 := 1) (n1 := 8) (n2 := 128) (y 0) (y 1) (y 2) :=
    funext fun a => match a with | ⟨0, _⟩ => rfl | ⟨1, _⟩ => rfl | ⟨2, _⟩ => rfl
  show (contentsAt (F := Ideal) m c t.val t.isLt).1 ((cfg0.win 5).xinj (grid0.coords t) y) = rowsN m c (((cfg0.win 5).blk t).view.emb y)
  refine ((congrArg (contentsAt (F := Ideal) m c t.val t.isLt).1 hy).trans (out5_at m c t hl (y 0) (y 1) (y 2))).trans ?_
  unfold rowsN
  have h0 : ((((cfg0.win 5).blk t).view.emb y) 0).val = t.val / 8 := by
    show win0_5.index t (0 : Fin 3) * 1 + 1 * (y 0).val = t.val / 8
    have hy0 : (y 0).val < 1 := (y 0).isLt
    have := (blockIndex5 t).1
    omega
  rw [h0]

/-- An index of the array is in the block of point n iff each coordinate is in the block's range on its axis. -/
theorem mem_blk5 (t : Fin cfg0.N) (i : S8x8x128.Idx) :
    i ∈ ((cfg0.win 5).blk t).view.set ↔ ∀ a : Fin 3, win0_5.index t a * S1x8x128.size a ≤ (i a).val ∧ (i a).val < win0_5.index t a * S1x8x128.size a + S1x8x128.size a := by
  show i ∈ ((View.whole main_v11_0).slice (win0_5.rect t)).set ↔ _
  rw [View.set_slice_whole, Rect.mem_set_unit]
  exact Iff.rfl

/-- Every index (i, b, l) of the array lies in the block written back at the point 8·i + 7: that block is
    {i} × [0, 8) × [0, 128). -/
theorem cover5 (i : S8x8x128.Idx) : ∃ t : Fin cfg0.N, (cfg0.win 5).flush t = true ∧ i ∈ ((cfg0.win 5).blk t).view.set := by
  have h0 : (i 0).val < 8 := (i 0).isLt
  have h1 : (i 1).val < 8 := (i 1).isLt
  have h2 : (i 2).val < 128 := (i 2).isLt
  have hN : cfg0.N = 64 := N_0
  have ht : 8 * (i 0).val + 7 < cfg0.N := by omega
  refine ⟨⟨8 * (i 0).val + 7, ht⟩, (flush0_5 _).mpr (by show (8 * (i 0).val + 7) % 8 = 7; omega), ?_⟩
  rw [mem_blk5]
  obtain ⟨e0, e1, e2⟩ := blockIndex5 ⟨8 * (i 0).val + 7, ht⟩
  have e0' : win0_5.index ⟨8 * (i 0).val + 7, ht⟩ (0 : Fin 3) = (i 0).val := by
    rw [e0]; show (8 * (i 0).val + 7) / 8 = _; omega
  intro a
  match a with
  | ⟨0, _⟩ =>
    show win0_5.index ⟨8 * (i 0).val + 7, ht⟩ (0 : Fin 3) * 1 ≤ (i 0).val ∧ (i 0).val < win0_5.index ⟨8 * (i 0).val + 7, ht⟩ (0 : Fin 3) * 1 + 1
    omega
  | ⟨1, _⟩ =>
    show win0_5.index ⟨8 * (i 0).val + 7, ht⟩ (1 : Fin 3) * 8 ≤ (i 1).val ∧ (i 1).val < win0_5.index ⟨8 * (i 0).val + 7, ht⟩ (1 : Fin 3) * 8 + 8
    omega
  | ⟨2, _⟩ =>
    show win0_5.index ⟨8 * (i 0).val + 7, ht⟩ (2 : Fin 3) * 128 ≤ (i 2).val ∧ (i 2).val < win0_5.index ⟨8 * (i 0).val + 7, ht⟩ (2 : Fin 3) * 128 + 128
    omega

/-- The array after the run is the array of row totals: every write-back writes its block of it, and the blocks cover. -/
theorem arr5 (c : Dev nD) :
    (dats (F := Ideal) m 0 c).arrAt 5 cfg0.N = (rowsN m c : Buf (Elt Ideal) ((cfg0.win 5).arr.view.loc (c.tc : Thread nD τ))) :=
  (dats (F := Ideal) m 0 c).arrAt_eq_of_cover 5 (rowsN m c) (flushed5_eq m c) cover5

/-- Entry (i, b, l) of the array after the run is Σ_{j<8} T(8i+j). -/
theorem arr5_apply (c : Dev nD) (i : Fin 8) (b : Fin 8) (l : Fin 128) :
    (dats (F := Ideal) m 0 c).arrAt 5 cfg0.N (ix3 i b l) = ∑ j ∈ Finset.range 8, TN m c (8 * i.val + j) := by
  rw [arr5]; rfl

/-! ## The array of the adjacency sums -/

/-- The row totals of the adjacency sums, as contents of the result array: entry (i, b, l) holds Σ_{j<8} A(8i+j). -/
def rowsA (c : Dev nD) : S8x8x128.Idx → EReal :=
  fun y => ∑ j ∈ Finset.range 8, TA m c (8 * (y 0).val + j)

/-- The block index at point n = 8·i + j is (i, 0, 0): the first coordinate is n / 8, the other two are 0. -/
theorem blockIndex6 : ∀ t : Fin cfg0.N, win0_6.index t (0 : Fin 3) = t.val / 8 ∧ win0_6.index t (1 : Fin 3) = 0 ∧ win0_6.index t (2 : Fin 3) = 0 :=
  (by decide +kernel : ∀ t : Fin grid0.N, _)

/-- What a point with j = 7 writes back is block n / 8 of the row totals: the buffer holds Σ_{j<8} over row n / 8 at every
    entry, and an entry (a, b, l) of the block sits in the array at first coordinate (n / 8)·1 + a with a < 1. -/
theorem flushed6_eq (c : Dev nD) (t : Fin cfg0.N) (hf : (cfg0.win 6).flush t = true) :
    (dats (F := Ideal) m 0 c).flushed 6 t
      = ((cfg0.win 6).blk t).view.read (Elt Ideal) (rowsA m c : Buf (Elt Ideal) ((cfg0.win 6).arr.view.loc (c.tc : Thread nD τ))) := by
  have hl : t.val % 8 = 7 := (flush0_6 t).mp hf
  show (cfg0.win 6).cut (grid0.coords t) ((dats (F := Ideal) m 0 c).after 6 t) = _
  rw [after6]
  funext y
  have hy : (cfg0.win 6).xinj (grid0.coords t) y = ix3 (n0 := 1) (n1 := 8) (n2 := 128) (y 0) (y 1) (y 2) :=
    funext fun a => match a with | ⟨0, _⟩ => rfl | ⟨1, _⟩ => rfl | ⟨2, _⟩ => rfl
  show (contentsAt (F := Ideal) m c t.val t.isLt).2.1 ((cfg0.win 6).xinj (grid0.coords t) y) = rowsA m c (((cfg0.win 6).blk t).view.emb y)
  refine ((congrArg (contentsAt (F := Ideal) m c t.val t.isLt).2.1 hy).trans (out6_at m c t hl (y 0) (y 1) (y 2))).trans ?_
  unfold rowsA
  have h0 : ((((cfg0.win 6).blk t).view.emb y) 0).val = t.val / 8 := by
    show win0_6.index t (0 : Fin 3) * 1 + 1 * (y 0).val = t.val / 8
    have hy0 : (y 0).val < 1 := (y 0).isLt
    have := (blockIndex6 t).1
    omega
  rw [h0]

/-- An index of the array is in the block of point n iff each coordinate is in the block's range on its axis. -/
theorem mem_blk6 (t : Fin cfg0.N) (i : S8x8x128.Idx) :
    i ∈ ((cfg0.win 6).blk t).view.set ↔ ∀ a : Fin 3, win0_6.index t a * S1x8x128.size a ≤ (i a).val ∧ (i a).val < win0_6.index t a * S1x8x128.size a + S1x8x128.size a := by
  show i ∈ ((View.whole main_v11_1).slice (win0_6.rect t)).set ↔ _
  rw [View.set_slice_whole, Rect.mem_set_unit]
  exact Iff.rfl

/-- Every index (i, b, l) of the array lies in the block written back at the point 8·i + 7: that block is
    {i} × [0, 8) × [0, 128). -/
theorem cover6 (i : S8x8x128.Idx) : ∃ t : Fin cfg0.N, (cfg0.win 6).flush t = true ∧ i ∈ ((cfg0.win 6).blk t).view.set := by
  have h0 : (i 0).val < 8 := (i 0).isLt
  have h1 : (i 1).val < 8 := (i 1).isLt
  have h2 : (i 2).val < 128 := (i 2).isLt
  have hN : cfg0.N = 64 := N_0
  have ht : 8 * (i 0).val + 7 < cfg0.N := by omega
  refine ⟨⟨8 * (i 0).val + 7, ht⟩, (flush0_6 _).mpr (by show (8 * (i 0).val + 7) % 8 = 7; omega), ?_⟩
  rw [mem_blk6]
  obtain ⟨e0, e1, e2⟩ := blockIndex6 ⟨8 * (i 0).val + 7, ht⟩
  have e0' : win0_6.index ⟨8 * (i 0).val + 7, ht⟩ (0 : Fin 3) = (i 0).val := by
    rw [e0]; show (8 * (i 0).val + 7) / 8 = _; omega
  intro a
  match a with
  | ⟨0, _⟩ =>
    show win0_6.index ⟨8 * (i 0).val + 7, ht⟩ (0 : Fin 3) * 1 ≤ (i 0).val ∧ (i 0).val < win0_6.index ⟨8 * (i 0).val + 7, ht⟩ (0 : Fin 3) * 1 + 1
    omega
  | ⟨1, _⟩ =>
    show win0_6.index ⟨8 * (i 0).val + 7, ht⟩ (1 : Fin 3) * 8 ≤ (i 1).val ∧ (i 1).val < win0_6.index ⟨8 * (i 0).val + 7, ht⟩ (1 : Fin 3) * 8 + 8
    omega
  | ⟨2, _⟩ =>
    show win0_6.index ⟨8 * (i 0).val + 7, ht⟩ (2 : Fin 3) * 128 ≤ (i 2).val ∧ (i 2).val < win0_6.index ⟨8 * (i 0).val + 7, ht⟩ (2 : Fin 3) * 128 + 128
    omega

/-- The array after the run is the array of row totals: every write-back writes its block of it, and the blocks cover. -/
theorem arr6 (c : Dev nD) :
    (dats (F := Ideal) m 0 c).arrAt 6 cfg0.N = (rowsA m c : Buf (Elt Ideal) ((cfg0.win 6).arr.view.loc (c.tc : Thread nD τ))) :=
  (dats (F := Ideal) m 0 c).arrAt_eq_of_cover 6 (rowsA m c) (flushed6_eq m c) cover6

/-- Entry (i, b, l) of the array after the run is Σ_{j<8} A(8i+j). -/
theorem arr6_apply (c : Dev nD) (i : Fin 8) (b : Fin 8) (l : Fin 128) :
    (dats (F := Ideal) m 0 c).arrAt 6 cfg0.N (ix3 i b l) = ∑ j ∈ Finset.range 8, TA m c (8 * i.val + j) := by
  rw [arr6]; rfl

end Cert.KernelIdeal.Val

end
-- ==== Proof.Algebra.lean ====
/-
  Regrouping the sums over the 8192 nodes into an 8 × 8 grid of 1024 × 1024 tiles, and the reciprocal of 128.

  Every node number r < 8192 is i · 1024 + p for exactly one tile number i < 8 and one offset p < 1024, so a sum over
  the nodes is the sum over the tiles of the sums over the offsets; finite sums of extended reals commute and regroup
  freely (an additive commutative monoid). The word 0x3C000000 denotes 2⁻⁷ = 1/128 and the word 0x43000000 denotes 128,
  so multiplying by the first is dividing by the second.
-/
import proofs.«111500_j68917045231788_1_alg».proof.Proof.Spec
import Mathlib.Algebra.BigOperators.Group.Finset.Basic
import Mathlib.Algebra.BigOperators.Fin

noncomputable section

namespace Cert.Algebra

open Idealize.ShloMosaic

/-- Row (or column) number of entry p of tile i. -/
def blk (i : Fin 8) (p : Fin 1024) : Fin 8192 :=
  ⟨i.val * 1024 + p.val, by have := i.isLt; have := p.isLt; omega⟩

/-- Tile number and offset determine the node number and are determined by it: quotient and remainder by 1024. -/
def blkEquiv : Fin 8 × Fin 1024 ≃ Fin 8192 where
  toFun x := blk x.1 x.2
  invFun r := (⟨r.val / 1024, by have := r.isLt; omega⟩, ⟨r.val % 1024, by omega⟩)
  left_inv := by
    rintro ⟨i, p⟩
    have hi := i.isLt
    have hp := p.isLt
    refine Prod.ext (Fin.ext ?_) (Fin.ext ?_)
    · show (i.val * 1024 + p.val) / 1024 = i.val
      omega
    · show (i.val * 1024 + p.val) % 1024 = p.val
      omega
  right_inv := by
    intro r
    refine Fin.ext ?_
    show r.val / 1024 * 1024 + r.val % 1024 = r.val
    omega

/-- A sum over the nodes, tile by tile. -/
theorem sum_rows (g : Fin 8192 → EReal) :
    (∑ i : Fin 8, ∑ p : Fin 1024, g (blk i p)) = ∑ r : Fin 8192, g r := by
  -- the double sum is the sum over the pairs (i, p), which the bijection carries onto the nodes
  have h := Fintype.sum_prod_type' (fun (i : Fin 8) (p : Fin 1024) => g (blk i p))
  rw [← h]
  exact Fintype.sum_equiv blkEquiv _ _ (fun _ => rfl)

/-- A sum over the ordered pairs of nodes, tile by tile: within a tile along its columns, then its rows, then over the
    tiles of a row of tiles, then over the rows of tiles. -/
theorem sum_tiles (f : Fin 8192 → Fin 8192 → EReal) :
    (∑ i : Fin 8, ∑ j : Fin 8, ∑ p : Fin 1024, ∑ q : Fin 1024, f (blk i p) (blk j q))
      = ∑ r : Fin 8192, ∑ c : Fin 8192, f r c := by
  -- inside a row of tiles: exchange the tile-column sum with the row-offset sum, then regroup the columns
  have h1 : ∀ i : Fin 8,
      (∑ j : Fin 8, ∑ p : Fin 1024, ∑ q : Fin 1024, f (blk i p) (blk j q))
        = ∑ p : Fin 1024, ∑ c : Fin 8192, f (blk i p) c := by
    intro i
    rw [Finset.sum_comm]
    refine Finset.sum_congr rfl (fun p _ => ?_)
    exact sum_rows (fun c => f (blk i p) c)
  rw [Finset.sum_congr rfl (fun i _ => h1 i)]
  -- then regroup the rows
  exact sum_rows (fun r => ∑ c : Fin 8192, f r c)

/-- The word 0x43000000 denotes 128. -/
theorem w128_eq : Cert.Spec.w128 = ((128 : ℝ) : EReal) := by
  simp [Cert.Spec.w128, Ideal.ofBits, Ideal.ieee, -EReal.coe_mul]; norm_num

/-- The word 0x3C000000 denotes 2⁻⁷ = 1/128. -/
theorem wInv128_eq : Ideal.ofBits .f32 0x3C000000#32 = ((1 / 128 : ℝ) : EReal) := by
  simp [Ideal.ofBits, Ideal.ieee, -EReal.coe_mul]; norm_num

/-- The word 0x3C000000 is 2^-7 and the word 0x43000000 is 128: multiplying by the one is dividing by the other, on
    every extended real. -/
theorem mul_inv128 (x : EReal) : x * Ideal.ofBits .f32 0x3C000000#32 = Ideal.div x Cert.Spec.w128 := by
  rw [w128_eq, wInv128_eq, Ideal.div_coe (by norm_num : (128 : ℝ) ≠ 0)]

end Cert.Algebra

end
-- ==== Proof.KV.Blocks.lean ====
/-
  Each input block of the edge kernel at grid point t = 8·i + j, read entry by entry off the array it is cut from.
  A block's entry at inner coordinate y sits in the array at (block index) × (block extent) + y on each axis. The block
  indices over the 64 points are: the row blocks of the rounded difference, of the row norms and of the adjacency follow
  i = t / 8; the column blocks of the rounded difference, of the lane norms and of the adjacency follow j = t % 8; the
  remaining axis of each narrow block stays at block 0. So entry p of a row block is row i · 1024 + p of the array and
  entry q of a column block is column (or row, for the second copy of the rounded difference) j · 1024 + q.
-/
import proofs.«111500_j68917045231788_1_alg».proof.Proof.KV.Pieces
import proofs.«111500_j68917045231788_1_alg».proof.Proof.Algebra
import Idealize.ShloMosaic.Lib.ValueIdx
import Idealize.ShloMosaic.PureOps.Ideal
import Idealize.ShloMosaic.Lib.Pipeline.Value

set_option maxRecDepth 16384

noncomputable section

namespace Cert.KernelIdeal.Val

open Cert.KernelIdeal Cert.KernelIdeal.Gen Cert.KernelIdeal.Fr Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The tile row i = t / 8 and the tile column j = t % 8 of grid point t. -/
abbrev ti (t : Fin cfg0.N) : Fin 8 := ⟨t.val / 8, by have := t.isLt; have : cfg0.N = 64 := N_0; omega⟩
abbrev tj (t : Fin cfg0.N) : Fin 8 := ⟨t.val % 8, by omega⟩

/-! ## The block indices over the 64 points -/

/-- The first copy of the rounded difference: block (i, 0). -/
theorem index0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
/-- The second copy of the rounded difference: block (j, 0). -/
theorem index1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
/-- The row norms: block (i, 0). -/
theorem index2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)
/-- The lane norms: block (0, j). -/
theorem index3 : ∀ t : Fin cfg0.N, win0_3.index t (0 : Fin 2) = 0 ∧ win0_3.index t (1 : Fin 2) = t.val % 8 :=
  (by decide +kernel : ∀ t : Fin grid0.N, win0_3.index t (0 : Fin 2) = 0 ∧ win0_3.index t (1 : Fin 2) = t.val % 8)
/-- The adjacency: tile (i, j). -/
theorem index4 : ∀ t : Fin cfg0.N, win0_4.index t (0 : Fin 2) = t.val / 8 ∧ win0_4.index t (1 : Fin 2) = t.val % 8 :=
  (by decide +kernel : ∀ t : Fin grid0.N, win0_4.index t (0 : Fin 2) = t.val / 8 ∧ win0_4.index t (1 : Fin 2) = t.val % 8)

/-! ## Each block entry as an entry of its array -/

/-- Entry (p, k) of the row block of the rounded difference is entry (i · 1024 + p, k) of the rounded difference. -/
theorem blk0_apply (c : Dev nD) (t : Fin cfg0.N) (p : Fin 1024) (k : Fin 128) :
    iblk (F := Ideal) m c 0 t (ix2 p k) = V (F := Ideal) m c main_v10 (ix2 (Cert.Algebra.blk (ti t) p) k) := by
  obtain ⟨e0, e1⟩ := index0 t
  show V (F := Ideal) m c main_v10 (((cfg0.win 0).blk t).view.emb (ix2 p k)) = V (F := Ideal) m c main_v10 (ix2 (Cert.Algebra.blk (ti t) p) k)
  refine congrArg (V (F := Ideal) m c main_v10) ?_
  funext a; apply Fin.ext
  match a with
  | ⟨0, _⟩ => show win0_0.index t (0 : Fin 2) * 1024 + 1 * p.val = t.val / 8 * 1024 + p.val; omega
  | ⟨1, _⟩ => show win0_0.index t (1 : Fin 2) * 128 + 1 * k.val = k.val; omega

/-- Entry (q, k) of the column block of the rounded difference is entry (j · 1024 + q, k) of the rounded difference. -/
theorem blk1_apply (c : Dev nD) (t : Fin cfg0.N) (q : Fin 1024) (k : Fin 128) :
    iblk (F := Ideal) m c 1 t (ix2 q k) = V (F := Ideal) m c main_v10 (ix2 (Cert.Algebra.blk (tj t) q) k) := by
  obtain ⟨e0, e1⟩ := index1 t
  show V (F := Ideal) m c main_v10 (((cfg0.win 1).blk t).view.emb (ix2 q k)) = V (F := Ideal) m c main_v10 (ix2 (Cert.Algebra.blk (tj t) q) k)
  refine congrArg (V (F := Ideal) m c main_v10) ?_
  funext a; apply Fin.ext
  match a with
  | ⟨0, _⟩ => show win0_1.index t (0 : Fin 2) * 1024 + 1 * q.val = t.val % 8 * 1024 + q.val; omega
  | ⟨1, _⟩ => show win0_1.index t (1 : Fin 2) * 128 + 1 * k.val = k.val; omega

/-- Entry p of the first lane of the row-norm block is entry (i · 1024 + p, 0) of the row norms. -/
theorem col2_apply (c : Dev nD) (t : Fin cfg0.N) (p : Fin 1024) (u : Fin 1) :
    colOf (iblk (F := Ideal) m c 2 t) (ix2 p u) = V (F := Ideal) m c main_v7 (ix2 (Cert.Algebra.blk (ti t) p) 0) := by
  obtain ⟨e0, e1⟩ := index2 t
  have hu : u.val = 0 := by have := u.isLt; omega
  show V (F := Ideal) m c main_v7 (((cfg0.win 2).blk t).view.emb
      ((Rect.unit (s := S1024x128) ![0, 0] S1024x1.size inb_S1024x128_S1024x1_0_0).idx (ix2 p u)))
    = V (F := Ideal) m c main_v7 (ix2 (Cert.Algebra.blk (ti t) p) 0)
  refine congrArg (V (F := Ideal) m c main_v7) ?_
  funext a; apply Fin.ext
  match a with
  | ⟨0, _⟩ => show win0_2.index t (0 : Fin 2) * 1024 + 1 * (0 + 1 * p.val) = t.val / 8 * 1024 + p.val; omega
  | ⟨1, _⟩ => show win0_2.index t (1 : Fin 2) * 128 + 1 * (0 + 1 * u.val) = 0; omega

/-- Entry q of the first sublane of the lane-norm block is entry (0, j · 1024 + q) of the lane norms. -/
theorem row3_apply (c : Dev nD) (t : Fin cfg0.N) (u : Fin 1) (q : Fin 1024) :
    rowOf (iblk (F := Ideal) m c 3 t) (ix2 u q) = V (F := Ideal) m c main_v9 (ix2 0 (Cert.Algebra.blk (tj t) q)) := by
  obtain ⟨e0, e1⟩ := index3 t
  have hu : u.val = 0 := by have := u.isLt; omega
  show V (F := Ideal) m c main_v9 (((cfg0.win 3).blk t).view.emb
      ((Rect.unit (s := S8x1024) ![0, 0] S1x1024.size inb_S8x1024_S1x1024_0_0).idx (ix2 u q)))
    = V (F := Ideal) m c main_v9 (ix2 0 (Cert.Algebra.blk (tj t) q))
  refine congrArg (V (F := Ideal) m c main_v9) ?_
  funext a; apply Fin.ext
  match a with
  | ⟨0, _⟩ => show win0_3.index t (0 : Fin 2) * 8 + 1 * (0 + 1 * u.val) = 0; omega
  | ⟨1, _⟩ => show win0_3.index t (1 : Fin 2) * 1024 + 1 * (0 + 1 * q.val) = t.val % 8 * 1024 + q.val; omega

/-- Entry (p, q) of the adjacency tile is entry (i · 1024 + p, j · 1024 + q) of the adjacency. -/
theorem blk4_apply (c : Dev nD) (t : Fin cfg0.N) (p q : Fin 1024) :
    iblk (F := Ideal) m c 4 t (ix2 p q)
      = V (F := Ideal) m c main_arg2 (ix2 (Cert.Algebra.blk (ti t) p) (Cert.Algebra.blk (tj t) q)) := by
  obtain ⟨e0, e1⟩ := index4 t
  show V (F := Ideal) m c main_arg2 (((cfg0.win 4).blk t).view.emb (ix2 p q))
    = V (F := Ideal) m c main_arg2 (ix2 (Cert.Algebra.blk (ti t) p) (Cert.Algebra.blk (tj t) q))
  refine congrArg (V (F := Ideal) m c main_arg2) ?_
  funext a; apply Fin.ext
  match a with
  | ⟨0, _⟩ => show win0_4.index t (0 : Fin 2) * 1024 + 1 * p.val = t.val / 8 * 1024 + p.val; omega
  | ⟨1, _⟩ => show win0_4.index t (1 : Fin 2) * 1024 + 1 * q.val = t.val % 8 * 1024 + q.val; omega

end Cert.KernelIdeal.Val

end
-- ==== Proof.KV.HostValue.lean ====
/-
  The host operations around the edge region, read at an index over the extended reals.

  Before the region: d = s − t entry by entry (a change of float format is the identity here), the squared norm
  ‖d_r‖² = Σ_k d_rk² of each row, laid out once as a column repeated along the lanes and once as a row repeated along
  the sublanes, and the node term (Σ_{r,k} d_rk²) / 2²⁰. Each sum starts from the zero word, which is 0; the sum over
  both axes is the double sum over rows and features. No operation writes an argument.

  After the region: the first word of each of the eight row blocks of the two outputs is summed (a slice, a reshape
  that keeps the row-major position, a sum from the zero word), and the result is
  1 · (node term + (Σ_b out0_b) / (Σ_b out1_b + ε)), the constants kept as the printed words.
-/
import proofs.«111500_j68917045231788_1_alg».proof.Proof.KI.Setup
import proofs.«111500_j68917045231788_1_alg».proof.Proof.Spec
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.HostVal

open Cert.KernelIdeal Cert.KernelIdeal.Gen Cert.KernelIdeal.Fr
open Idealize.ShloMosaic Idealize.ShloMosaic.TcCoe Idealize.SL.Sem Idealize.ShloMosaic.StableHlo

variable (m : (ℓ : Loc nD τ sig) → Buf (Elt Ideal) ℓ)

open ValueIdx

/-! ## The operations before the region, as functions of the two node arrays -/

/-- d = s − t. -/
def dvec (x0 x1 : FVec Ideal S8192x128 .f32) : FVec Ideal S8192x128 .f32 := subf (F := Ideal) x0 x1
/-- The rows' squared norms: the sum of d² over the feature axis from the zero word. -/
def nvec (x0 x1 : FVec Ideal S8192x128 .f32) : FVec Ideal S8192 .f32 :=
  Host.reduceAdd (F := Ideal) (mulf (F := Ideal) (dvec x0 x1) (dvec x0 x1)) (constant (F := Ideal) S_ .f32 0x00000000#32) reducesTo_S8192x128_S8192_d1 h_S_

theorem dvec_apply (x0 x1 : FVec Ideal S8192x128 .f32) (r : Fin 8192) (k : Fin 128) :
    dvec x0 x1 (ix2 r k) = Cert.Spec.diff x0 x1 r k := rfl

theorem nvec_apply (x0 x1 : FVec Ideal S8192x128 .f32) (r : Fin 8192) :
    nvec x0 x1 (ix1 r) = Cert.Spec.sqn x0 x1 r := by
  have hR : S8192x128.Reduces [1] S8192 := by decide
  unfold nvec
  generalize hy : mulf (F := Ideal) (dvec x0 x1) (dvec x0 x1) = y
  simp only [Host.reduceAdd, Ideal.hostReduceAdd_def]
  rw [Ideal.hostReduceAdd_single reducesTo_S8192x128_S8192_d1 hR]
  subst hy
  show Ideal.ofBits .f32 0x00000000#32 + _ = _
  rw [Ideal.ofBits_zero_f32, zero_add]
  unfold Cert.Spec.sqn
  refine Finset.sum_congr rfl fun k _ => ?_
  have e : hR.lift (ix1 r) k = ix2 r k := funext fun a => Fin.ext (by match a with | ⟨0, _⟩ => rfl | ⟨1, _⟩ => rfl)
  rw [e]
  rfl

/-- Σ d² over both axes from the zero word, over the 2²⁰ word. -/
def mvec (x0 x1 : FVec Ideal S8192x128 .f32) : FVec Ideal S_ .f32 :=
  Host.divf (F := Ideal) (Host.reduceAdd (F := Ideal) (mulf (F := Ideal) (dvec x0 x1) (dvec x0 x1)) (constant (F := Ideal) S_ .f32 0x00000000#32) reducesTo_S8192x128_S_d0_1 h_S_)
    (constant (F := Ideal) S_ .f32 0x49800000#32)

theorem mvec_apply (x0 x1 : FVec Ideal S8192x128 .f32) (i : S_.Idx) :
    mvec x0 x1 i = Ideal.div (Cert.Spec.nodeSum x0 x1) Cert.Spec.wCount := by
  unfold mvec
  generalize hy : mulf (F := Ideal) (dvec x0 x1) (dvec x0 x1) = y
  show Ideal.div (Host.reduceAdd (F := Ideal) y (constant (F := Ideal) S_ .f32 0x00000000#32) reducesTo_S8192x128_S_d0_1 h_S_ i) (Ideal.ofBits .f32 0x49800000#32) = _
  simp only [Host.reduceAdd, Ideal.hostReduceAdd_def]
  rw [Ideal.hostReduceAdd_total reducesTo_S8192x128_S_d0_1 (fun b => b.elim0) y _ i]
  subst hy
  show Ideal.div (Ideal.ofBits .f32 0x00000000#32 + _) _ = _
  rw [Ideal.ofBits_zero_f32, zero_add, ValueIdx.sum_idx2]
  rfl

/-- A vector of one entry per node laid out as a column and repeated along the 128 lanes. -/
def colB (x : FVec Ideal S8192 .f32) : FVec Ideal S8192x128 .f32 :=
  broadcastInDim S8192x128 ![0, 1] bcast_S8192x1_S8192x128_0_1 (broadcastInDim S8192x1 ![0] bcast_S8192_S8192x1_0 x)
/-- The same laid out as a row and repeated along 8 sublanes. -/
def rowB (x : FVec Ideal S8192 .f32) : FVec Ideal S8x8192 .f32 :=
  broadcastInDim S8x8192 ![0, 1] bcast_S1x8192_S8x8192_0_1 (broadcastInDim S1x8192 ![1] bcast_S8192_S1x8192_1 x)

theorem colB_apply (x : FVec Ideal S8192 .f32) (r : Fin 8192) (l : Fin 128) : colB x (ix2 r l) = x (ix1 r) := by
  unfold colB
  refine (broadcastInDim_apply _ bcast_S8192x1_S8192x128_0_1 _ (ix2 r l) (ix2 r (0 : Fin 1)) (fun a => match a with
    | ⟨0, _⟩ => by show r.val = if (8192 : Nat) = 1 then 0 else r.val; rw [if_neg (by decide)]
    | ⟨1, _⟩ => by show 0 = if (1 : Nat) = 1 then 0 else l.val; rw [if_pos rfl])).trans ?_
  exact broadcastInDim_apply _ bcast_S8192_S8192x1_0 x (ix2 r (0 : Fin 1)) (ix1 r) (fun a => match a with
    | ⟨0, _⟩ => by show r.val = if (8192 : Nat) = 1 then 0 else r.val; rw [if_neg (by decide)])

theorem rowB_apply (x : FVec Ideal S8192 .f32) (a : Fin 8) (r : Fin 8192) : rowB x (ix2 a r) = x (ix1 r) := by
  unfold rowB
  refine (broadcastInDim_apply _ bcast_S1x8192_S8x8192_0_1 _ (ix2 a r) (ix2 (0 : Fin 1) r) (fun b => match b with
    | ⟨0, _⟩ => by show 0 = if (1 : Nat) = 1 then 0 else a.val; rw [if_pos rfl]
    | ⟨1, _⟩ => by show r.val = if (8192 : Nat) = 1 then 0 else r.val; rw [if_neg (by decide)])).trans ?_
  exact broadcastInDim_apply _ bcast_S8192_S1x8192_1 x (ix2 (0 : Fin 1) r) (ix1 r) (fun b => match b with
    | ⟨0, _⟩ => by show r.val = if (8192 : Nat) = 1 then 0 else r.val; rw [if_neg (by decide)])

/-! ## What the region finds in each array -/

theorem V_v10 (c : Dev nD) :
    (V (F := Ideal) m c main_v10 : S8192x128.Idx → EReal)
      = truncf (F := Ideal) .bf16 (dvec (m ((c.tc : Thread nD τ).loc main_arg0)) (m ((c.tc : Thread nD τ).loc main_arg1))) bitsLt_bf16_f32 := by
  dsimp only [V, V1]
  after_results
  rfl

theorem V_v7 (c : Dev nD) :
    (V (F := Ideal) m c main_v7 : S8192x128.Idx → EReal)
      = colB (nvec (m ((c.tc : Thread nD τ).loc main_arg0)) (m ((c.tc : Thread nD τ).loc main_arg1))) := by
  dsimp only [V, V1]
  after_results
  rfl

theorem V_v9 (c : Dev nD) :
    (V (F := Ideal) m c main_v9 : S8x8192.Idx → EReal)
      = rowB (nvec (m ((c.tc : Thread nD τ).loc main_arg0)) (m ((c.tc : Thread nD τ).loc main_arg1))) := by
  dsimp only [V, V1]
  after_results
  rfl

theorem V_v3 (c : Dev nD) :
    (V (F := Ideal) m c main_v3 : S_.Idx → EReal)
      = mvec (m ((c.tc : Thread nD τ).loc main_arg0)) (m ((c.tc : Thread nD τ).loc main_arg1)) := by
  dsimp only [V, V1]
  after_results
  rfl

/-! ## The arrays read at an index -/

theorem pre_diff (c : Dev nD) (r : Fin 8192) (k : Fin 128) :
    V (F := Ideal) m c main_v10 (ValueIdx.ix2 r k)
      = Cert.Spec.diff (m ((c.tc : Thread nD τ).loc main_arg0)) (m ((c.tc : Thread nD τ).loc main_arg1)) r k := by
  refine (congrFun (V_v10 m c) (ix2 r k)).trans ?_
  rfl

theorem pre_sqrow (c : Dev nD) (r : Fin 8192) (l : Fin 128) :
    V (F := Ideal) m c main_v7 (ValueIdx.ix2 r l)
      = Cert.Spec.sqn (m ((c.tc : Thread nD τ).loc main_arg0)) (m ((c.tc : Thread nD τ).loc main_arg1)) r := by
  refine (congrFun (V_v7 m c) (ix2 r l)).trans ?_
  rw [colB_apply, nvec_apply]

theorem pre_sqlane (c : Dev nD) (a : Fin 8) (r : Fin 8192) :
    V (F := Ideal) m c main_v9 (ValueIdx.ix2 a r)
      = Cert.Spec.sqn (m ((c.tc : Thread nD τ).loc main_arg0)) (m ((c.tc : Thread nD τ).loc main_arg1)) r := by
  refine (congrFun (V_v9 m c) (ix2 a r)).trans ?_
  rw [rowB_apply, nvec_apply]

theorem pre_node (c : Dev nD) (i : S_.Idx) :
    V (F := Ideal) m c main_v3 i
      = Ideal.div (Cert.Spec.nodeSum (m ((c.tc : Thread nD τ).loc main_arg0)) (m ((c.tc : Thread nD τ).loc main_arg1))) Cert.Spec.wCount := by
  refine (congrFun (V_v3 m c) i).trans ?_
  exact mvec_apply _ _ i

/-- No operation before the region writes an argument. -/
theorem pre_arg2 (c : Dev nD) : V (F := Ideal) m c main_arg2 = m ((c.tc : Thread nD τ).loc main_arg2) := by
  dsimp only [V, V1]
  after_results

/-! ## The operations after the region -/

/-- The first word of each of the eight row blocks of a region output, summed from the zero word. -/
def sum8 (y : FVec Ideal S8x8x128 .f32) : FVec Ideal S_ .f32 :=
  Host.reduceAdd (F := Ideal) (shapeCast S8 (extractStridedSlice S8x1x1 ![0, 0, 0] y slices_S8x8x128_S8x1x1_0_0_0) shapeCasts_S8x1x1_S8)
    (constant (F := Ideal) S_ .f32 0x00000000#32) reducesTo_S8_S_d0 h_S_

/-- The loss from the node term and the region's two outputs: 1 · (node + (Σ numerators) / (Σ adjacency + ε)). -/
def tailF (n : FVec Ideal S_ .f32) (y0 y1 : FVec Ideal S8x8x128 .f32) : FVec Ideal S_ .f32 :=
  mulf (F := Ideal) (constant (F := Ideal) S_ .f32 0x3F800000#32)
    (addf (F := Ideal) n (Host.divf (F := Ideal) (sum8 y0) (addf (F := Ideal) (sum8 y1) (constant (F := Ideal) S_ .f32 0x358637BD#32))))

/-- A sum over the indices of a rank-1 shape is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n := ⟨fun i => i 0, fun a => ix1 a, fun i => (eq_ix1 i).symm, fun _ => rfl⟩
  rw [← Equiv.sum_comp e.symm f]
  rfl

theorem sum8_apply (y : FVec Ideal S8x8x128 .f32) (i : S_.Idx) : sum8 y i = ∑ b : Fin 8, y (ix3 b (0 : Fin 8) (0 : Fin 128)) := by
  unfold sum8
  generalize hz : shapeCast S8 (extractStridedSlice S8x1x1 ![0, 0, 0] y slices_S8x8x128_S8x1x1_0_0_0) shapeCasts_S8x1x1_S8 = z
  simp only [Host.reduceAdd, Ideal.hostReduceAdd_def]
  rw [Ideal.hostReduceAdd_total reducesTo_S8_S_d0 (fun b => b.elim0) z _ i]
  subst hz
  show Ideal.ofBits .f32 0x00000000#32 + _ = _
  rw [Ideal.ofBits_zero_f32, zero_add, sum_idx1]
  refine Finset.sum_congr rfl fun b _ => ?_
  refine (shapeCast_apply _ shapeCasts_S8x1x1_S8 (ix1 b) (ix3 b (0 : Fin 1) (0 : Fin 1)) ?_).trans ?_
  · rw [Shape.rowMajor_val_three, Shape.rowMajor_val_one]
    show (b.val * 1 + 0) * 1 + 0 = b.val
    omega
  · exact extractStridedSlice_apply _ y slices_S8x8x128_S8x1x1_0_0_0 (ix3 b (0 : Fin 1) (0 : Fin 1)) (ix3 b (0 : Fin 8) (0 : Fin 128)) (fun a => match a with
      | ⟨0, _⟩ => by show b.val = 0 + b.val; omega
      | ⟨1, _⟩ => rfl
      | ⟨2, _⟩ => rfl)

theorem tailF_apply (n : FVec Ideal S_ .f32) (y0 y1 : FVec Ideal S8x8x128 .f32) (i : S_.Idx) :
    tailF n y0 y1 i = Cert.Spec.w1 * (n i + Ideal.div (∑ b : Fin 8, y0 (ix3 b (0 : Fin 8) (0 : Fin 128))) ((∑ b : Fin 8, y1 (ix3 b (0 : Fin 8) (0 : Fin 128))) + Cert.Spec.wEps)) := by
  rw [← sum8_apply y0 i, ← sum8_apply y1 i]
  rfl

theorem tail_term (W : Valuation τ sig (Elt Ideal)) :
    (StableHlo.after (hostOps1 (F := Ideal)) W (Proc.devRef .tc main_v21) : S_.Idx → EReal)
      = tailF (W (Proc.devRef .tc main_v3)) (W (Proc.devRef .tc main_v11_0)) (W (Proc.devRef .tc main_v11_1)) := by
  after_results
  rfl

/-- A valuation read at the node term and at the region's two outputs, at their literal types. -/
abbrev rdNode (W : Valuation τ sig (Elt Ideal)) : FVec Ideal S_ .f32 := W (Proc.devRef .tc main_v3)
abbrev rdOut0 (W : Valuation τ sig (Elt Ideal)) : FVec Ideal S8x8x128 .f32 := W (Proc.devRef .tc main_v11_0)
abbrev rdOut1 (W : Valuation τ sig (Elt Ideal)) : FVec Ideal S8x8x128 .f32 := W (Proc.devRef .tc main_v11_1)

theorem tail_value (W : Valuation τ sig (Elt Ideal)) (i : S_.Idx) :
    StableHlo.after (hostOps1 (F := Ideal)) W (Proc.devRef .tc main_v21) i
      = Cert.Spec.w1 * (rdNode W i + Ideal.div (∑ b : Fin 8, rdOut0 W (ValueIdx.ix3 b 0 0)) ((∑ b : Fin 8, rdOut1 W (ValueIdx.ix3 b 0 0)) + Cert.Spec.wEps)) := by
  refine (congrFun (tail_term W) i).trans ?_
  exact tailF_apply _ _ _ i

/-- The same with the three readings named by the caller. -/
theorem tail_value_of (W : Valuation τ sig (Elt Ideal)) (i : S_.Idx) (n : FVec Ideal S_ .f32) (y0 y1 : FVec Ideal S8x8x128 .f32)
    (hn : W (Proc.devRef .tc main_v3) = n) (h0 : W (Proc.devRef .tc main_v11_0) = y0) (h1 : W (Proc.devRef .tc main_v11_1) = y1) :
    StableHlo.after (hostOps1 (F := Ideal)) W (Proc.devRef .tc main_v21) i
      = Cert.Spec.w1 * (n i + Ideal.div (∑ b : Fin 8, y0 (ValueIdx.ix3 b 0 0)) ((∑ b : Fin 8, y1 (ValueIdx.ix3 b 0 0)) + Cert.Spec.wEps)) := by
  subst hn h0 h1
  exact tail_value W i

end Cert.KernelIdeal.HostVal
end
-- ==== Proof.KV.Final.lean ====
/-
  The kernel's result is the specification's number. The tile sum T(8i + j) is the sum over the tile's rows p and lanes q of
  the edge term of nodes (1024·i + p, 1024·j + q): the blocks the point loads are the matching rows of the difference
  array, of the row norms and of the adjacency, and multiplying by the word 2⁻⁷ is dividing by the word 128. The two output
  arrays hold the row totals Σ_j T(8i + j), the host sums them over i, and the 8 × 8 × 1024 × 1024 terms are all ordered
  pairs of nodes; likewise for the adjacency sum. What follows the region is the specification's own last line.
-/
import proofs.«111500_j68917045231788_1_alg».proof.Proof.KI.Launch
import proofs.«111500_j68917045231788_1_alg».proof.Proof.KV.Arrays
import proofs.«111500_j68917045231788_1_alg».proof.Proof.KV.Blocks
import proofs.«111500_j68917045231788_1_alg».proof.Proof.KV.HostValue
import proofs.«111500_j68917045231788_1_alg».proof.Proof.KV.Payload
import proofs.«111500_j68917045231788_1_alg».proof.Proof.Algebra
import Idealize.ShloMosaic.Lib.ValueIdx
import Idealize.ShloMosaic.PureOps.Ideal
import Idealize.ShloMosaic.PureOps.Ideal.Laws

set_option maxRecDepth 16384

noncomputable section

namespace Cert.KernelIdeal.Val

open Cert.KernelIdeal Cert.KernelIdeal.Gen Cert.KernelIdeal.Fr Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The three argument arrays on core `c`, as the specification takes them. -/
abbrev a0 (c : Dev nD) : Cert.Spec.SA.Idx → EReal := m ((c.tc : Thread nD τ).loc main_arg0)
abbrev a1 (c : Dev nD) : Cert.Spec.SA.Idx → EReal := m ((c.tc : Thread nD τ).loc main_arg1)
abbrev a2 (c : Dev nD) : Cert.Spec.SB.Idx → EReal := m ((c.tc : Thread nD τ).loc main_arg2)

/-- The five input blocks of point `t`, at their literal types. -/
abbrev b0 (c : Dev nD) (t : Fin cfg0.N) : Vec Ideal S1024x128 .bf16 := iblk (F := Ideal) m c 0 t
abbrev b1 (c : Dev nD) (t : Fin cfg0.N) : Vec Ideal S1024x128 .bf16 := iblk (F := Ideal) m c 1 t
abbrev b2 (c : Dev nD) (t : Fin cfg0.N) : Vec Ideal S1024x128 .f32 := iblk (F := Ideal) m c 2 t
abbrev b3 (c : Dev nD) (t : Fin cfg0.N) : Vec Ideal S8x1024 .f32 := iblk (F := Ideal) m c 3 t
abbrev b4 (c : Dev nD) (t : Fin cfg0.N) : Vec Ideal S1024x1024 .f32 := iblk (F := Ideal) m c 4 t

theorem point_lt (i j : Fin 8) : 8 * i.val + j.val < cfg0.N :=
  Nat.lt_of_lt_of_eq (by have := i.isLt; have := j.isLt; omega : 8 * i.val + j.val < 64) (N_0.symm : 64 = cfg0.N)
theorem ti_point (i j : Fin 8) : ti ⟨8 * i.val + j.val, point_lt i j⟩ = i := Fin.ext (by show (8 * i.val + j.val) / 8 = i.val; have := j.isLt; omega)
theorem tj_point (i j : Fin 8) : tj ⟨8 * i.val + j.val, point_lt i j⟩ = j := Fin.ext (by show (8 * i.val + j.val) % 8 = j.val; have := j.isLt; omega)

/-- The edge sum of tile (i, j) is the sum of the edge terms of its node pairs. -/
theorem TN_eq (c : Dev nD) (i j : Fin 8) :
    TN m c (8 * i.val + j.val) = ∑ p : Fin 1024, ∑ q : Fin 1024, Cert.Spec.edge (a0 m c) (a1 m c) (a2 m c) (Cert.Algebra.blk i p) (Cert.Algebra.blk j q) := by
  unfold TN; rw [dif_pos (point_lt i j)]
  have hi := ti_point i j
  have hj := tj_point i j
  generalize (⟨8 * i.val + j.val, point_lt i j⟩ : Fin cfg0.N) = t at hi hj
  unfold tileNum
  refine (Cert.KernelIdeal.Pay.tileNum_apply (b0 m c t) (b1 m c t) (colOf (b2 m c t)) (rowOf (b3 m c t)) (b4 m c t) 0 0).trans ?_
  refine Finset.sum_congr rfl fun p _ => Finset.sum_congr rfl fun q _ => ?_
  have e4 : b4 m c t (ix2 p q) = a2 m c (ix2 (Cert.Algebra.blk i p) (Cert.Algebra.blk j q)) := by
    have h := blk4_apply m c t p q; rw [hi, hj, Cert.KernelIdeal.HostVal.pre_arg2 m c] at h; exact h
  have e2 : colOf (b2 m c t) (ix2 p 0) = Cert.Spec.sqn (a0 m c) (a1 m c) (Cert.Algebra.blk i p) := by
    have h := col2_apply m c t p 0; rw [hi, Cert.KernelIdeal.HostVal.pre_sqrow m c] at h; exact h
  have e3 : rowOf (b3 m c t) (ix2 0 q) = Cert.Spec.sqn (a0 m c) (a1 m c) (Cert.Algebra.blk j q) := by
    have h := row3_apply m c t 0 q; rw [hj, Cert.KernelIdeal.HostVal.pre_sqlane m c] at h; exact h
  have eg : (∑ k : Fin 128, b0 m c t (ix2 p k) * b1 m c t (ix2 q k))
      = Cert.Spec.gram (a0 m c) (a1 m c) (Cert.Algebra.blk i p) (Cert.Algebra.blk j q) := by
    unfold Cert.Spec.gram
    refine Finset.sum_congr rfl fun k _ => ?_
    have e0 : b0 m c t (ix2 p k) = Cert.Spec.diff (a0 m c) (a1 m c) (Cert.Algebra.blk i p) k := by
      have h := blk0_apply m c t p k; rw [hi, Cert.KernelIdeal.HostVal.pre_diff m c] at h; exact h
    have e1 : b1 m c t (ix2 q k) = Cert.Spec.diff (a0 m c) (a1 m c) (Cert.Algebra.blk j q) k := by
      have h := blk1_apply m c t q k; rw [hj, Cert.KernelIdeal.HostVal.pre_diff m c] at h; exact h
    rw [e0, e1]
  rw [e4, e2, e3, eg, Cert.Algebra.mul_inv128]
  rfl

/-- The adjacency sum of tile (i, j). -/
theorem TA_eq (c : Dev nD) (i j : Fin 8) :
    TA m c (8 * i.val + j.val) = ∑ p : Fin 1024, ∑ q : Fin 1024, a2 m c (ix2 (Cert.Algebra.blk i p) (Cert.Algebra.blk j q)) := by
  unfold TA; rw [dif_pos (point_lt i j)]
  have hi := ti_point i j
  have hj := tj_point i j
  generalize (⟨8 * i.val + j.val, point_lt i j⟩ : Fin cfg0.N) = t at hi hj
  unfold tileAdj
  refine (Cert.KernelIdeal.Pay.tileAdj_apply (b4 m c t) 0 0).trans ?_
  refine Finset.sum_congr rfl fun p _ => Finset.sum_congr rfl fun q _ => ?_
  have h := blk4_apply m c t p q; rw [hi, hj, Cert.KernelIdeal.HostVal.pre_arg2 m c] at h; exact h

/-- The row totals summed over the eight rows of tiles are the sums over all ordered pairs of nodes. -/
theorem numer_eq (c : Dev nD) :
    (∑ b : Fin 8, ∑ j ∈ Finset.range 8, TN m c (8 * b.val + j)) = Cert.Spec.numer (a0 m c) (a1 m c) (a2 m c) := by
  unfold Cert.Spec.numer
  rw [← Cert.Algebra.sum_tiles]
  refine Finset.sum_congr rfl fun b _ => ?_
  rw [Finset.sum_range]
  exact Finset.sum_congr rfl fun j _ => TN_eq m c b j
theorem adjSum_eq (c : Dev nD) :
    (∑ b : Fin 8, ∑ j ∈ Finset.range 8, TA m c (8 * b.val + j)) = Cert.Spec.adjSum (a2 m c) := by
  unfold Cert.Spec.adjSum
  rw [← Cert.Algebra.sum_tiles]
  refine Finset.sum_congr rfl fun b _ => ?_
  rw [Finset.sum_range]
  exact Finset.sum_congr rfl fun j _ => TA_eq m c b j

/-- What the idealized kernel's program leaves in its result buffer. -/
theorem kernel_total (c : Dev nD) (i : S_.Idx) :
    V3 (F := Ideal) m c (Proc.devRef .tc main_v21) i = Cert.Spec.total (a0 m c) (a1 m c) (a2 m c) := by
  show StableHlo.after (hostOps1 (F := Ideal)) (V2 (F := Ideal) m c) (Proc.devRef .tc main_v21) i = _
  have hn : V2 (F := Ideal) m c (Proc.devRef .tc main_v3) = fun _ => Ideal.div (Cert.Spec.nodeSum (a0 m c) (a1 m c)) Cert.Spec.wCount :=
    (V2_of (F := Ideal) m c main_v3 (by decide) (by decide)).trans (funext fun i' => Cert.KernelIdeal.HostVal.pre_node m c i')
  have h0 : V2 (F := Ideal) m c (Proc.devRef .tc main_v11_0) = rowsN m c := (V2_out0 (F := Ideal) m c).trans (arr5 m c)
  have h1 : V2 (F := Ideal) m c (Proc.devRef .tc main_v11_1) = rowsA m c := (V2_out1 (F := Ideal) m c).trans (arr6 m c)
  rw [Cert.KernelIdeal.HostVal.tail_value_of (V2 (F := Ideal) m c) i _ _ _ hn h0 h1]
  have hN : (∑ b : Fin 8, rowsN m c (ix3 b 0 0)) = Cert.Spec.numer (a0 m c) (a1 m c) (a2 m c) :=
    (Finset.sum_congr rfl fun b _ => rfl).trans (numer_eq m c)
  have hA : (∑ b : Fin 8, rowsA m c (ix3 b 0 0)) = Cert.Spec.adjSum (a2 m c) :=
    (Finset.sum_congr rfl fun b _ => rfl).trans (adjSum_eq m c)
  rw [hN, hA]
  rfl

end Cert.KernelIdeal.Val

end
-- ==== Proof.RefValue.lean ====
/-
  The reference's result as one closed formula of the three argument arrays.

  Read one operation at a time, the reference forms d = s − t entry by entry, the total Σ_{r,k} d_rk² and its quotient
  by the 2²⁰ word, the row sums ‖d_r‖² = Σ_k d_rk², the products ⟨d_r, d_c⟩ = Σ_k d_rk · d_ck (a contraction of d with its
  own transpose), the pair term (‖d_r‖² + ‖d_c‖² − 2⟨d_r, d_c⟩) / 128 (the two row sums broadcast along a column and along
  a row), the edge indicator [a_rc > 0] read back as a float, the sum over all pairs of indicator × pair term, the sum of
  the adjacency, the quotient of the two (ε added below), and the sum of the two quotients times the 1 word. Each
  of these is the specification's term of the same name: a sum that starts from the zero word is the bare sum
  (0 + x = x), a sum over all indices of a rank-2 array is the double sum over its coordinates, and every other float
  word is the same word on both sides.
-/
import proofs.«111500_j68917045231788_1_alg».proof.Proof.Gen.ReferenceIdeal.Run
import proofs.«111500_j68917045231788_1_alg».proof.Proof.Gen.ReferenceIdeal.Read
import proofs.«111500_j68917045231788_1_alg».proof.Proof.Spec

noncomputable section

namespace Cert.RefValue

open Idealize.ShloMosaic Idealize.ShloMosaic.ValueIdx Idealize.ShloMosaic.TcCoe Idealize.SL.Sem
open Cert.ReferenceIdeal Cert.ReferenceIdeal.Read

/-! ## The composed index maps at coordinates -/

/-- Row r's k-th summand sits at (r, k). -/
theorem idx_row (r : Fin 8192) (k : Fin 128) : idx_main_v6 (ix1 r) k = ix2 r k :=
  funext fun a => match a with | ⟨0, _⟩ => rfl | ⟨1, _⟩ => rfl

/-- The contraction's left factor at output (r, c), summand k, sits at (r, k). -/
theorem idx_lhs (r c : Fin 8192) (k : Fin 128) : lidx_main_v8 (ix2 r c) k = ix2 r k :=
  funext fun a => match a with | ⟨0, _⟩ => rfl | ⟨1, _⟩ => rfl

/-- Its right factor, read through the transposition, sits at (c, k). -/
theorem idx_rhs (r c : Fin 8192) (k : Fin 128) : idx_main_v7 (ridx_main_v8 (ix2 r c) k) = ix2 c k :=
  funext fun a => match a with | ⟨0, _⟩ => rfl | ⟨1, _⟩ => rfl

/-- The row sums broadcast along a column read row r at (r, c). -/
theorem idx_bcast_row (r c : Fin 8192) : idx_main_v9 (idx_main_v11 (ix2 r c)) = ix1 r :=
  funext fun a => match a with | ⟨0, _⟩ => rfl

/-- The row sums broadcast along a row read row c at (r, c). -/
theorem idx_bcast_col (r c : Fin 8192) : idx_main_v10 (idx_main_v12 (ix2 r c)) = ix1 c :=
  funext fun a => match a with | ⟨0, _⟩ => rfl

section
variable (x0 x1 : (⟨S8192x128, .f32⟩ : BufTy).Contents (Elt Ideal))
  (x2 : (⟨S8192x8192, .f32⟩ : BufTy).Contents (Elt Ideal))

/-! ## The reference's intermediate arrays at coordinates -/

/-- The difference feeding the total: d_rk = s_rk − t_rk. -/
theorem diff0_at (r : Fin 8192) (k : Fin 128) :
    val_main_v0 (F := Ideal) x0 x1 (ix2 r k) = Cert.Spec.diff x0 x1 r k := rfl

/-- The difference feeding the pair terms: the same d_rk. -/
theorem diff_at (r : Fin 8192) (k : Fin 128) :
    val_main_v4 (F := Ideal) x0 x1 (ix2 r k) = Cert.Spec.diff x0 x1 r k := rfl

/-- The row sum: 0 + Σ_k d_rk · d_rk = ‖d_r‖². -/
theorem sqn_at (r : Fin 8192) : val_main_v6 (F := Ideal) x0 x1 (ix1 r) = Cert.Spec.sqn x0 x1 r := by
  rw [val_main_v6_apply, val_main_cst_1_apply, Ideal.ofBits_def, Ideal.ofBits_zero_f32, zero_add]
  unfold Cert.Spec.sqn
  refine Finset.sum_congr rfl fun k _ => ?_
  rw [idx_row, val_main_v5_apply, diff_at]
  rfl

/-- The contraction of d with its transpose: Σ_k d_rk · d_ck = ⟨d_r, d_c⟩. -/
theorem gram_at (r c : Fin 8192) : val_main_v8 (F := Ideal) x0 x1 (ix2 r c) = Cert.Spec.gram x0 x1 r c := by
  rw [val_main_v8_apply]
  unfold Cert.Spec.gram
  refine Finset.sum_congr rfl fun k _ => ?_
  rw [idx_lhs, val_main_v7_apply, idx_rhs, diff_at, diff_at]

/-- The pair term: (‖d_r‖² + ‖d_c‖² − 2⟨d_r, d_c⟩) / 128, the 2 and the 128 the printed words. -/
theorem pair_at (r c : Fin 8192) : val_main_v18 (F := Ideal) x0 x1 (ix2 r c) = Cert.Spec.pair x0 x1 r c := by
  rw [val_main_v18_apply, val_main_v16_apply, val_main_v13_apply, val_main_v11_apply, val_main_v9_apply, idx_bcast_row,
    val_main_v12_apply, val_main_v10_apply, idx_bcast_col, val_main_v15_apply, val_main_v14_apply, val_main_cst_2_apply,
    val_main_v17_apply, val_main_cst_3_apply, sqn_at, sqn_at, gram_at]
  rfl

/-- The edge term: the indicator of a_rc > 0, read back as a float, times the pair term. -/
theorem edge_at (r c : Fin 8192) :
    val_main_v22 (F := Ideal) x0 x1 x2 (ix2 r c) = Cert.Spec.edge x0 x1 x2 r c := by
  rw [val_main_v22_apply, val_main_v21_apply, val_main_v20_apply, val_main_v19_apply, val_main_cst_4_apply, pair_at]
  rfl

/-! ## The three total sums -/

/-- 0 + the sum over all indices of d², as the double sum over nodes and features. -/
theorem nodeSum_at (i : S_.Idx) : val_main_v2 (F := Ideal) x0 x1 i = Cert.Spec.nodeSum x0 x1 := by
  rw [val_main_v2_apply, val_main_cst_apply, Ideal.ofBits_def, Ideal.ofBits_zero_f32, zero_add, sum_idx2]
  exact Finset.sum_congr rfl fun r _ => Finset.sum_congr rfl fun k _ => rfl

/-- 0 + the sum over all indices of the edge terms, as the double sum over ordered pairs of nodes. -/
theorem numer_at (i : S_.Idx) : val_main_v23 (F := Ideal) x0 x1 x2 i = Cert.Spec.numer x0 x1 x2 := by
  rw [val_main_v23_apply, val_main_cst_5_apply, Ideal.ofBits_def, Ideal.ofBits_zero_f32, zero_add, sum_idx2]
  exact Finset.sum_congr rfl fun r _ => Finset.sum_congr rfl fun c _ => edge_at x0 x1 x2 r c

/-- 0 + the sum over all indices of the adjacency, as the double sum over ordered pairs of nodes. -/
theorem adjSum_at (i : S_.Idx) : val_main_v24 (F := Ideal) x2 i = Cert.Spec.adjSum x2 := by
  rw [val_main_v24_apply, val_main_cst_6_apply, Ideal.ofBits_def, Ideal.ofBits_zero_f32, zero_add, sum_idx2]
  rfl

/-! ## The result -/

/-- The reference ends holding the loss: 1 · (Σ d² / 2²⁰ + Σ edge terms / (Σ a + ε)). -/
theorem ref_total : val_main_v28 (F := Ideal) x0 x1 x2 = fun _ => Cert.Spec.total x0 x1 x2 := by
  funext i
  rw [val_main_v28_apply, val_main_cst_8_apply, val_main_v27_apply, val_main_v3_apply, val_main_cst_0_apply,
    val_main_v26_apply, val_main_v25_apply, val_main_cst_7_apply, nodeSum_at, numer_at, adjSum_at]
  rfl

end

end Cert.RefValue

end
-- ==== Proof.lean ====
/-
  The graph-distillation edge kernel against its jnp reference, over the extended reals.

  Both programs compute  1 · ( Σ d² / 2²⁰ + (Σ_{r,c} [a_rc > 0]·pair(r, c)) / (Σ a + ε) )  with d = s − t and
  pair(r, c) = (‖d_r‖² + ‖d_c‖² − 2⟨d_r, d_c⟩) / 128 (Proof/Spec.lean). The reference does so in one pass over whole arrays
  (Proof/RefValue.lean). The kernel streams the adjacency in 1024 × 1024 tiles on an 8 × 8 grid, multiplies by the word 2⁻⁷
  where the reference divides by the word 128 (the same extended real), sums each tile along lanes then rows, adds the
  tile sums of a row of tiles into a one-word accumulator, writes the eight row totals out and lets the host add them:
  a regrouping of one finite sum in a commutative monoid, so no finiteness of the inputs is used (Proof/KV/). Its frame —
  it runs to the end, faults nowhere, leaves its arguments as they were — is proved once, for any float instance, over the
  region's three cases (the first tile of a row clears the accumulators, the last writes them out), with the rounded
  difference array, which two of the region's windows read, held by halves (Proof/KI/ for the idealized program, the same
  text at the word-level program's names in Proof/K/). The idealization rewrote nothing, so `preserves` has nothing to say.
-/
import proofs.«111500_j68917045231788_1_alg».proof.Defs
import proofs.«111500_j68917045231788_1_alg».proof.Proof.Gen.Kernel
import proofs.«111500_j68917045231788_1_alg».proof.Proof.Gen.KernelIdeal
import proofs.«111500_j68917045231788_1_alg».proof.Proof.Gen.ReferenceIdeal
import proofs.«111500_j68917045231788_1_alg».proof.Proof.Gen.Pre_finite_inputs
import proofs.«111500_j68917045231788_1_alg».proof.Proof.Gen.ReferenceIdeal.Run
import proofs.«111500_j68917045231788_1_alg».proof.Proof.Gen.ReferenceIdeal.Read
import proofs.«111500_j68917045231788_1_alg».proof.Proof.K.Launch
import proofs.«111500_j68917045231788_1_alg».proof.Proof.KI.Launch
import proofs.«111500_j68917045231788_1_alg».proof.Proof.KV.Final
import proofs.«111500_j68917045231788_1_alg».proof.Proof.RefValue
import Idealize.ShloMosaic.Adequacy
import Idealize.ShloMosaic.Init

noncomputable section

namespace Cert.Proof

open Idealize.ShloMosaic Idealize.ShloMosaic.TcCoe Idealize.SL.Sem

namespace Claims

theorem frame_p : Cert.frame_Kernel := fun m ρ _ => Cert.Kernel.Fr.frame m ρ
theorem frame_pi : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the three arguments both programs end with the specification's number in their result. -/
theorem algebraic : Cert.algebraic_KernelIdeal_ReferenceIdeal := by
  intro m ρ m' ρ' _ hagree
  refine ⟨fun c _ => Cert.Spec.total (Cert.KernelIdeal.Val.a0 m c) (Cert.KernelIdeal.Val.a1 m c) (Cert.KernelIdeal.Val.a2 m c), ?_, ?_⟩
  · refine (θ_run Cert.KernelIdeal.defs _ _).mono (fun _ h c => ⟨(h c).1.trans ?_, (h c).2⟩) (Cert.KernelIdeal.Fr.run_main (F := Ideal) m ρ)
    funext i
    exact Cert.KernelIdeal.Val.kernel_total m c i
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, Cert.RefValue.ref_total, (hagree c).1, (hagree c).2.1, (hagree c).2.2]
    rfl

end Claims

theorem claim : Cert.Claim := ⟨Cert.Kernel.Gen.facts, Cert.KernelIdeal.Gen.facts, Cert.ReferenceIdeal.Gen.facts, Cert.Pre_finite_inputs.Gen.facts,
  Claims.frame_p, Claims.frame_pi, Claims.frame_ri, Claims.preserves, Claims.algebraic⟩

end Cert.Proof

end
